-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x128 : Shape := ⟨4, ![64, 256, 32, 128]⟩
abbrev S256 : Shape := ⟨1, ![256]⟩
abbrev S64 : Shape := ⟨1, ![64]⟩
abbrev S_ : Shape := ⟨0, ![]⟩

class Facts : Prop where
  bcast_S_S64x256x32x128 : S_.BroadcastsInDim S64x256x32x128 (![] : Fin 0 → Fin S64x256x32x128.rank)
  reducesTo_S64x256x32x128_S_d0_1_2_3 : S64x256x32x128.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x32x128 .f32) (main_arg1 : FVec F S256 .f32) (main_arg2 : FVec F S256 .f32) (main_arg3 : IVec S64 32) : IVec S_ 1 :=
  let main_v0 : FVec F S64x256x32x128 .f32 := Host.absf main_arg0
  let main_cst : FVec F S_ .f32 := constant S_ .f32 0x7F800000#32
  let main_v1 : FVec F S64x256x32x128 .f32 := broadcastInDim S64x256x32x128 ![] bcast_S_S64x256x32x128 main_cst
  let main_v2 : IVec S64x256x32x128 1 := cmpf .olt main_v0 main_v1
  let main_c : IVec S_ 1 := constantI S_ 1 1#1
  let main_v3 : IVec S_ 1 := (fun x v => Host.reduce IntOp.andi x v reducesTo_S64x256x32x128_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x256x32x128 : Shape := ⟨4, ![64, 256, 32, 128]⟩
abbrev S256 : Shape := ⟨1, ![256]⟩
abbrev S64 : Shape := ⟨1, ![64]⟩
abbrev S_ : Shape := ⟨0, ![]⟩
abbrev S64x256 : Shape := ⟨2, ![64, 256]⟩
abbrev S8x128x8x128 : Shape := ⟨4, ![8, 128, 8, 128]⟩
abbrev S8x128 : Shape := ⟨2, ![8, 128]⟩
abbrev S8x128x8 : Shape := ⟨3, ![8, 128, 8]⟩
abbrev S8x256 : Shape := ⟨2, ![8, 256]⟩
abbrev S64x1 : Shape := ⟨2, ![64, 1]⟩
abbrev S8 : Shape := ⟨1, ![8]⟩
abbrev S8x1 : Shape := ⟨2, ![8, 1]⟩
abbrev S128 : Shape := ⟨1, ![128]⟩
abbrev S8x128x1x1 : Shape := ⟨4, ![8, 128, 1, 1]⟩
abbrev S1x128x1x1 : Shape := ⟨4, ![1, 128, 1, 1]⟩

abbrev nBuf : Space → Nat
  | .hbm => 55
  | .vmem => 20
  | .smem => 0
  | _ => 0

abbrev bufTy : (tb : Table) → Fin (tcTables nBuf tb) → BufTy
  | .hbm, ⟨0, _⟩ => ⟨S64x256x32x128, .f32⟩
  | .hbm, ⟨1, _⟩ => ⟨S256, .f32⟩
  | .hbm, ⟨2, _⟩ => ⟨S256, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S64x256, .f32⟩
  | .hbm, ⟨8, _⟩ => ⟨S64x256, .f32⟩
  | .hbm, ⟨9, _⟩ => ⟨S_, .f32⟩
  | .hbm, ⟨10, _⟩ => ⟨S8x256, .f32⟩
  | .hbm, ⟨11, _⟩ => ⟨S64x1, .i32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S64x1, .i32⟩
  | .hbm, ⟨16, _⟩ => ⟨S8x256, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S8, .f32⟩
  | .hbm, ⟨21, _⟩ => ⟨S64x1, .i32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8x1, .f32⟩
  | .hbm, ⟨30, _⟩ => ⟨S8x256, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S8x256, .f32⟩
  | .hbm, ⟨35, _⟩ => ⟨S8x256, .f32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S64x256, .f32⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S64x256, .f32⟩
  | .hbm, ⟨54, _⟩ => ⟨S64x256x32x128, .f32⟩
  | .local _ .vmem, ⟨0, _⟩ => ⟨S8x128x8x128, .f32⟩
  | .local _ .vmem, ⟨1, _⟩ => ⟨S8x128x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128x8x128, .f32⟩
  | .local _ .vmem, ⟨9, _⟩ => ⟨S8x128x8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S8x128x8x128, .f32⟩
  | .local _ .vmem, ⟨19, _⟩ => ⟨S8x128x8x128, .f32⟩
  | _, _ => ⟨S64x256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S8x128x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  bcast_S_S64 : S_.BroadcastsInDim S64 (![] : Fin 0 → Fin S64.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x8x128_S8x128x8x128_0_0_0_0 : ∀ a, (![0, 0, 0, 0] : Fin 4 → Nat) a + S8x128x8x128.size a ≤ S8x128x8x128.size a
  h_S8x128x8x128 : 0 < S8x128x8x128.numel
  reduces_S8x128x8x128_S8x128x8 : S8x128x8x128.Reduces [3] S8x128x8
  reduces_S8x128x8_S8x128 : S8x128x8.Reduces [2] S8x128
  bcast_S_S8x256 : S_.BroadcastsInDim S8x256 (![] : Fin 0 → Fin S8x256.rank)
  bcast_S64_S64x1_0 : S64.BroadcastsInDim S64x1 (![0] : Fin 1 → Fin S64x1.rank)
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  inb_S128_S128_0 : ∀ a, (![0] : Fin 1 → Nat) a + S128.size a ≤ S128.size a
  h_S128 : 0 < S128.numel
  shapeCasts_S8x128_S8x128x1x1 : S8x128.ShapeCasts S8x128x1x1
  shapeCasts_S128_S1x128x1x1 : S128.ShapeCasts S1x128x1x1
  broadcasts_S8x128x1x1_S8x128x8x128 : S8x128x1x1.Broadcasts S8x128x8x128
  broadcasts_S1x128x1x1_S8x128x8x128 : S1x128x1x1.Broadcasts S8x128x8x128
  scatter_S8x256_S64x1_S64x256_1_0_0_1_wf : ScatterDims.WF S8x256 S64x1 S64x256 [1] [0] [0] 1
  scatter_S8_S64x1_S64_n_0_0_1_wf : ScatterDims.WF S8 S64x1 S64 [] [0] [0] 1
  gather_S8x256_S64x1_S64x256_1_0_n_n_0_1_1256_wf : GatherDims.WF S8x256 S64x1 S64x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x8x128.size a ≤ S64x256x32x128.size a
  hwx0_0 : ∀ i : grid0.Coords, EltTy.bits .f32 = 32 ∨ (Rect.block (s := S64x256x32x128) S8x128x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x256.size a
  hwx0_1 : ∀ i : grid0.Coords, EltTy.bits .f32 = 32 ∨ (Rect.block (s := S64x256) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x256.size a
  hwx0_2 : ∀ i : grid0.Coords, EltTy.bits .f32 = 32 ∨ (Rect.block (s := S64x256) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x8x128.size a ≤ S64x256x32x128.size a
  hwx1_0 : ∀ i : grid1.Coords, EltTy.bits .f32 = 32 ∨ (Rect.block (s := S64x256x32x128) S8x128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S64x256.size a
  hwx1_1 : ∀ i : grid1.Coords, EltTy.bits .f32 = 32 ∨ (Rect.block (s := S64x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S64x256.size a
  hwx1_2 : ∀ i : grid1.Coords, EltTy.bits .f32 = 32 ∨ (Rect.block (s := S64x256) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S256.size a
  hwx1_3 : ∀ i : grid1.Coords, EltTy.bits .f32 = 32 ∨ (Rect.block (s := S256) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S256.size a
  hwx1_4 : ∀ i : grid1.Coords, EltTy.bits .f32 = 32 ∨ (Rect.block (s := S256) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128x8x128.size a ≤ S64x256x32x128.size a
  hwx1_5 : ∀ i : grid1.Coords, EltTy.bits .f32 = 32 ∨ (Rect.block (s := S64x256x32x128) S8x128x8x128.size (cc1_transform_5 i) (hinb1_5 i)).WholeWords (EltTy.packing .f32)

variable [Facts₀]

def scatter_S8x256_S64x1_S64x256_1_0_0_1 : ScatterDims S8x256 S64x1 S64x256 where
  updateWindowDims := [1]
  insertedWindowDims := [0]
  scatterDimsToOperandDims := [0]
  indexVectorDim := 1
  wf := scatter_S8x256_S64x1_S64x256_1_0_0_1_wf
def scatter_S8_S64x1_S64_n_0_0_1 : ScatterDims S8 S64x1 S64 where
  updateWindowDims := []
  insertedWindowDims := [0]
  scatterDimsToOperandDims := [0]
  indexVectorDim := 1
  wf := scatter_S8_S64x1_S64_n_0_0_1_wf
def gather_S8x256_S64x1_S64x256_1_0_n_n_0_1_1256 : GatherDims S8x256 S64x1 S64x256 where
  offsetDims := [1]
  collapsedSliceDims := [0]
  operandBatchingDims := []
  startIndicesBatchingDims := []
  startIndexMap := [0]
  indexVectorDim := 1
  sliceSizes := ![1, 256]
  wf := gather_S8x256_S64x1_S64x256_1_0_n_n_0_1_1256_wf

abbrev win0_0 : Pipeline.Window sig grid0 :=
  Pipeline.Window.ofSpec (Memref.whole main_arg0) S8x128x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38) S8x128x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x32x128 : Shape := ⟨4, ![64, 256, 32, 128]⟩
abbrev S256 : Shape := ⟨1, ![256]⟩
abbrev S64 : Shape := ⟨1, ![64]⟩
abbrev S_ : Shape := ⟨0, ![]⟩
abbrev S64x256 : Shape := ⟨2, ![64, 256]⟩
abbrev S8x256 : Shape := ⟨2, ![8, 256]⟩
abbrev S64x1 : Shape := ⟨2, ![64, 1]⟩
abbrev S8 : Shape := ⟨1, ![8]⟩
abbrev S8x1 : Shape := ⟨2, ![8, 1]⟩
abbrev S64x256x1x1 : Shape := ⟨4, ![64, 256, 1, 1]⟩
abbrev S1x256x1x1 : Shape := ⟨4, ![1, 256, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S64x256x32x128, .f32⟩
  | .hbm, ⟨1, _⟩ => ⟨S256, .f32⟩
  | .hbm, ⟨2, _⟩ => ⟨S256, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .f32⟩
  | .hbm, ⟨8, _⟩ => ⟨S64x256, .f32⟩
  | .hbm, ⟨9, _⟩ => ⟨S64x256x32x128, .f32⟩
  | .hbm, ⟨10, _⟩ => ⟨S_, .f32⟩
  | .hbm, ⟨11, _⟩ => ⟨S64x256, .f32⟩
  | .hbm, ⟨12, _⟩ => ⟨S_, .f32⟩
  | .hbm, ⟨13, _⟩ => ⟨S8x256, .f32⟩
  | .hbm, ⟨14, _⟩ => ⟨S64x1, .i32⟩
  | .hbm, ⟨15, _⟩ => ⟨S8x256, .f32⟩
  | .hbm, ⟨16, _⟩ => ⟨S_, .f32⟩
  | .hbm, ⟨17, _⟩ => ⟨S8x256, .f32⟩
  | .hbm, ⟨18, _⟩ => ⟨S64x1, .i32⟩
  | .hbm, ⟨19, _⟩ => ⟨S8x256, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S8, .f32⟩
  | .hbm, ⟨24, _⟩ => ⟨S64x1, .i32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8x1, .f32⟩
  | .hbm, ⟨33, _⟩ => ⟨S8x256, .f32⟩
  | .hbm, ⟨34, _⟩ => ⟨S8x256, .f32⟩
  | .hbm, ⟨35, _⟩ => ⟨S8x256, .f32⟩
  | .hbm, ⟨36, _⟩ => ⟨S8x256, .f32⟩
  | .hbm, ⟨37, _⟩ => ⟨S8x256, .f32⟩
  | .hbm, ⟨38, _⟩ => ⟨S8x256, .f32⟩
  | .hbm, ⟨39, _⟩ => ⟨S_, .i32⟩
  | .hbm, ⟨40, _⟩ => ⟨S64, .i32⟩
  | .hbm, ⟨41, _⟩ => ⟨S64, .i1⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S64x1, .i32⟩
  | .hbm, ⟨47, _⟩ => ⟨S64x256, .f32⟩
  | .hbm, ⟨48, _⟩ => ⟨S64x256x1x1, .f32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S64x256, .f32⟩
  | .hbm, ⟨58, _⟩ => ⟨S64x256x1x1, .f32⟩
  | .hbm, ⟨59, _⟩ => ⟨S64x256x32x128, .f32⟩
  | .hbm, ⟨60, _⟩ => ⟨S64x256x32x128, .f32⟩
  | .hbm, ⟨61, _⟩ => ⟨S_, .f32⟩
  | .hbm, ⟨62, _⟩ => ⟨S64x256x1x1, .f32⟩
  | .hbm, ⟨63, _⟩ => ⟨S64x256x1x1, .f32⟩
  | .hbm, ⟨64, _⟩ => ⟨S64x256x1x1, .f32⟩
  | .hbm, ⟨65, _⟩ => ⟨S64x256x32x128, .f32⟩
  | .hbm, ⟨66, _⟩ => ⟨S64x256x32x128, .f32⟩
  | .hbm, ⟨67, _⟩ => ⟨S1x256x1x1, .f32⟩
  | .hbm, ⟨68, _⟩ => ⟨S64x256x32x128, .f32⟩
  | .hbm, ⟨69, _⟩ => ⟨S64x256x32x128, .f32⟩
  | .hbm, ⟨70, _⟩ => ⟨S1x256x1x1, .f32⟩
  | .hbm, ⟨71, _⟩ => ⟨S64x256x32x128, .f32⟩
  | .hbm, ⟨72, _⟩ => ⟨S64x256x32x128, .f32⟩
  | _, _ => ⟨S64x256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  bcast_S_S64 : S_.BroadcastsInDim S64 (![] : Fin 0 → Fin S64.rank)
  reducesTo_S64x256x32x128_S64x256_d2_3 : S64x256x32x128.ReducesTo [2, 3] S64x256
  h_S_ : 0 < S_.numel
  bcast_S_S8x256 : S_.BroadcastsInDim S8x256 (![] : Fin 0 → Fin S8x256.rank)
  bcast_S64_S64x1_0 : S64.BroadcastsInDim S64x1 (![0] : Fin 1 → Fin S64x1.rank)
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S64x256_S64x256x1x1_0_1 : S64x256.BroadcastsInDim S64x256x1x1 (![0, 1] : Fin 2 → Fin S64x256x1x1.rank)
  bcast_S64x256x1x1_S64x256x32x128_0_1_2_3 : S64x256x1x1.BroadcastsInDim S64x256x32x128 (![0, 1, 2, 3] : Fin 4 → Fin S64x256x32x128.rank)
  bcast_S_S64x256x1x1 : S_.BroadcastsInDim S64x256x1x1 (![] : Fin 0 → Fin S64x256x1x1.rank)
  bcast_S256_S1x256x1x1_1 : S256.BroadcastsInDim S1x256x1x1 (![1] : Fin 1 → Fin S1x256x1x1.rank)
  bcast_S1x256x1x1_S64x256x32x128_0_1_2_3 : S1x256x1x1.BroadcastsInDim S64x256x32x128 (![0, 1, 2, 3] : Fin 4 → Fin S64x256x32x128.rank)
  scatter_S8x256_S64x1_S64x256_1_0_0_1_wf : ScatterDims.WF S8x256 S64x1 S64x256 [1] [0] [0] 1
  scatter_S8_S64x1_S64_n_0_0_1_wf : ScatterDims.WF S8 S64x1 S64 [] [0] [0] 1
  gather_S8x256_S64x1_S64x256_1_0_n_n_0_1_1256_wf : GatherDims.WF S8x256 S64x1 S64x256 [1] [0] [] [0] [] 1 ![1, 256]

variable [Facts₀]

def scatter_S8x256_S64x1_S64x256_1_0_0_1 : ScatterDims S8x256 S64x1 S64x256 where
  updateWindowDims := [1]
  insertedWindowDims := [0]
  scatterDimsToOperandDims := [0]
  indexVectorDim := 1
  wf := scatter_S8x256_S64x1_S64x256_1_0_0_1_wf
def scatter_S8_S64x1_S64_n_0_0_1 : ScatterDims S8 S64x1 S64 where
  updateWindowDims := []
  insertedWindowDims := [0]
  scatterDimsToOperandDims := [0]
  indexVectorDim := 1
  wf := scatter_S8_S64x1_S64_n_0_0_1_wf
def gather_S8x256_S64x1_S64x256_1_0_n_n_0_1_1256 : GatherDims S8x256 S64x1 S64x256 where
  offsetDims := [1]
  collapsedSliceDims := [0]
  operandBatchingDims := []
  startIndicesBatchingDims := []
  startIndexMap := [0]
  indexVectorDim := 1
  sliceSizes := ![1, 256]
  wf := gather_S8x256_S64x1_S64x256_1_0_n_n_0_1_1256_wf

class Facts : Prop extends Facts₀ where

variable [Facts]
-- ==== Proof.K.Defs.lean ====
/-
  What the two kernels of the program read and leave, as plain functions.
  The first kernel walks a grid of 8 x 2 x 4 points; the last axis runs over four slabs of eight image rows.  At each
  point it adds the row sums of its block of the input (and of the block's squares) to two running sums it keeps
  between points, starting them from zero at the first of the four slabs, and hands them out at the last.
  The second kernel is pointwise: one stored block from five loaded ones.
-/
import proofs.«172045_j5746666242191_1_alg».proof.Proof.Gen.Kernel.Launch
import proofs.«172045_j5746666242191_1_alg».proof.Proof.Gen.Kernel.Skeleton
import proofs.«172045_j5746666242191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the core's buffer contents when a region is entered: the parameter each region's half is stated at
variable (V : (c : Dev nD) → (b : Ref sig .tc) → Buf (Elt F) ((c : Thread nD τ).loc b))

/-! ## The first kernel (the sums) -/

/-- Window `w`'s block at point `t` of the first kernel's grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running row sums after point `n`: the point's block summed over its two last axes, added to what the point
    before left, or to zero at the first of every four points. -/
def accS (c : Dev nD) : (n : ℕ) → n < cfg0.N → Vec F S8x128 .f32
  | 0, hn => k0_pay3 (iblk0 V c 0 ⟨0, hn⟩) (k0_pay1 (F := F))
  | n + 1, hn => k0_pay3 (iblk0 V c 0 ⟨n + 1, hn⟩)
      (if (n + 1) % 4 = 0 then k0_pay1 (F := F) else accS c n (Nat.lt_of_succ_lt hn))

/-- The running row sums of squares after point `n`, in the same way. -/
def accQ (c : Dev nD) : (n : ℕ) → n < cfg0.N → Vec F S8x128 .f32
  | 0, hn => k0_pay4 (iblk0 V c 0 ⟨0, hn⟩) (k0_pay2 (F := F))
  | n + 1, hn => k0_pay4 (iblk0 V c 0 ⟨n + 1, hn⟩)
      (if (n + 1) % 4 = 0 then k0_pay2 (F := F) else accQ c n (Nat.lt_of_succ_lt hn))

theorem accS_zero (c : Dev nD) (hn : 0 < cfg0.N) :
    accS V c 0 hn = k0_pay3 (iblk0 V c 0 ⟨0, hn⟩) (k0_pay1 (F := F)) := rfl
theorem accS_succ (c : Dev nD) (n : ℕ) (hn : n + 1 < cfg0.N) :
    accS V c (n + 1) hn = k0_pay3 (iblk0 V c 0 ⟨n + 1, hn⟩)
      (if (n + 1) % 4 = 0 then k0_pay1 (F := F) else accS V c n (Nat.lt_of_succ_lt hn)) := rfl
theorem accQ_zero (c : Dev nD) (hn : 0 < cfg0.N) :
    accQ V c 0 hn = k0_pay4 (iblk0 V c 0 ⟨0, hn⟩) (k0_pay2 (F := F)) := rfl
theorem accQ_succ (c : Dev nD) (n : ℕ) (hn : n + 1 < cfg0.N) :
    accQ V c (n + 1) hn = k0_pay4 (iblk0 V c 0 ⟨n + 1, hn⟩)
      (if (n + 1) % 4 = 0 then k0_pay2 (F := F) else accQ V c n (Nat.lt_of_succ_lt hn)) := rfl

/-! ## The second kernel (the normalisation) -/

/-- Window `w`'s block at point `t` of the second kernel's grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block the second kernel stores at point `t`: its one payload of the five input blocks there. -/
def nblk1 (c : Dev nD) (t : Fin cfg1.N) : Vec F S8x128x8x128 .f32 :=
  k1_pay1 (iblk1 V c 0 t) (iblk1 V c 1 t) (iblk1 V c 2 t) (iblk1 V c 3 t) (iblk1 V c 4 t)

end Cert.Kernel.Hand

end
-- ==== Proof.K.Stats.lean ====
/-
  The first kernel as a pipeline region: what it keeps between grid points and what it leaves in its output blocks.
  The grid's last axis walks four slabs; the kernel resets its two running sums at the first slab, adds the block's
  row sums (and the row sums of its squares) at every slab, and copies the sums to the output blocks at the last.
-/
import proofs.«172045_j5746666242191_1_alg».proof.Proof.K.Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The two conditionals, point by point -/

/-- The first conditional's test, from the grid coordinates: the last coordinate is the first of its four. -/
abbrev condFirst (i : grid0.Coords) : Prop :=
  (Scalar.cmpi .ne (Scalar.extui (Scalar.cmpi .eq (BitVec.ofNat 32 (i 2).val) 0#32)) 0#32) = 1#1
/-- The second conditional's test: the last coordinate is the last of its four. -/
abbrev condLast (i : grid0.Coords) : Prop := k0_cond2 i = 1#1

/-- Point `t` has last coordinate `t mod 4`: the first test holds at the points ≡ 0, the second at the points ≡ 3. -/
theorem condFirst_iff : ∀ t : Fin cfg0.N, condFirst (grid0.coords t) ↔ t.val % 4 = 0 :=
  (by decide +kernel : ∀ t : Fin grid0.N, condFirst (grid0.coords t) ↔ t.val % 4 = 0)
theorem condLast_iff : ∀ t : Fin cfg0.N, condLast (grid0.coords t) ↔ t.val % 4 = 3 :=
  (by decide +kernel : ∀ t : Fin grid0.N, condLast (grid0.coords t) ↔ t.val % 4 = 3)

/-- The input window is live everywhere; each output window is idle, and not written back, exactly away from the
    points ≡ 3 (mod 4). -/
theorem live0 : ∀ t : Fin cfg0.N, cfg0.idle 0 (grid0.coords t) = false := by decide +kernel
theorem idle1_on : ∀ t : Fin cfg0.N, ¬t.val % 4 = 3 → cfg0.idle 1 (grid0.coords t) = true := by decide +kernel
theorem idle1_off : ∀ t : Fin cfg0.N, t.val % 4 = 3 → cfg0.idle 1 (grid0.coords t) = false := by decide +kernel
theorem idle2_on : ∀ t : Fin cfg0.N, ¬t.val % 4 = 3 → cfg0.idle 2 (grid0.coords t) = true := by decide +kernel
theorem idle2_off : ∀ t : Fin cfg0.N, t.val % 4 = 3 → cfg0.idle 2 (grid0.coords t) = false := by decide +kernel
theorem flush1_off : ∀ t : Fin cfg0.N, ¬t.val % 4 = 3 → (cfg0.win 1).flush t = false := by decide +kernel
theorem flush2_off : ∀ t : Fin cfg0.N, ¬t.val % 4 = 3 → (cfg0.win 2).flush t = false := by decide +kernel

/-! ### Whole-buffer loads and stores

Every load and store of the kernel goes through the rectangle that is the whole buffer at zero offsets: a load reads
the contents, and a store, last in a list of stores, leaves its payload whatever was there. -/

theorem zeros2 : (![0, 0] : Fin S8x128.rank → ℕ) = fun _ => 0 := by
  funext a; fin_cases a <;> rfl
theorem zeros4 : (![0, 0, 0, 0] : Fin S8x128x8x128.rank → ℕ) = fun _ => 0 := by
  funext a; fin_cases a <;> rfl

theorem read_store_last {κ : Kind} {sp : Space} (v : View sig κ sp S8x128 .f32) (f : v.ty.Contents (Elt F))
    (w : Vec F S8x128 .f32) (L : List (View.Piece (Elt F) S8x128 .f32)) :
    v.read (Elt F) (v.writes (Elt F) f (⟨Rect.unit ![0, 0] S8x128.size inb_S8x128_S8x128_0_0, w⟩ :: L)) = w := by
  rw [View.read_writes_eq_canon _ _ _ (fun y => ⟨_, List.mem_cons_self, View.mem_set_unit_zero zeros2 inb_S8x128_S8x128_0_0 y⟩),
    View.canon_cons_unit_zero zeros2]

theorem load_whole2 (m : Memref sig .tc .vmem S8x128 .f32) (h : m.IsWhole) (x : Vec F S8x128 .f32) :
    View.readAt (Elt F) m.view (Rect.unit ![0, 0] S8x128.size inb_S8x128_S8x128_0_0).toLoadRect (h.unread x) = x := by
  rw [View.readAt_eq_ld, h.read_unread, View.ld_unit_zero zeros2]

theorem load_whole4 (m : Memref sig .tc .vmem S8x128x8x128 .f32) (h : m.IsWhole) (x : Vec F S8x128x8x128 .f32) :
    View.readAt (Elt F) m.view (Rect.unit ![0, 0, 0, 0] S8x128x8x128.size inb_S8x128x8x128_S8x128x8x128_0_0_0_0).toLoadRect (h.unread x) = x := by
  rw [View.readAt_eq_ld, h.read_unread, View.ld_unit_zero zeros4]

/-! ## The body on whole buffers, case by case

The body's triple for each residue of the point modulo four, the buffers' contents explicit: every store covers its
whole buffer, so what a buffer holds afterwards is the last payload stored into it. -/

set_option maxHeartbeats 1000000 in
/-- A point whose last coordinate is neither the first nor the last of the four: the two running sums take the
    block's sums on, the output blocks are left as found. -/
theorem runMid (c : Dev nD) (i : grid0.Coords)
    (arg3 : Memref sig .tc .vmem S8x128x8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (arg7 : Memref sig .tc .vmem S8x128 .f32) (harg7 : arg7.IsWhole)
    (hc0 : ¬condFirst i) (hc1 : ¬condLast i)
    (x0 : Vec F S8x128x8x128 .f32) (xi1 xi2 xs0 xs1 : Vec F S8x128 .f32) (E : Set ℕ) (K : PUnit → sProp 𝕄) :
    iprop(owns (c : Thread nD τ) arg3 fullShare x0 ∗ owns (c : Thread nD τ) arg4 fullShare xi1 ∗ owns (c : Thread nD τ) arg5 fullShare xi2
        ∗ owns (c : Thread nD τ) arg6 fullShare xs0 ∗ owns (c : Thread nD τ) arg7 fullShare xs1
        ∗ (iprop(owns (c : Thread nD τ) arg3 fullShare x0 ∗ owns (c : Thread nD τ) arg4 fullShare xi1 ∗ owns (c : Thread nD τ) arg5 fullShare xi2
            ∗ owns (c : Thread nD τ) arg6 fullShare (k0_pay3 x0 xs0) ∗ owns (c : Thread nD τ) arg7 fullShare (k0_pay4 x0 xs1)) -∗ K ⟨⟩))
      ⊢ wp frame (wpE (defs₀ (F := F)) Variants.none c none) E (cc0__stats_kernel i arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro; rw [read_store_last, load_whole4, load_whole2]
  iexists _; isplitr
  swap; · iexact HS1
  ipureintro; rw [read_store_last, load_whole4, load_whole2]

set_option maxHeartbeats 1000000 in
/-- A point whose last coordinate is the first of the four: whatever the two buffers held, they are reset and then
    take the block's sums on; the output blocks are left as found. -/
theorem runFirst (c : Dev nD) (i : grid0.Coords)
    (arg3 : Memref sig .tc .vmem S8x128x8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (arg7 : Memref sig .tc .vmem S8x128 .f32) (harg7 : arg7.IsWhole)
    (hc0 : condFirst i) (hc1 : ¬condLast i)
    (x0 : Vec F S8x128x8x128 .f32) (xi1 xi2 : Vec F S8x128 .f32) (E : Set ℕ) (K : PUnit → sProp 𝕄) :
    iprop(owns (c : Thread nD τ) arg3 fullShare x0 ∗ owns (c : Thread nD τ) arg4 fullShare xi1 ∗ owns (c : Thread nD τ) arg5 fullShare xi2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare xi1 ∗ owns (c : Thread nD τ) arg5 fullShare xi2
            ∗ owns (c : Thread nD τ) arg6 fullShare (k0_pay3 x0 (k0_pay1 (F := F))) ∗ owns (c : Thread nD τ) arg7 fullShare (k0_pay4 x0 (k0_pay2 (F := F)))) -∗ K ⟨⟩))
      ⊢ wp frame (wpE (defs₀ (F := F)) Variants.none c none) E (cc0__stats_kernel i arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro; rw [read_store_last, load_whole4]
    sl_unfold_words
    rw [View.readCov_unit_zero _ zeros2]
  iexists _; isplitr
  swap; · iexact HS1
  ipureintro; rw [read_store_last, load_whole4]
  sl_unfold_words
  rw [View.readCov_unit_zero _ zeros2]

set_option maxHeartbeats 1000000 in
/-- A point whose last coordinate is the last of the four: the two running sums take the block's sums on and are
    then copied to the output blocks, whatever those held. -/
theorem runLast (c : Dev nD) (i : grid0.Coords)
    (arg3 : Memref sig .tc .vmem S8x128x8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (arg7 : Memref sig .tc .vmem S8x128 .f32) (harg7 : arg7.IsWhole)
    (hc0 : ¬condFirst i) (hc1 : condLast i)
    (x0 : Vec F S8x128x8x128 .f32) (xs0 xs1 : Vec F S8x128 .f32) (E : Set ℕ) (K : PUnit → sProp 𝕄) :
    iprop(owns (c : Thread nD τ) arg3 fullShare x0 ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg3 fullShare x0 ∗ owns (c : Thread nD τ) arg4 fullShare (k0_pay3 x0 xs0) ∗ owns (c : Thread nD τ) arg5 fullShare (k0_pay4 x0 xs1)
            ∗ owns (c : Thread nD τ) arg6 fullShare (k0_pay3 x0 xs0) ∗ owns (c : Thread nD τ) arg7 fullShare (k0_pay4 x0 xs1)) -∗ K ⟨⟩))
      ⊢ wp frame (wpE (defs₀ (F := F)) Variants.none c none) E (cc0__stats_kernel i arg3 harg3 arg4 harg4 arg5 harg5 arg6 harg6 arg7 harg7) K := by
  simp only [cc0__stats_kernel_eq_skeleton]; unfold cc0__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg3.eq_unread hf0
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr
    swap; · iexact H1
    ipureintro; sl_unfold_words
    rw [read_store_last, View.readCov_unit_zero _ zeros2, load_whole4, load_whole2]
  isplitl [H2]
  · iexists _; isplitr
    swap; · iexact H2
    ipureintro; sl_unfold_words
    rw [read_store_last, View.readCov_unit_zero _ zeros2, load_whole4, load_whole2]
  isplitl [HS0]
  · iexists _; isplitr
    swap; · iexact HS0
    ipureintro; sl_unfold_words
    rw [read_store_last, load_whole4, load_whole2]
  iexists _; isplitr
  swap; · iexact HS1
  ipureintro; sl_unfold_words
  rw [read_store_last, load_whole4, load_whole2]

/-! ## The region's proof data -/

/-- The kernel's own two buffers, which it keeps between grid points. -/
abbrev scM0_0 : Memref sig .tc .vmem S8x128 .f32 := Memref.whole cc0_scratch0
abbrev scM0_1 : Memref sig .tc .vmem S8x128 .f32 := Memref.whole cc0_scratch1

/-- The core's other scoped buffers that are no staging buffer of this region (the second kernel's staging buffers),
    each whole at some contents: the region never touches them. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The region's invariant before point `n`: before the first point whatever the launch hands over; afterwards the two
    running sums in the kernel's own two buffers, at what the point before left, beside the untouched rest and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (accS V c n hn) ∗ owns (c : Thread nD τ) scM0_1 fullShare (accQ V c n hn) ∗ restS (F := F) c) ∗ (∃ r, prngReg c r))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accS V c t.val t.isLt
    | ⟨2, _⟩ => accQ V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = accS V c t.val t.isLt := by dsimp only [dat0]
theorem after0_2 (c : Dev nD) (t : Fin cfg0.N) : (dat0 V c).after 2 t = accQ V c t.val t.isLt := by dsimp only [dat0]

/-! ## The invariant, position by position -/

/-- What the launch hands over, with the kernel's own two buffers named: each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) := by
  unfold Pipeline.ΦA; rw [scopedRest0_eq]; unfold restS; simp only [scM0_0, scM0_1, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accS V c n hn) ∗ owns (c : Thread nD τ) scM0_1 fullShare (accQ V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accS V c (n - 1) (by omega)) ∗ owns (c : Thread nD τ) scM0_1 fullShare (accQ V c (n - 1) (by omega)) ∗ restS (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-! ## The running sums, point by point -/

/-- At a point ≡ 0 (mod 4) the sums start again from the reset values. -/
theorem accS_first (c : Dev nD) (t : Fin cfg0.N) (h : t.val % 4 = 0) :
    accS V c t.val t.isLt = k0_pay3 (iblk0 V c 0 t) (k0_pay1 (F := F)) := by
  obtain ⟨n, hn⟩ := t
  cases n with
  | zero => exact accS_zero V c hn
  | succ n => dsimp only at h; exact (accS_succ V c n hn).trans (by rw [if_pos h])
theorem accQ_first (c : Dev nD) (t : Fin cfg0.N) (h : t.val % 4 = 0) :
    accQ V c t.val t.isLt = k0_pay4 (iblk0 V c 0 t) (k0_pay2 (F := F)) := by
  obtain ⟨n, hn⟩ := t
  cases n with
  | zero => exact accQ_zero V c hn
  | succ n => dsimp only at h; exact (accQ_succ V c n hn).trans (by rw [if_pos h])

/-- At any other point they go on from what the point before left. -/
theorem accS_next (c : Dev nD) (t : Fin cfg0.N) (h : ¬t.val % 4 = 0) :
    accS V c t.val t.isLt = k0_pay3 (iblk0 V c 0 t) (accS V c (t.val - 1) (Nat.lt_of_le_of_lt (Nat.sub_le _ _) t.isLt)) := by
  obtain ⟨n, hn⟩ := t
  cases n with
  | zero => exact absurd (Nat.zero_mod 4) h
  | succ n => dsimp only at h; exact (accS_succ V c n hn).trans (by rw [if_neg h] <;> rfl)
theorem accQ_next (c : Dev nD) (t : Fin cfg0.N) (h : ¬t.val % 4 = 0) :
    accQ V c t.val t.isLt = k0_pay4 (iblk0 V c 0 t) (accQ V c (t.val - 1) (Nat.lt_of_le_of_lt (Nat.sub_le _ _) t.isLt)) := by
  obtain ⟨n, hn⟩ := t
  cases n with
  | zero => exact absurd (Nat.zero_mod 4) h
  | succ n => dsimp only at h; exact (accQ_succ V c n hn).trans (by rw [if_neg h] <;> rfl)

/-! ## The body at a point -/

/-- Each window's current staging memref at point `t`, and its wholeness. -/
abbrev ms0 (t : Fin cfg0.N) : Memref sig .tc .vmem S8x128x8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)

/-- The input window is fetched at every point, so its current buffer holds the point's block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point, by the residue of the point modulo four: the invariant hands it the two running sums at
    what the point before left (at anything before the first point, which resets them), and takes them back at this
    point's sums; the output blocks pass through untouched where they are idle, and are the sums at the points ≡ 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t], after0_0]
  have hN : t.val < 64 := lt_of_lt_of_eq t.isLt (show cfg0.N = 64 from N_0)
  by_cases h0 : t.val % 4 = 0
  · have h3 : ¬t.val % 4 = 3 := by omega
    rw [Dat.leavesExact_idle (dat0 V c) 1 t (idle1_on t h3) (flush1_off t h3),
      Dat.leavesExact_idle (dat0 V c) 2 t (idle2_on t h3) (flush2_off t h3)]
    rw [accS_first V c t h0, accQ_first V c t h0]
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩⟩
      iapply (runFirst c (grid0.coords t) _ _ _ _ _ _ _ _ _ _ ((condFirst_iff t).mpr h0) (fun h => h3 ((condLast_iff t).mp h)) (iblk0 V c 0 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HS0, HS1, Hrest⟩, Hg⟩, Ho, ⟨%d0, H0⟩, ⟨%d1, H1⟩, ⟨%d2, H2⟩⟩
      iapply (runFirst c (grid0.coords t) _ _ _ _ _ _ _ _ _ _ ((condFirst_iff t).mpr h0) (fun h => h3 ((condLast_iff t).mp h)) (iblk0 V c 0 t) _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexists _; iexact H1
      iexists _; iexact H2
  · have hz : t.val ≠ 0 := fun e => h0 (by rw [e])
    rw [accS_next V c t h0, accQ_next V c t h0]
    rw [PhiS_castSucc V c t, PhiS_pos V c _ _ hz]
    by_cases h3 : t.val % 4 = 3
    · rw [show (dat0 V c).leavesExact 1 t = owns (c : Thread nD τ) (ms1 t) fullShare ((dat0 V c).after 1 t) from by
        unfold Dat.leavesExact; rw [idle1_off t h3], after0_1]
      rw [show (dat0 V c).leavesExact 2 t = owns (c : Thread nD τ) (ms2 t) fullShare ((dat0 V c).after 2 t) from by
        unfold Dat.leavesExact; rw [idle2_off t h3], after0_2]
      rw [accS_next V c t h0, accQ_next V c t h0]
      iintro ⟨⟨⟨HS0, HS1, Hrest⟩, Hg⟩, Ho, ⟨%d0, H0⟩, ⟨%d1, H1⟩, ⟨%d2, H2⟩⟩
      iapply (runLast c (grid0.coords t) _ _ _ _ _ _ _ _ _ _ (fun h => h0 ((condFirst_iff t).mp h)) ((condLast_iff t).mpr h3) (iblk0 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      iexact H2
    · rw [Dat.leavesExact_idle (dat0 V c) 1 t (idle1_on t h3) (flush1_off t h3),
        Dat.leavesExact_idle (dat0 V c) 2 t (idle2_on t h3) (flush2_off t h3)]
      iintro ⟨⟨⟨HS0, HS1, Hrest⟩, Hg⟩, Ho, ⟨%d0, H0⟩, ⟨%d1, H1⟩, ⟨%d2, H2⟩⟩
      iapply (runMid c (grid0.coords t) _ _ _ _ _ _ _ _ _ _ (fun h => h0 ((condFirst_iff t).mp h)) (fun h => h3 ((condLast_iff t).mp h)) (iblk0 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexists _; iexact H1
      iexists _; iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point the invariant gives back what the launch handed over: the sums' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

/-- After the last point the invariant gives it back. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.Norm.lean ====
/-
  The second kernel as a pipeline region: a pointwise body, one stored block from five loaded ones.
-/
import proofs.«172045_j5746666242191_1_alg».proof.Proof.K.Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => nblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = nblk1 V c t := by dsimp only [dat1]

/-! ## What the body finds in each input's staging buffer

An input window's staging buffer is refilled only at the points where its block index moves; the body leaves it as it
found it, so between two refills it still holds the block of the point it is at.  The first window moves at every
point, the other four at every fourth. -/

/-- The image block: window 0's staging buffer holds its block at every point. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The block of means: window 1's staging buffer holds its block at every point, refilled there or not. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- The block of variances: window 2's staging buffer likewise. -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-- The block of scales: window 3's staging buffer likewise. -/
theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

/-- The block of shifts: window 4's staging buffer likewise. -/
theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body on whole buffers

Every load of the body reads its whole buffer and its one store writes the whole of the output's, so the body maps
the five contents it is handed to the payload of those five, and leaves the inputs as they were. -/

/-- The offsets of the body's rectangles are zero on every axis. -/
theorem off4_zero : (![0, 0, 0, 0] : Fin 4 → Nat) = fun _ => 0 := funext fun a => by fin_cases a <;> rfl
theorem off2_zero : (![0, 0] : Fin 2 → Nat) = fun _ => 0 := funext fun a => by fin_cases a <;> rfl
theorem off1_zero : (![0] : Fin 1 → Nat) = fun _ => 0 := funext fun a => by fin_cases a; rfl

/-- One store through the whole-buffer rectangle, over whatever the buffer held, reads back as what was stored. -/
theorem read_store_whole (m : Memref sig .tc .vmem S8x128x8x128 .f32) (f : m.view.ty.Contents (Elt F))
    (p : Vec F S8x128x8x128 .f32) :
    m.view.read (Elt F) (m.view.writes (Elt F) f
      [⟨Rect.unit (s := S8x128x8x128) ![0, 0, 0, 0] S8x128x8x128.size inb_S8x128x8x128_S8x128x8x128_0_0_0_0, p⟩]) = p := by
  have hcover : ∀ y : S8x128x8x128.Idx, ∃ pc ∈ ([⟨Rect.unit (s := S8x128x8x128) ![0, 0, 0, 0] S8x128x8x128.size
      inb_S8x128x8x128_S8x128x8x128_0_0_0_0, p⟩] : List (View.Piece (Elt F) S8x128x8x128 .f32)), y ∈ pc.1.set := fun y =>
    ⟨⟨Rect.unit (s := S8x128x8x128) ![0, 0, 0, 0] S8x128x8x128.size inb_S8x128x8x128_S8x128x8x128_0_0_0_0, p⟩,
      List.mem_singleton_self _, View.mem_set_unit_zero (S := S8x128x8x128) off4_zero inb_S8x128x8x128_S8x128x8x128_0_0_0_0 y⟩
  rw [View.read_writes_eq_canon m.view f _ hcover]
  exact View.canon_unit_zero (S := S8x128x8x128) off4_zero inb_S8x128x8x128_S8x128x8x128_0_0_0_0 p

set_option maxHeartbeats 1000000 in
/-- The body's triple: from the five inputs' buffers at contents x0 .. x4 and the output's at anything, to the
    inputs' unchanged and the output's at the payload of x0 .. x4. -/
theorem norm_kernel_triple (c : Dev nD) (E : Set ℕ) (i : grid1.Coords)
    (a3 : Memref sig .tc .vmem S8x128x8x128 .f32) (h3 : a3.IsWhole) (a4 : Memref sig .tc .vmem S8x128 .f32) (h4 : a4.IsWhole)
    (a5 : Memref sig .tc .vmem S8x128 .f32) (h5 : a5.IsWhole) (a6 : Memref sig .tc .vmem S128 .f32) (h6 : a6.IsWhole)
    (a7 : Memref sig .tc .vmem S128 .f32) (h7 : a7.IsWhole) (a8 : Memref sig .tc .vmem S8x128x8x128 .f32) (h8 : a8.IsWhole)
    (x0 : Vec F S8x128x8x128 .f32) (x1 x2 : Vec F S8x128 .f32) (x3 x4 : Vec F S128 .f32) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ owns (c : Thread nD τ) a7 fullShare x4 ∗ (∃ d, owns (c : Thread nD τ) a8 fullShare d)
        ∗ (iprop(owns (c : Thread nD τ) a3 fullShare x0 ∗ owns (c : Thread nD τ) a4 fullShare x1
            ∗ owns (c : Thread nD τ) a5 fullShare x2 ∗ owns (c : Thread nD τ) a6 fullShare x3
            ∗ owns (c : Thread nD τ) a7 fullShare x4
            ∗ owns (c : Thread nD τ) a8 fullShare (k1_pay1 x0 x1 x2 x3 x4)) -∗ K ⟨⟩))
      ⊢ wp frame (wpE (defs₀ (F := F)) Variants.none c none) E (cc1__norm_kernel i a3 h3 a4 h4 a5 h5 a6 h6 a7 h7 a8 h8) K := by
  simp only [cc1__norm_kernel_eq_skeleton]; unfold cc1__norm_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [read_store_whole]
  simp only [View.readAt_eq_ld, View.ld_unit_zero (S := S8x128x8x128) off4_zero,
    View.ld_unit_zero (S := S8x128) off2_zero, View.ld_unit_zero (S := S128) off1_zero]

/-! ## The body obligation -/

/-- Each input's staging buffer holds its block at every point, for the proof data of this region. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is handed at point t: the region's invariant, what the core owes, and the six current staging
    buffers, each at what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debt, the six buffers at what the body leaves in them. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the triple applies at those blocks and the
    output's buffer is left at their payload; the invariant and the debt are not touched. -/
theorem body_at_point1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold nblk1
  iintro ⟨HΦ, Ho, ⟨%d0, H0⟩, ⟨%d1, H1⟩, ⟨%d2, H2⟩, ⟨%d3, H3⟩, ⟨%d4, H4⟩, ⟨%d5, H5⟩⟩
  iapply (norm_kernel_triple c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pipeline, at every point. -/
theorem body_obligation1 (c : Dev nD) : BodyObligation (dat1 (F := F) V c) (defs₀ (F := F)) Variants.none () Set.univ := fun t => by
  rw [bigSep_W1, bigSep_W1]
  exact body_at_point1 V c t

end Cert.Kernel.Hand

end
-- ==== Proof.K.Run.lean ====
/-
  The whole program as four segments: three host operations, the first kernel's region, forty-five host operations,
  the second kernel's region.  The core's buffer contents are followed from the launch to the return; every final
  memory holds each unscoped buffer at the last of them.
-/
import proofs.«172045_j5746666242191_1_alg».proof.Proof.K.Stats
import proofs.«172045_j5746666242191_1_alg».proof.Proof.K.Norm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## The run -/

/-- The second region's exit contents read at the TensorCore's references. -/
abbrev V4 : (c : Dev nD) → (b : Ref sig .tc) → Buf (Elt F) ((c : Thread nD τ).loc b) := fun c b => W4 m ρ c b

/-- When the first region is left, each of its three arrays (the image and the two arrays of sums) holds what the
    pipeline's write-backs leave there, -/
theorem sums_arrays_left (c : Dev nD) (w : Fin cfg0.W) :
    (dat0 (V1 m ρ) c).arrAt w cfg0.N = V2 m ρ c (Pipeline.arrRef spec0 w) :=
  (W2_arr m ρ c w).symm
/-- and a buffer that is none of the three holds what it held when the region was entered. -/
theorem sums_others_kept (c : Dev nD) : ∀ b, b ∉ Finset.univ.image (Pipeline.arrRef spec0) → V2 m ρ c b = V1 m ρ c b :=
  fun b hb => W2_of_ne m ρ c b fun w hw => hb (Finset.mem_image.mpr ⟨w, Finset.mem_univ w, hw⟩)

/-- When the second region is left, each of its six arrays holds what the pipeline's write-backs leave there, -/
theorem norm_arrays_left (c : Dev nD) (w : Fin cfg1.W) :
    (dat1 (V3 m ρ) c).arrAt w cfg1.N = V4 m ρ c (Pipeline.arrRef spec1 w) :=
  (W4_arr m ρ c w).symm
/-- and a buffer that is none of the six holds what it held when the region was entered. -/
theorem norm_others_kept (c : Dev nD) : ∀ b, b ∉ Finset.univ.image (Pipeline.arrRef spec1) → V4 m ρ c b = V3 m ρ c b :=
  fun b hb => W4_of_ne m ρ c b fun w hw => hb (Finset.mem_image.mpr ⟨w, Finset.mem_univ w, hw⟩)

/-! ### The proof data of the two pipelines and what the thread carries between segments -/

/-- Neither pipeline has a prefetched table. -/
abbrev noTables : (p : Fin 2) → (pcfgs (F := F) p).Adm := fun p => (cfgs p).toPCfg_adm

/-- The two pipelines' proof data: the sums at the contents the first stretch leaves, the normalisation at the
    contents the second stretch leaves.  Matched on the literal index, so that either case reduces. -/
def regionData : (p : Fin 2) → (c : Dev nD) →
    Dat τ (Elt F) Unit ℕ (UR sig nD τ) ℕ (Pipeline.pin (pcfgs (F := F)) noTables p) c
  | ⟨0, _⟩ => fun c => dat0 (V1 m ρ) c
  | ⟨1, _⟩ => fun c => dat1 (V3 m ρ) c

abbrev 𝒱₀ : Variants := Variants.none
/-- No core waits for another: no level is assigned. -/
abbrev noLevels : GSem nD τ sig → Finset Unit := fun _ => ∅
abbrev levelZero : GSem nD τ sig → Unit → ℕ := fun _ _ => 0

/-- What the thread holds beside its unscoped buffers in every segment: the generator register at some state, and
    the record that the core owes nothing. -/
abbrev beside (c : Dev nD) : sProp 𝕄 :=
  iprop((∃ r, prngReg c r) ∗ ∃ W, owes (c : Thread nD τ) (0 : CellTallies nD τ sig Unit) W)

/-- A stretch of host operations as a segment: from every unscoped buffer at the contents W, to the same buffers
    at the contents the operations leave. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noLevels levelZero :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W beside

/-- The three operations before the first kernel allocate nothing. -/
theorem hostOps0_fresh : (hostOps0 : List (HloOp τ sig (Elt F))).Forall fun op => op.fresh = ∅ := by
  simp only [List.Forall]; repeat' constructor
/-- The forty-five operations between the kernels allocate nothing. -/
theorem hostOps1_fresh : (hostOps1 : List (HloOp τ sig (Elt F))).Forall fun op => op.fresh = ∅ := by
  simp only [List.Forall]; repeat' constructor

/-- What the thread holds at the return, the record of owing nothing apart: every unscoped buffer at the last
    boundary's contents and the generator register at some state. -/
abbrev atReturn (c : Dev nD) : sProp 𝕄 :=
  iprop(StableHlo.held (c : Thread nD τ) (Pipeline.ucRefs τ sig) (W4 m ρ c) ∗ ∃ r, prngReg c r)

/-! ### The two kernels' regions as segments -/

set_option backward.isDefEq.respectTransparency.types false in
/-- The first kernel's region: entered with every unscoped buffer at the contents the first stretch leaves, left with
    them at the next boundary's.  Its three arrays are taken out of the unscoped buffers at entry and put back at
    what the write-backs leave; the generator register goes into the region's invariant and comes back; the kernel
    has no semaphore of its own and nothing is owed.  The invariant is the kernel's own (it names the two running
    sums), so it is reached from, and left for, the scoped rest and the register through the two entailments proved
    with it. -/
def sumsRegion : Pipeline.RegionSeg (pcfgs (F := F)) noTables (regionData m ρ) () defs₀ 𝒱₀ noLevels levelZero 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLevels levelZero 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have harrays := Pipeline.arrays_of_unscopedBufs (p := 0) (pcfgs (F := F)) noTables (regionData m ρ)
      launch0.win launch0.arr_whole c ((regionData m ρ 0 c).share_full fun _ => rfl) (V1 m ρ c)
      fun w => A_eq0 (V1 m ρ) c w
    rw [Pipeline.unscopedBufs_held] at harrays
    iintro ⟨⟨Hbufs, Hgen, Howes⟩, -, -⟩
    ihave Hsplit := harrays $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hgen]; · iexact Hgen
    iexact Hother
  hin c := Entails.trans (by
      unfold Pipeline.ΦA
      iintro ⟨Hgen, -, Hscoped⟩
      isplitl [Hscoped]; · iexact Hscoped
      iexact Hgen) (hin0 (V1 m ρ) c)
  hout c := Entails.trans (hout0 (V1 m ρ) c) (by
      rw [Pipeline.ownSems0_none]; unfold Pipeline.ΦA
      iintro ⟨Hscoped, Hgen⟩
      isplitl [Hgen]; · iexact Hgen
      isplitr; · iempintro
      iexact Hscoped)
  hexit c := by
    have hback := Pipeline.unscopedBufs_of_arrays (p := 0) (pcfgs (F := F)) noTables (Ix := Unit) (Name := ℕ)
      (U := UR sig nD τ) (Lvl := ℕ) launch0.win launch0.arr_whole c (regionData m ρ)
      ((regionData m ρ 0 c).share_full fun _ => rfl) (V1 m ρ c) (V2 m ρ c)
      ((regionData m ρ 0 c).arrAt · cfg0.N) (sums_arrays_left m ρ c) (sums_others_kept m ρ c)
    rw [Pipeline.unscopedBufs_held] at hback
    iintro ⟨Harr, Howes, Hgen, Hother⟩
    imodintro
    isplitl [Harr Hother]
    · iapply hback; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
/-- The second kernel's region: entered with every unscoped buffer at the contents the second stretch leaves, left at
    the return's.  Its six arrays are taken out at entry and put back at what the write-backs leave; its invariant is
    the scoped rest beside the generator register itself. -/
def normRegion : Pipeline.RegionSeg (pcfgs (F := F)) noTables (regionData m ρ) () defs₀ 𝒱₀ noLevels levelZero 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noLevels levelZero 1 fun _ _ => rfl
  pre c := iprop(StableHlo.held (c : Thread nD τ) (Pipeline.ucRefs τ sig) (W3 m ρ c) ∗ beside c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have harrays := Pipeline.arrays_of_unscopedBufs (p := 1) (pcfgs (F := F)) noTables (regionData m ρ)
      launch1.win launch1.arr_whole c ((regionData m ρ 1 c).share_full fun _ => rfl) (V3 m ρ c)
      fun w => A_eq1 (V3 m ρ) c w
    rw [Pipeline.unscopedBufs_held] at harrays
    iintro ⟨⟨Hbufs, Hgen, Howes⟩, -, -⟩
    ihave Hsplit := harrays $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hgen]; · iexact Hgen
    iexact Hother
  hin c := by
    rw [show (regionData m ρ 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (regionData m ρ 1 c).Φ (Fin.last _) = Pipeline.ΦA spec1 c from rfl]
    unfold Pipeline.ΦA
    iintro ⟨Hscoped, Hgen⟩
    isplitl [Hgen]; · iexact Hgen
    isplitr; · iempintro
    iexact Hscoped
  hexit c := by
    have hback := Pipeline.unscopedBufs_of_arrays (p := 1) (pcfgs (F := F)) noTables (Ix := Unit) (Name := ℕ)
      (U := UR sig nD τ) (Lvl := ℕ) launch1.win launch1.arr_whole c (regionData m ρ)
      ((regionData m ρ 1 c).share_full fun _ => rfl) (V3 m ρ c) (V4 m ρ c)
      ((regionData m ρ 1 c).arrAt · cfg1.N) (norm_arrays_left m ρ c) (norm_others_kept m ρ c)
    rw [Pipeline.unscopedBufs_held] at hback
    iintro ⟨Harr, Howes, Hgen, Hother⟩
    imodintro
    isplitl [Harr Hother Hgen]
    · isplitl [Harr Hother]
      · iapply hback; isplitl [Harr] <;> iassumption
      iexact Hgen
    unfold Pipeline.Dat.owesAt Pipeline.owesWithin
    icases Howes with ⟨%W, -, Howes⟩; iexists W; iexact Howes

/-! ### The program as four segments, and its launch -/

/-- The program's segments in order: the three operations that make the segment indices zero-based, the kernel of
    sums, the forty-five operations from the sums to the per-row mean and variance, the kernel that normalises. -/
abbrev programSegments :
    List (Pipeline.Seg (pcfgs (F := F)) noTables (regionData m ρ) () defs₀ 𝒱₀ noLevels levelZero) :=
  [ .host (stretch hostOps0 hostOps0_sub hostOps0_fresh (W0 m ρ)),
    .region (sumsRegion m ρ),
    .host (stretch hostOps1 hostOps1_sub hostOps1_fresh (W2 m ρ)),
    .region (normRegion m ρ) ]

/-- The program is the run of those segments. -/
theorem main_is_segments (c : Dev nD) : main (F := F) c = Pipeline.Seg.run (programSegments m ρ) :=
  main_segs noTables (regionData m ρ) () 𝒱₀ noLevels levelZero
    (stretch hostOps0 hostOps0_sub hostOps0_fresh (W0 m ρ)) (stretch hostOps1 hostOps1_sub hostOps1_fresh (W2 m ρ))
    (sumsRegion m ρ) (normRegion m ρ) rfl rfl c

set_option backward.isDefEq.respectTransparency.types false in
/-- Every weakly fair execution of the program from memory `m` with zero counters terminates, nothing faulting, and every
    final memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (regionData m ρ) () cellOf_inj emb₁ defs₀ 𝒱₀ noLevels levelZero
    m ρ main (programSegments m ρ)
    (fun c Q => by rw [main_is_segments m ρ c])
    (by simp only [programSegments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hlaunch; imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ beside c))
    (Tₙ := atReturn m ρ)
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b))
            = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := fun s h c => h c)

/-! ## The arguments end as launched

Neither stretch writes an argument: each host operation writes its own result only.  A region leaves an array it
only reads as it found it, and does not touch a buffer that is none of its arrays. -/

/-- The results of the first stretch: the constant one, its broadcast, the zero-based segment indices. -/
abbrev written0 : List (Ref sig .tc) := [main_c, main_v0, main_v1]
/-- The results of the second stretch. -/
abbrev written1 : List (Ref sig .tc) :=
  [main_cst, main_v3, main_v4, main_v5, main_cst_0, main_v6, main_v7, main_v8, main_cst_1, main_v9, main_cst_2,
   main_v10, main_v11, main_v12, main_cst_3, main_v13, main_v14, main_cst_4, main_v15, main_v16, main_v17, main_v18,
   main_v19, main_v20, main_v21, main_v22, main_v23, main_c_5, main_v24, main_v25, main_c_6, main_v26, main_v27,
   main_v28, main_v29, main_v30, main_c_7, main_v31, main_v32, main_c_8, main_v33, main_v34, main_v35, main_v36,
   main_v37]

/-- Every operation of the first stretch writes one of its results, -/
theorem hostOps0_writes : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.binary_writes,
    StableHlo.ternary_writes, Finset.singleton_subset_iff, List.mem_toFinset]
  repeat' apply And.intro
  all_goals exact List.mem_map_of_mem (by decide)
/-- and every operation of the second stretch one of its. -/
theorem hostOps1_writes : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, Finset.singleton_subset_iff, List.mem_toFinset]
  repeat' apply And.intro
  all_goals exact List.mem_map_of_mem (by decide)

/-- A buffer that is no result of the first stretch is after it as before, -/
theorem first_stretch_keeps (r : Ref sig .tc) (hr : r ∉ written0) (W : Valuation τ sig (Elt F)) :
    StableHlo.after (hostOps0 (F := F)) W (Proc.devRef .tc r) = W (Proc.devRef .tc r) :=
  StableHlo.after_of_writes_sub hostOps0 W hostOps0_writes hr
/-- and likewise for the second. -/
theorem second_stretch_keeps (r : Ref sig .tc) (hr : r ∉ written1) (W : Valuation τ sig (Elt F)) :
    StableHlo.after (hostOps1 (F := F)) W (Proc.devRef .tc r) = W (Proc.devRef .tc r) :=
  StableHlo.after_of_writes_sub hostOps1 W hostOps1_writes hr

/-- The image: the first input of both kernels. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
        (W4_arr m ρ c 0).trans (((dat1 (V3 m ρ) c).arrAt_in 0 rfl _).trans (A_eq1 (V3 m ρ) c 0))
    _ = W2 m ρ c (Proc.devRef .tc main_arg0) := second_stretch_keeps main_arg0 (by decide) _
    _ = W1 m ρ c (Proc.devRef .tc main_arg0) :=
        (W2_arr m ρ c 0).trans (((dat0 (V1 m ρ) c).arrAt_in 0 rfl _).trans (A_eq0 (V1 m ρ) c 0))
    _ = W0 m ρ c (Proc.devRef .tc main_arg0) := first_stretch_keeps main_arg0 (by decide) _
    _ = m ((c : Thread nD τ).loc main_arg0) := rfl
/-- The scales: the fourth input of the second kernel; the first kernel does not stage them. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
        (W4_arr m ρ c 3).trans (((dat1 (V3 m ρ) c).arrAt_in 3 rfl _).trans (A_eq1 (V3 m ρ) c 3))
    _ = W2 m ρ c (Proc.devRef .tc main_arg1) := second_stretch_keeps main_arg1 (by decide) _
    _ = W1 m ρ c (Proc.devRef .tc main_arg1) := W2_of_ne m ρ c main_arg1 (by decide)
    _ = W0 m ρ c (Proc.devRef .tc main_arg1) := first_stretch_keeps main_arg1 (by decide) _
    _ = m ((c : Thread nD τ).loc main_arg1) := rfl
/-- The shifts: the fifth input of the second kernel; the first kernel does not stage them. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) :=
        (W4_arr m ρ c 4).trans (((dat1 (V3 m ρ) c).arrAt_in 4 rfl _).trans (A_eq1 (V3 m ρ) c 4))
    _ = W2 m ρ c (Proc.devRef .tc main_arg2) := second_stretch_keeps main_arg2 (by decide) _
    _ = W1 m ρ c (Proc.devRef .tc main_arg2) := W2_of_ne m ρ c main_arg2 (by decide)
    _ = W0 m ρ c (Proc.devRef .tc main_arg2) := first_stretch_keeps main_arg2 (by decide) _
    _ = m ((c : Thread nD τ).loc main_arg2) := rfl
/-- The segment indices: only the first stretch reads them; neither kernel stages them. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := second_stretch_keeps main_arg3 (by decide) _
    _ = W1 m ρ c (Proc.devRef .tc main_arg3) := W2_of_ne m ρ c main_arg3 (by decide)
    _ = W0 m ρ c (Proc.devRef .tc main_arg3) := first_stretch_keeps main_arg3 (by decide) _
    _ = m ((c : Thread nD τ).loc main_arg3) := rfl

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-! ## What the result and the second region's operands are -/

/-- The result array at the end is what the second pipeline's write-backs leave. -/
theorem W4_main_v38 (c : Dev nD) : W4 m ρ c (Proc.devRef .tc main_v38) = (dat1 (V3 m ρ) c).arrAt 5 cfg1.N :=
  W4_arr m ρ c 5

/-- The two sums the host stretch between the regions reads are what the first pipeline's write-backs leave. -/
theorem V2_main_v2_0 (c : Dev nD) : V2 m ρ c main_v2_0 = (dat0 (V1 m ρ) c).arrAt 1 cfg0.N := W2_arr m ρ c 1
theorem V2_main_v2_1 (c : Dev nD) : V2 m ρ c main_v2_1 = (dat0 (V1 m ρ) c).arrAt 2 cfg0.N := W2_arr m ρ c 2

end Cert.Kernel.Hand

end
-- ==== Proof.KI.Defs.lean ====
/-
  What the two kernels of the program read and leave, as plain functions.
  The first kernel walks a grid of 8 x 2 x 4 points; the last axis runs over four slabs of eight image rows.  At each
  point it adds the row sums of its block of the input (and of the block's squares) to two running sums it keeps
  between points, starting them from zero at the first of the four slabs, and hands them out at the last.
  The second kernel is pointwise: one stored block from five loaded ones.
-/
import proofs.«172045_j5746666242191_1_alg».proof.Proof.Gen.KernelIdeal.Launch
import proofs.«172045_j5746666242191_1_alg».proof.Proof.Gen.KernelIdeal.Skeleton
import proofs.«172045_j5746666242191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the core's buffer contents when a region is entered: the parameter each region's half is stated at
variable (V : (c : Dev nD) → (b : Ref sig .tc) → Buf (Elt F) ((c : Thread nD τ).loc b))

/-! ## The first kernel (the sums) -/

/-- Window `w`'s block at point `t` of the first kernel's grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running row sums after point `n`: the point's block summed over its two last axes, added to what the point
    before left, or to zero at the first of every four points. -/
def accS (c : Dev nD) : (n : ℕ) → n < cfg0.N → Vec F S8x128 .f32
  | 0, hn => k0_pay3 (iblk0 V c 0 ⟨0, hn⟩) (k0_pay1 (F := F))
  | n + 1, hn => k0_pay3 (iblk0 V c 0 ⟨n + 1, hn⟩)
      (if (n + 1) % 4 = 0 then k0_pay1 (F := F) else accS c n (Nat.lt_of_succ_lt hn))

/-- The running row sums of squares after point `n`, in the same way. -/
def accQ (c : Dev nD) : (n : ℕ) → n < cfg0.N → Vec F S8x128 .f32
  | 0, hn => k0_pay4 (iblk0 V c 0 ⟨0, hn⟩) (k0_pay2 (F := F))
  | n + 1, hn => k0_pay4 (iblk0 V c 0 ⟨n + 1, hn⟩)
      (if (n + 1) % 4 = 0 then k0_pay2 (F := F) else accQ c n (Nat.lt_of_succ_lt hn))

theorem accS_zero (c : Dev nD) (hn : 0 < cfg0.N) :
    accS V c 0 hn = k0_pay3 (iblk0 V c 0 ⟨0, hn⟩) (k0_pay1 (F := F)) := rfl
theorem accS_succ (c : Dev nD) (n : ℕ) (hn : n + 1 < cfg0.N) :
    accS V c (n + 1) hn = k0_pay3 (iblk0 V c 0 ⟨n + 1, hn⟩)
      (if (n + 1) % 4 = 0 then k0_pay1 (F := F) else accS V c n (Nat.lt_of_succ_lt hn)) := rfl
theorem accQ_zero (c : Dev nD) (hn : 0 < cfg0.N) :
    accQ V c 0 hn = k0_pay4 (iblk0 V c 0 ⟨0, hn⟩) (k0_pay2 (F := F)) := rfl
theorem accQ_succ (c : Dev nD) (n : ℕ) (hn : n + 1 < cfg0.N) :
    accQ V c (n + 1) hn = k0_pay4 (iblk0 V c 0 ⟨n + 1, hn⟩)
      (if (n + 1) % 4 = 0 then k0_pay2 (F := F) else accQ V c n (Nat.lt_of_succ_lt hn)) := rfl

/-! ## The second kernel (the normalisation) -/

/-- Window `w`'s block at point `t` of the second kernel's grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block the second kernel stores at point `t`: its one payload of the five input blocks there. -/
def nblk1 (c : Dev nD) (t : Fin cfg1.N) : Vec F S8x128x8x128 .f32 :=
  k1_pay1 (iblk1 V c 0 t) (iblk1 V c 1 t) (iblk1 V c 2 t) (iblk1 V c 3 t) (iblk1 V c 4 t)

end Cert.KernelIdeal.Hand

end
-- ==== Proof.KI.Stats.lean ====
/-
  The first kernel as a pipeline region: what it keeps between grid points and what it leaves in its output blocks.
  The grid's last axis walks four slabs; the kernel resets its two running sums at the first slab, adds the block's
  row sums (and the row sums of its squares) at every slab, and copies the sums to the output blocks at the last.
-/
import proofs.«172045_j5746666242191_1_alg».proof.Proof.KI.Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The two conditionals, point by point -/

/-- The first conditional's test, from the grid coordinates: the last coordinate is the first of its four. -/
abbrev condFirst (i : grid0.Coords) : Prop :=
  (Scalar.cmpi .ne (Scalar.extui (Scalar.cmpi .eq (BitVec.ofNat 32 (i 2).val) 0#32)) 0#32) = 1#1
/-- The second conditional's test: the last coordinate is the last of its four. -/
abbrev condLast (i : grid0.Coords) : Prop := k0_cond2 i = 1#1

/-- Point `t` has last coordinate `t mod 4`: the first test holds at the points ≡ 0, the second at the points ≡ 3. -/
theorem condFirst_iff : ∀ t : Fin cfg0.N, condFirst (grid0.coords t) ↔ t.val % 4 = 0 :=
  (by decide +kernel : ∀ t : Fin grid0.N, condFirst (grid0.coords t) ↔ t.val % 4 = 0)
theorem condLast_iff : ∀ t : Fin cfg0.N, condLast (grid0.coords t) ↔ t.val % 4 = 3 :=
  (by decide +kernel : ∀ t : Fin grid0.N, condLast (grid0.coords t) ↔ t.val % 4 = 3)

/-- The input window is live everywhere; each output window is idle, and not written back, exactly away from the
    points ≡ 3 (mod 4). -/
theorem live0 : ∀ t : Fin cfg0.N, cfg0.idle 0 (grid0.coords t) = false := by decide +kernel
theorem idle1_on : ∀ t : Fin cfg0.N, ¬t.val % 4 = 3 → cfg0.idle 1 (grid0.coords t) = true := by decide +kernel
theorem idle1_off : ∀ t : Fin cfg0.N, t.val % 4 = 3 → cfg0.idle 1 (grid0.coords t) = false := by decide +kernel
theorem idle2_on : ∀ t : Fin cfg0.N, ¬t.val % 4 = 3 → cfg0.idle 2 (grid0.coords t) = true := by decide +kernel
theorem idle2_off : ∀ t : Fin cfg0.N, t.val % 4 = 3 → cfg0.idle 2 (grid0.coords t) = false := by decide +kernel
theorem flush1_off : ∀ t : Fin cfg0.N, ¬t.val % 4 = 3 → (cfg0.win 1).flush t = false := by decide +kernel
theorem flush2_off : ∀ t : Fin cfg0.N, ¬t.val % 4 = 3 → (cfg0.win 2).flush t = false := by decide +kernel

/-! ### Whole-buffer loads and stores

Every load and store of the kernel goes through the rectangle that is the whole buffer at zero offsets: a load reads
the contents, and a store, last in a list of stores, leaves its payload whatever was there. -/

theorem zeros2 : (![0, 0] : Fin S8x128.rank → ℕ) = fun _ => 0 := by
  funext a; fin_cases a <;> rfl
theorem zeros4 : (![0, 0, 0, 0] : Fin S8x128x8x128.rank → ℕ) = fun _ => 0 := by
  funext a; fin_cases a <;> rfl

theorem read_store_last {κ : Kind} {sp : Space} (v : View sig κ sp S8x128 .f32) (f : v.ty.Contents (Elt F))
    (w : Vec F S8x128 .f32) (L : List (View.Piece (Elt F) S8x128 .f32)) :
    v.read (Elt F) (v.writes (Elt F) f (⟨Rect.unit ![0, 0] S8x128.size inb_S8x128_S8x128_0_0, w⟩ :: L)) = w := by
  rw [View.read_writes_eq_canon _ _ _ (fun y => ⟨_, List.mem_cons_self, View.mem_set_unit_zero zeros2 inb_S8x128_S8x128_0_0 y⟩),
    View.canon_cons_unit_zero zeros2]

theorem load_whole2 (m : Memref sig .tc .vmem S8x128 .f32) (h : m.IsWhole) (x : Vec F S8x128 .f32) :
    View.readAt (Elt F) m.view (Rect.unit ![0, 0] S8x128.size inb_S8x128_S8x128_0_0).toLoadRect (h.unread x) = x := by
  rw [View.readAt_eq_ld, h.read_unread, View.ld_unit_zero zeros2]

theorem load_whole4 (m : Memref sig .tc .vmem S8x128x8x128 .f32) (h : m.IsWhole) (x : Vec F S8x128x8x128 .f32) :
    View.readAt (Elt F) m.view (Rect.unit ![0, 0, 0, 0] S8x128x8x128.size inb_S8x128x8x128_S8x128x8x128_0_0_0_0).toLoadRect (h.unread x) = x := by
  rw [View.readAt_eq_ld, h.read_unread, View.ld_unit_zero zeros4]

/-! ## The body on whole buffers, case by case

The body's triple for each residue of the point modulo four, the buffers' contents explicit: every store covers its
whole buffer, so what a buffer holds afterwards is the last payload stored into it. -/

set_option maxHeartbeats 1000000 in
/-- A point whose last coordinate is neither the first nor the last of the four: the two running sums take the
    block's sums on, the output blocks are left as found. -/
theorem runMid (c : Dev nD) (i : grid0.Coords)
    (arg3 : Memref sig .tc .vmem S8x128x8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (arg7 : Memref sig .tc .vmem S8x128 .f32) (harg7 : arg7.IsWhole)
    (hc0 : ¬condFirst i) (hc1 : ¬condLast i)
    (x0 : Vec F S8x128x8x128 .f32) (xi1 xi2 xs0 xs1 : Vec F S8x128 .f32) (E : Set ℕ) (K : PUnit → sProp 𝕄) :
    iprop(owns (c : Thread nD τ) arg3 fullShare x0 ∗ owns (c : Thread nD τ) arg4 fullShare xi1 ∗ owns (c : Thread nD τ) arg5 fullShare xi2
        ∗ owns (c : Thread nD τ) arg6 fullShare xs0 ∗ owns (c : Thread nD τ) arg7 fullShare xs1
        ∗ (iprop(owns (c : Thread nD τ) arg3 fullShare x0 ∗ owns (c : Thread nD τ) arg4 fullShare xi1 ∗ owns (c : Thread nD τ) arg5 fullShare xi2
            ∗ owns (c : Thread nD τ) arg6 fullShare (k0_pay3 x0 xs0) ∗ owns (c : Thread nD τ) arg7 fullShare (k0_pay4 x0 xs1)) -∗ K ⟨⟩))
      ⊢ wp frame (wpE (defs₀ (F := F)) Variants.none c none) E (cc0__stats_kernel i arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro; rw [read_store_last, load_whole4, load_whole2]
  iexists _; isplitr
  swap; · iexact HS1
  ipureintro; rw [read_store_last, load_whole4, load_whole2]

set_option maxHeartbeats 1000000 in
/-- A point whose last coordinate is the first of the four: whatever the two buffers held, they are reset and then
    take the block's sums on; the output blocks are left as found. -/
theorem runFirst (c : Dev nD) (i : grid0.Coords)
    (arg3 : Memref sig .tc .vmem S8x128x8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (arg7 : Memref sig .tc .vmem S8x128 .f32) (harg7 : arg7.IsWhole)
    (hc0 : condFirst i) (hc1 : ¬condLast i)
    (x0 : Vec F S8x128x8x128 .f32) (xi1 xi2 : Vec F S8x128 .f32) (E : Set ℕ) (K : PUnit → sProp 𝕄) :
    iprop(owns (c : Thread nD τ) arg3 fullShare x0 ∗ owns (c : Thread nD τ) arg4 fullShare xi1 ∗ owns (c : Thread nD τ) arg5 fullShare xi2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare xi1 ∗ owns (c : Thread nD τ) arg5 fullShare xi2
            ∗ owns (c : Thread nD τ) arg6 fullShare (k0_pay3 x0 (k0_pay1 (F := F))) ∗ owns (c : Thread nD τ) arg7 fullShare (k0_pay4 x0 (k0_pay2 (F := F)))) -∗ K ⟨⟩))
      ⊢ wp frame (wpE (defs₀ (F := F)) Variants.none c none) E (cc0__stats_kernel i arg3 harg3 arg4 harg4 arg5 harg5 arg6 harg6 arg7 harg7) K := by
  simp only [cc0__stats_kernel_eq_skeleton]; unfold cc0__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro; rw [read_store_last, load_whole4]
    sl_unfold_words
    rw [View.readCov_unit_zero _ zeros2]
  iexists _; isplitr
  swap; · iexact HS1
  ipureintro; rw [read_store_last, load_whole4]
  sl_unfold_words
  rw [View.readCov_unit_zero _ zeros2]

set_option maxHeartbeats 1000000 in
/-- A point whose last coordinate is the last of the four: the two running sums take the block's sums on and are
    then copied to the output blocks, whatever those held. -/
theorem runLast (c : Dev nD) (i : grid0.Coords)
    (arg3 : Memref sig .tc .vmem S8x128x8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (arg7 : Memref sig .tc .vmem S8x128 .f32) (harg7 : arg7.IsWhole)
    (hc0 : ¬condFirst i) (hc1 : condLast i)
    (x0 : Vec F S8x128x8x128 .f32) (xs0 xs1 : Vec F S8x128 .f32) (E : Set ℕ) (K : PUnit → sProp 𝕄) :
    iprop(owns (c : Thread nD τ) arg3 fullShare x0 ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg3 fullShare x0 ∗ owns (c : Thread nD τ) arg4 fullShare (k0_pay3 x0 xs0) ∗ owns (c : Thread nD τ) arg5 fullShare (k0_pay4 x0 xs1)
            ∗ owns (c : Thread nD τ) arg6 fullShare (k0_pay3 x0 xs0) ∗ owns (c : Thread nD τ) arg7 fullShare (k0_pay4 x0 xs1)) -∗ K ⟨⟩))
      ⊢ wp frame (wpE (defs₀ (F := F)) Variants.none c none) E (cc0__stats_kernel i arg3 harg3 arg4 harg4 arg5 harg5 arg6 harg6 arg7 harg7) K := by
  simp only [cc0__stats_kernel_eq_skeleton]; unfold cc0__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg3.eq_unread hf0
  obtain rfl := harg6.eq_unread hfs0; obtain rfl := harg7.eq_unread hfs1
  sl_exec (disch := first | exact hc0 | exact hc1)
  sl_step
  iapply Hk
  isplitl [H0]
  · iexists _; isplitr; · ipureintro; exact hf0
    iexact H0
  isplitl [H1]
  · iexists _; isplitr
    swap; · iexact H1
    ipureintro; sl_unfold_words
    rw [read_store_last, View.readCov_unit_zero _ zeros2, load_whole4, load_whole2]
  isplitl [H2]
  · iexists _; isplitr
    swap; · iexact H2
    ipureintro; sl_unfold_words
    rw [read_store_last, View.readCov_unit_zero _ zeros2, load_whole4, load_whole2]
  isplitl [HS0]
  · iexists _; isplitr
    swap; · iexact HS0
    ipureintro; sl_unfold_words
    rw [read_store_last, load_whole4, load_whole2]
  iexists _; isplitr
  swap; · iexact HS1
  ipureintro; sl_unfold_words
  rw [read_store_last, load_whole4, load_whole2]

/-! ## The region's proof data -/

/-- The kernel's own two buffers, which it keeps between grid points. -/
abbrev scM0_0 : Memref sig .tc .vmem S8x128 .f32 := Memref.whole cc0_scratch0
abbrev scM0_1 : Memref sig .tc .vmem S8x128 .f32 := Memref.whole cc0_scratch1

/-- The core's other scoped buffers that are no staging buffer of this region (the second kernel's staging buffers),
    each whole at some contents: the region never touches them. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The region's invariant before point `n`: before the first point whatever the launch hands over; afterwards the two
    running sums in the kernel's own two buffers, at what the point before left, beside the untouched rest and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (accS V c n hn) ∗ owns (c : Thread nD τ) scM0_1 fullShare (accQ V c n hn) ∗ restS (F := F) c) ∗ (∃ r, prngReg c r))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accS V c t.val t.isLt
    | ⟨2, _⟩ => accQ V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = accS V c t.val t.isLt := by dsimp only [dat0]
theorem after0_2 (c : Dev nD) (t : Fin cfg0.N) : (dat0 V c).after 2 t = accQ V c t.val t.isLt := by dsimp only [dat0]

/-! ## The invariant, position by position -/

/-- What the launch hands over, with the kernel's own two buffers named: each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) := by
  unfold Pipeline.ΦA; rw [scopedRest0_eq]; unfold restS; simp only [scM0_0, scM0_1, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accS V c n hn) ∗ owns (c : Thread nD τ) scM0_1 fullShare (accQ V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accS V c (n - 1) (by omega)) ∗ owns (c : Thread nD τ) scM0_1 fullShare (accQ V c (n - 1) (by omega)) ∗ restS (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-! ## The running sums, point by point -/

/-- At a point ≡ 0 (mod 4) the sums start again from the reset values. -/
theorem accS_first (c : Dev nD) (t : Fin cfg0.N) (h : t.val % 4 = 0) :
    accS V c t.val t.isLt = k0_pay3 (iblk0 V c 0 t) (k0_pay1 (F := F)) := by
  obtain ⟨n, hn⟩ := t
  cases n with
  | zero => exact accS_zero V c hn
  | succ n => dsimp only at h; exact (accS_succ V c n hn).trans (by rw [if_pos h])
theorem accQ_first (c : Dev nD) (t : Fin cfg0.N) (h : t.val % 4 = 0) :
    accQ V c t.val t.isLt = k0_pay4 (iblk0 V c 0 t) (k0_pay2 (F := F)) := by
  obtain ⟨n, hn⟩ := t
  cases n with
  | zero => exact accQ_zero V c hn
  | succ n => dsimp only at h; exact (accQ_succ V c n hn).trans (by rw [if_pos h])

/-- At any other point they go on from what the point before left. -/
theorem accS_next (c : Dev nD) (t : Fin cfg0.N) (h : ¬t.val % 4 = 0) :
    accS V c t.val t.isLt = k0_pay3 (iblk0 V c 0 t) (accS V c (t.val - 1) (Nat.lt_of_le_of_lt (Nat.sub_le _ _) t.isLt)) := by
  obtain ⟨n, hn⟩ := t
  cases n with
  | zero => exact absurd (Nat.zero_mod 4) h
  | succ n => dsimp only at h; exact (accS_succ V c n hn).trans (by rw [if_neg h] <;> rfl)
theorem accQ_next (c : Dev nD) (t : Fin cfg0.N) (h : ¬t.val % 4 = 0) :
    accQ V c t.val t.isLt = k0_pay4 (iblk0 V c 0 t) (accQ V c (t.val - 1) (Nat.lt_of_le_of_lt (Nat.sub_le _ _) t.isLt)) := by
  obtain ⟨n, hn⟩ := t
  cases n with
  | zero => exact absurd (Nat.zero_mod 4) h
  | succ n => dsimp only at h; exact (accQ_succ V c n hn).trans (by rw [if_neg h] <;> rfl)

/-! ## The body at a point -/

/-- Each window's current staging memref at point `t`, and its wholeness. -/
abbrev ms0 (t : Fin cfg0.N) : Memref sig .tc .vmem S8x128x8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)

/-- The input window is fetched at every point, so its current buffer holds the point's block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point, by the residue of the point modulo four: the invariant hands it the two running sums at
    what the point before left (at anything before the first point, which resets them), and takes them back at this
    point's sums; the output blocks pass through untouched where they are idle, and are the sums at the points ≡ 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t], after0_0]
  have hN : t.val < 64 := lt_of_lt_of_eq t.isLt (show cfg0.N = 64 from N_0)
  by_cases h0 : t.val % 4 = 0
  · have h3 : ¬t.val % 4 = 3 := by omega
    rw [Dat.leavesExact_idle (dat0 V c) 1 t (idle1_on t h3) (flush1_off t h3),
      Dat.leavesExact_idle (dat0 V c) 2 t (idle2_on t h3) (flush2_off t h3)]
    rw [accS_first V c t h0, accQ_first V c t h0]
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩⟩
      iapply (runFirst c (grid0.coords t) _ _ _ _ _ _ _ _ _ _ ((condFirst_iff t).mpr h0) (fun h => h3 ((condLast_iff t).mp h)) (iblk0 V c 0 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HS0, HS1, Hrest⟩, Hg⟩, Ho, ⟨%d0, H0⟩, ⟨%d1, H1⟩, ⟨%d2, H2⟩⟩
      iapply (runFirst c (grid0.coords t) _ _ _ _ _ _ _ _ _ _ ((condFirst_iff t).mpr h0) (fun h => h3 ((condLast_iff t).mp h)) (iblk0 V c 0 t) _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexists _; iexact H1
      iexists _; iexact H2
  · have hz : t.val ≠ 0 := fun e => h0 (by rw [e])
    rw [accS_next V c t h0, accQ_next V c t h0]
    rw [PhiS_castSucc V c t, PhiS_pos V c _ _ hz]
    by_cases h3 : t.val % 4 = 3
    · rw [show (dat0 V c).leavesExact 1 t = owns (c : Thread nD τ) (ms1 t) fullShare ((dat0 V c).after 1 t) from by
        unfold Dat.leavesExact; rw [idle1_off t h3], after0_1]
      rw [show (dat0 V c).leavesExact 2 t = owns (c : Thread nD τ) (ms2 t) fullShare ((dat0 V c).after 2 t) from by
        unfold Dat.leavesExact; rw [idle2_off t h3], after0_2]
      rw [accS_next V c t h0, accQ_next V c t h0]
      iintro ⟨⟨⟨HS0, HS1, Hrest⟩, Hg⟩, Ho, ⟨%d0, H0⟩, ⟨%d1, H1⟩, ⟨%d2, H2⟩⟩
      iapply (runLast c (grid0.coords t) _ _ _ _ _ _ _ _ _ _ (fun h => h0 ((condFirst_iff t).mp h)) ((condLast_iff t).mpr h3) (iblk0 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      iexact H2
    · rw [Dat.leavesExact_idle (dat0 V c) 1 t (idle1_on t h3) (flush1_off t h3),
        Dat.leavesExact_idle (dat0 V c) 2 t (idle2_on t h3) (flush2_off t h3)]
      iintro ⟨⟨⟨HS0, HS1, Hrest⟩, Hg⟩, Ho, ⟨%d0, H0⟩, ⟨%d1, H1⟩, ⟨%d2, H2⟩⟩
      iapply (runMid c (grid0.coords t) _ _ _ _ _ _ _ _ _ _ (fun h => h0 ((condFirst_iff t).mp h)) (fun h => h3 ((condLast_iff t).mp h)) (iblk0 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexists _; iexact H1
      iexists _; iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point the invariant gives back what the launch handed over: the sums' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

/-- After the last point the invariant gives it back. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.Norm.lean ====
/-
  The second kernel as a pipeline region: a pointwise body, one stored block from five loaded ones.
-/
import proofs.«172045_j5746666242191_1_alg».proof.Proof.KI.Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => nblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = nblk1 V c t := by dsimp only [dat1]

/-! ## What the body finds in each input's staging buffer

An input window's staging buffer is refilled only at the points where its block index moves; the body leaves it as it
found it, so between two refills it still holds the block of the point it is at.  The first window moves at every
point, the other four at every fourth. -/

/-- The image block: window 0's staging buffer holds its block at every point. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The block of means: window 1's staging buffer holds its block at every point, refilled there or not. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- The block of variances: window 2's staging buffer likewise. -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-- The block of scales: window 3's staging buffer likewise. -/
theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

/-- The block of shifts: window 4's staging buffer likewise. -/
theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have hkeep : ∀ t, (cfg1.win 4).cut (cfg1.grid.coords t) (dat.after 4 t) = dat.blockOf 4 t := fun t => by
    rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

/-! ## The body on whole buffers

Every load of the body reads its whole buffer and its one store writes the whole of the output's, so the body maps
the five contents it is handed to the payload of those five, and leaves the inputs as they were. -/

/-- The offsets of the body's rectangles are zero on every axis. -/
theorem off4_zero : (![0, 0, 0, 0] : Fin 4 → Nat) = fun _ => 0 := funext fun a => by fin_cases a <;> rfl
theorem off2_zero : (![0, 0] : Fin 2 → Nat) = fun _ => 0 := funext fun a => by fin_cases a <;> rfl
theorem off1_zero : (![0] : Fin 1 → Nat) = fun _ => 0 := funext fun a => by fin_cases a; rfl

/-- One store through the whole-buffer rectangle, over whatever the buffer held, reads back as what was stored. -/
theorem read_store_whole (m : Memref sig .tc .vmem S8x128x8x128 .f32) (f : m.view.ty.Contents (Elt F))
    (p : Vec F S8x128x8x128 .f32) :
    m.view.read (Elt F) (m.view.writes (Elt F) f
      [⟨Rect.unit (s := S8x128x8x128) ![0, 0, 0, 0] S8x128x8x128.size inb_S8x128x8x128_S8x128x8x128_0_0_0_0, p⟩]) = p := by
  have hcover : ∀ y : S8x128x8x128.Idx, ∃ pc ∈ ([⟨Rect.unit (s := S8x128x8x128) ![0, 0, 0, 0] S8x128x8x128.size
      inb_S8x128x8x128_S8x128x8x128_0_0_0_0, p⟩] : List (View.Piece (Elt F) S8x128x8x128 .f32)), y ∈ pc.1.set := fun y =>
    ⟨⟨Rect.unit (s := S8x128x8x128) ![0, 0, 0, 0] S8x128x8x128.size inb_S8x128x8x128_S8x128x8x128_0_0_0_0, p⟩,
      List.mem_singleton_self _, View.mem_set_unit_zero (S := S8x128x8x128) off4_zero inb_S8x128x8x128_S8x128x8x128_0_0_0_0 y⟩
  rw [View.read_writes_eq_canon m.view f _ hcover]
  exact View.canon_unit_zero (S := S8x128x8x128) off4_zero inb_S8x128x8x128_S8x128x8x128_0_0_0_0 p

set_option maxHeartbeats 1000000 in
/-- The body's triple: from the five inputs' buffers at contents x0 .. x4 and the output's at anything, to the
    inputs' unchanged and the output's at the payload of x0 .. x4. -/
theorem norm_kernel_triple (c : Dev nD) (E : Set ℕ) (i : grid1.Coords)
    (a3 : Memref sig .tc .vmem S8x128x8x128 .f32) (h3 : a3.IsWhole) (a4 : Memref sig .tc .vmem S8x128 .f32) (h4 : a4.IsWhole)
    (a5 : Memref sig .tc .vmem S8x128 .f32) (h5 : a5.IsWhole) (a6 : Memref sig .tc .vmem S128 .f32) (h6 : a6.IsWhole)
    (a7 : Memref sig .tc .vmem S128 .f32) (h7 : a7.IsWhole) (a8 : Memref sig .tc .vmem S8x128x8x128 .f32) (h8 : a8.IsWhole)
    (x0 : Vec F S8x128x8x128 .f32) (x1 x2 : Vec F S8x128 .f32) (x3 x4 : Vec F S128 .f32) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ owns (c : Thread nD τ) a7 fullShare x4 ∗ (∃ d, owns (c : Thread nD τ) a8 fullShare d)
        ∗ (iprop(owns (c : Thread nD τ) a3 fullShare x0 ∗ owns (c : Thread nD τ) a4 fullShare x1
            ∗ owns (c : Thread nD τ) a5 fullShare x2 ∗ owns (c : Thread nD τ) a6 fullShare x3
            ∗ owns (c : Thread nD τ) a7 fullShare x4
            ∗ owns (c : Thread nD τ) a8 fullShare (k1_pay1 x0 x1 x2 x3 x4)) -∗ K ⟨⟩))
      ⊢ wp frame (wpE (defs₀ (F := F)) Variants.none c none) E (cc1__norm_kernel i a3 h3 a4 h4 a5 h5 a6 h6 a7 h7 a8 h8) K := by
  simp only [cc1__norm_kernel_eq_skeleton]; unfold cc1__norm_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [read_store_whole]
  simp only [View.readAt_eq_ld, View.ld_unit_zero (S := S8x128x8x128) off4_zero,
    View.ld_unit_zero (S := S8x128) off2_zero, View.ld_unit_zero (S := S128) off1_zero]

/-! ## The body obligation -/

/-- Each input's staging buffer holds its block at every point, for the proof data of this region. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is handed at point t: the region's invariant, what the core owes, and the six current staging
    buffers, each at what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debt, the six buffers at what the body leaves in them. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the triple applies at those blocks and the
    output's buffer is left at their payload; the invariant and the debt are not touched. -/
theorem body_at_point1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold nblk1
  iintro ⟨HΦ, Ho, ⟨%d0, H0⟩, ⟨%d1, H1⟩, ⟨%d2, H2⟩, ⟨%d3, H3⟩, ⟨%d4, H4⟩, ⟨%d5, H5⟩⟩
  iapply (norm_kernel_triple c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pipeline, at every point. -/
theorem body_obligation1 (c : Dev nD) : BodyObligation (dat1 (F := F) V c) (defs₀ (F := F)) Variants.none () Set.univ := fun t => by
  rw [bigSep_W1, bigSep_W1]
  exact body_at_point1 V c t

end Cert.KernelIdeal.Hand

end
-- ==== Proof.KI.Run.lean ====
/-
  The whole program as four segments: three host operations, the first kernel's region, forty-five host operations,
  the second kernel's region.  The core's buffer contents are followed from the launch to the return; every final
  memory holds each unscoped buffer at the last of them.
-/
import proofs.«172045_j5746666242191_1_alg».proof.Proof.KI.Stats
import proofs.«172045_j5746666242191_1_alg».proof.Proof.KI.Norm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## The run -/

/-- The second region's exit contents read at the TensorCore's references. -/
abbrev V4 : (c : Dev nD) → (b : Ref sig .tc) → Buf (Elt F) ((c : Thread nD τ).loc b) := fun c b => W4 m ρ c b

/-- When the first region is left, each of its three arrays (the image and the two arrays of sums) holds what the
    pipeline's write-backs leave there, -/
theorem sums_arrays_left (c : Dev nD) (w : Fin cfg0.W) :
    (dat0 (V1 m ρ) c).arrAt w cfg0.N = V2 m ρ c (Pipeline.arrRef spec0 w) :=
  (W2_arr m ρ c w).symm
/-- and a buffer that is none of the three holds what it held when the region was entered. -/
theorem sums_others_kept (c : Dev nD) : ∀ b, b ∉ Finset.univ.image (Pipeline.arrRef spec0) → V2 m ρ c b = V1 m ρ c b :=
  fun b hb => W2_of_ne m ρ c b fun w hw => hb (Finset.mem_image.mpr ⟨w, Finset.mem_univ w, hw⟩)

/-- When the second region is left, each of its six arrays holds what the pipeline's write-backs leave there, -/
theorem norm_arrays_left (c : Dev nD) (w : Fin cfg1.W) :
    (dat1 (V3 m ρ) c).arrAt w cfg1.N = V4 m ρ c (Pipeline.arrRef spec1 w) :=
  (W4_arr m ρ c w).symm
/-- and a buffer that is none of the six holds what it held when the region was entered. -/
theorem norm_others_kept (c : Dev nD) : ∀ b, b ∉ Finset.univ.image (Pipeline.arrRef spec1) → V4 m ρ c b = V3 m ρ c b :=
  fun b hb => W4_of_ne m ρ c b fun w hw => hb (Finset.mem_image.mpr ⟨w, Finset.mem_univ w, hw⟩)

/-! ### The proof data of the two pipelines and what the thread carries between segments -/

/-- Neither pipeline has a prefetched table. -/
abbrev noTables : (p : Fin 2) → (pcfgs (F := F) p).Adm := fun p => (cfgs p).toPCfg_adm

/-- The two pipelines' proof data: the sums at the contents the first stretch leaves, the normalisation at the
    contents the second stretch leaves.  Matched on the literal index, so that either case reduces. -/
def regionData : (p : Fin 2) → (c : Dev nD) →
    Dat τ (Elt F) Unit ℕ (UR sig nD τ) ℕ (Pipeline.pin (pcfgs (F := F)) noTables p) c
  | ⟨0, _⟩ => fun c => dat0 (V1 m ρ) c
  | ⟨1, _⟩ => fun c => dat1 (V3 m ρ) c

abbrev 𝒱₀ : Variants := Variants.none
/-- No core waits for another: no level is assigned. -/
abbrev noLevels : GSem nD τ sig → Finset Unit := fun _ => ∅
abbrev levelZero : GSem nD τ sig → Unit → ℕ := fun _ _ => 0

/-- What the thread holds beside its unscoped buffers in every segment: the generator register at some state, and
    the record that the core owes nothing. -/
abbrev beside (c : Dev nD) : sProp 𝕄 :=
  iprop((∃ r, prngReg c r) ∗ ∃ W, owes (c : Thread nD τ) (0 : CellTallies nD τ sig Unit) W)

/-- A stretch of host operations as a segment: from every unscoped buffer at the contents W, to the same buffers
    at the contents the operations leave. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noLevels levelZero :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W beside

/-- The three operations before the first kernel allocate nothing. -/
theorem hostOps0_fresh : (hostOps0 : List (HloOp τ sig (Elt F))).Forall fun op => op.fresh = ∅ := by
  simp only [List.Forall]; repeat' constructor
/-- The forty-five operations between the kernels allocate nothing. -/
theorem hostOps1_fresh : (hostOps1 : List (HloOp τ sig (Elt F))).Forall fun op => op.fresh = ∅ := by
  simp only [List.Forall]; repeat' constructor

/-- What the thread holds at the return, the record of owing nothing apart: every unscoped buffer at the last
    boundary's contents and the generator register at some state. -/
abbrev atReturn (c : Dev nD) : sProp 𝕄 :=
  iprop(StableHlo.held (c : Thread nD τ) (Pipeline.ucRefs τ sig) (W4 m ρ c) ∗ ∃ r, prngReg c r)

/-! ### The two kernels' regions as segments -/

set_option backward.isDefEq.respectTransparency.types false in
/-- The first kernel's region: entered with every unscoped buffer at the contents the first stretch leaves, left with
    them at the next boundary's.  Its three arrays are taken out of the unscoped buffers at entry and put back at
    what the write-backs leave; the generator register goes into the region's invariant and comes back; the kernel
    has no semaphore of its own and nothing is owed.  The invariant is the kernel's own (it names the two running
    sums), so it is reached from, and left for, the scoped rest and the register through the two entailments proved
    with it. -/
def sumsRegion : Pipeline.RegionSeg (pcfgs (F := F)) noTables (regionData m ρ) () defs₀ 𝒱₀ noLevels levelZero 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLevels levelZero 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have harrays := Pipeline.arrays_of_unscopedBufs (p := 0) (pcfgs (F := F)) noTables (regionData m ρ)
      launch0.win launch0.arr_whole c ((regionData m ρ 0 c).share_full fun _ => rfl) (V1 m ρ c)
      fun w => A_eq0 (V1 m ρ) c w
    rw [Pipeline.unscopedBufs_held] at harrays
    iintro ⟨⟨Hbufs, Hgen, Howes⟩, -, -⟩
    ihave Hsplit := harrays $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hgen]; · iexact Hgen
    iexact Hother
  hin c := Entails.trans (by
      unfold Pipeline.ΦA
      iintro ⟨Hgen, -, Hscoped⟩
      isplitl [Hscoped]; · iexact Hscoped
      iexact Hgen) (hin0 (V1 m ρ) c)
  hout c := Entails.trans (hout0 (V1 m ρ) c) (by
      rw [Pipeline.ownSems0_none]; unfold Pipeline.ΦA
      iintro ⟨Hscoped, Hgen⟩
      isplitl [Hgen]; · iexact Hgen
      isplitr; · iempintro
      iexact Hscoped)
  hexit c := by
    have hback := Pipeline.unscopedBufs_of_arrays (p := 0) (pcfgs (F := F)) noTables (Ix := Unit) (Name := ℕ)
      (U := UR sig nD τ) (Lvl := ℕ) launch0.win launch0.arr_whole c (regionData m ρ)
      ((regionData m ρ 0 c).share_full fun _ => rfl) (V1 m ρ c) (V2 m ρ c)
      ((regionData m ρ 0 c).arrAt · cfg0.N) (sums_arrays_left m ρ c) (sums_others_kept m ρ c)
    rw [Pipeline.unscopedBufs_held] at hback
    iintro ⟨Harr, Howes, Hgen, Hother⟩
    imodintro
    isplitl [Harr Hother]
    · iapply hback; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
/-- The second kernel's region: entered with every unscoped buffer at the contents the second stretch leaves, left at
    the return's.  Its six arrays are taken out at entry and put back at what the write-backs leave; its invariant is
    the scoped rest beside the generator register itself. -/
def normRegion : Pipeline.RegionSeg (pcfgs (F := F)) noTables (regionData m ρ) () defs₀ 𝒱₀ noLevels levelZero 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noLevels levelZero 1 fun _ _ => rfl
  pre c := iprop(StableHlo.held (c : Thread nD τ) (Pipeline.ucRefs τ sig) (W3 m ρ c) ∗ beside c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have harrays := Pipeline.arrays_of_unscopedBufs (p := 1) (pcfgs (F := F)) noTables (regionData m ρ)
      launch1.win launch1.arr_whole c ((regionData m ρ 1 c).share_full fun _ => rfl) (V3 m ρ c)
      fun w => A_eq1 (V3 m ρ) c w
    rw [Pipeline.unscopedBufs_held] at harrays
    iintro ⟨⟨Hbufs, Hgen, Howes⟩, -, -⟩
    ihave Hsplit := harrays $$ Hbufs
    icases Hsplit with ⟨Harr, Hother⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hgen]; · iexact Hgen
    iexact Hother
  hin c := by
    rw [show (regionData m ρ 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (regionData m ρ 1 c).Φ (Fin.last _) = Pipeline.ΦA spec1 c from rfl]
    unfold Pipeline.ΦA
    iintro ⟨Hscoped, Hgen⟩
    isplitl [Hgen]; · iexact Hgen
    isplitr; · iempintro
    iexact Hscoped
  hexit c := by
    have hback := Pipeline.unscopedBufs_of_arrays (p := 1) (pcfgs (F := F)) noTables (Ix := Unit) (Name := ℕ)
      (U := UR sig nD τ) (Lvl := ℕ) launch1.win launch1.arr_whole c (regionData m ρ)
      ((regionData m ρ 1 c).share_full fun _ => rfl) (V3 m ρ c) (V4 m ρ c)
      ((regionData m ρ 1 c).arrAt · cfg1.N) (norm_arrays_left m ρ c) (norm_others_kept m ρ c)
    rw [Pipeline.unscopedBufs_held] at hback
    iintro ⟨Harr, Howes, Hgen, Hother⟩
    imodintro
    isplitl [Harr Hother Hgen]
    · isplitl [Harr Hother]
      · iapply hback; isplitl [Harr] <;> iassumption
      iexact Hgen
    unfold Pipeline.Dat.owesAt Pipeline.owesWithin
    icases Howes with ⟨%W, -, Howes⟩; iexists W; iexact Howes

/-! ### The program as four segments, and its launch -/

/-- The program's segments in order: the three operations that make the segment indices zero-based, the kernel of
    sums, the forty-five operations from the sums to the per-row mean and variance, the kernel that normalises. -/
abbrev programSegments :
    List (Pipeline.Seg (pcfgs (F := F)) noTables (regionData m ρ) () defs₀ 𝒱₀ noLevels levelZero) :=
  [ .host (stretch hostOps0 hostOps0_sub hostOps0_fresh (W0 m ρ)),
    .region (sumsRegion m ρ),
    .host (stretch hostOps1 hostOps1_sub hostOps1_fresh (W2 m ρ)),
    .region (normRegion m ρ) ]

/-- The program is the run of those segments. -/
theorem main_is_segments (c : Dev nD) : main (F := F) c = Pipeline.Seg.run (programSegments m ρ) :=
  main_segs noTables (regionData m ρ) () 𝒱₀ noLevels levelZero
    (stretch hostOps0 hostOps0_sub hostOps0_fresh (W0 m ρ)) (stretch hostOps1 hostOps1_sub hostOps1_fresh (W2 m ρ))
    (sumsRegion m ρ) (normRegion m ρ) rfl rfl c

set_option backward.isDefEq.respectTransparency.types false in
/-- Every weakly fair execution of the program from memory `m` with zero counters terminates, nothing faulting, and every
    final memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (regionData m ρ) () cellOf_inj emb₁ defs₀ 𝒱₀ noLevels levelZero
    m ρ main (programSegments m ρ)
    (fun c Q => by rw [main_is_segments m ρ c])
    (by simp only [programSegments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hlaunch; imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ beside c))
    (Tₙ := atReturn m ρ)
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b))
            = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := fun s h c => h c)

/-! ## The arguments end as launched

Neither stretch writes an argument: each host operation writes its own result only.  A region leaves an array it
only reads as it found it, and does not touch a buffer that is none of its arrays. -/

/-- The results of the first stretch: the constant one, its broadcast, the zero-based segment indices. -/
abbrev written0 : List (Ref sig .tc) := [main_c, main_v0, main_v1]
/-- The results of the second stretch. -/
abbrev written1 : List (Ref sig .tc) :=
  [main_cst, main_v3, main_v4, main_v5, main_cst_0, main_v6, main_v7, main_v8, main_cst_1, main_v9, main_cst_2,
   main_v10, main_v11, main_v12, main_cst_3, main_v13, main_v14, main_cst_4, main_v15, main_v16, main_v17, main_v18,
   main_v19, main_v20, main_v21, main_v22, main_v23, main_c_5, main_v24, main_v25, main_c_6, main_v26, main_v27,
   main_v28, main_v29, main_v30, main_c_7, main_v31, main_v32, main_c_8, main_v33, main_v34, main_v35, main_v36,
   main_v37]

/-- Every operation of the first stretch writes one of its results, -/
theorem hostOps0_writes : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.binary_writes,
    StableHlo.ternary_writes, Finset.singleton_subset_iff, List.mem_toFinset]
  repeat' apply And.intro
  all_goals exact List.mem_map_of_mem (by decide)
/-- and every operation of the second stretch one of its. -/
theorem hostOps1_writes : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, Finset.singleton_subset_iff, List.mem_toFinset]
  repeat' apply And.intro
  all_goals exact List.mem_map_of_mem (by decide)

/-- A buffer that is no result of the first stretch is after it as before, -/
theorem first_stretch_keeps (r : Ref sig .tc) (hr : r ∉ written0) (W : Valuation τ sig (Elt F)) :
    StableHlo.after (hostOps0 (F := F)) W (Proc.devRef .tc r) = W (Proc.devRef .tc r) :=
  StableHlo.after_of_writes_sub hostOps0 W hostOps0_writes hr
/-- and likewise for the second. -/
theorem second_stretch_keeps (r : Ref sig .tc) (hr : r ∉ written1) (W : Valuation τ sig (Elt F)) :
    StableHlo.after (hostOps1 (F := F)) W (Proc.devRef .tc r) = W (Proc.devRef .tc r) :=
  StableHlo.after_of_writes_sub hostOps1 W hostOps1_writes hr

/-- The image: the first input of both kernels. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
        (W4_arr m ρ c 0).trans (((dat1 (V3 m ρ) c).arrAt_in 0 rfl _).trans (A_eq1 (V3 m ρ) c 0))
    _ = W2 m ρ c (Proc.devRef .tc main_arg0) := second_stretch_keeps main_arg0 (by decide) _
    _ = W1 m ρ c (Proc.devRef .tc main_arg0) :=
        (W2_arr m ρ c 0).trans (((dat0 (V1 m ρ) c).arrAt_in 0 rfl _).trans (A_eq0 (V1 m ρ) c 0))
    _ = W0 m ρ c (Proc.devRef .tc main_arg0) := first_stretch_keeps main_arg0 (by decide) _
    _ = m ((c : Thread nD τ).loc main_arg0) := rfl
/-- The scales: the fourth input of the second kernel; the first kernel does not stage them. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) :=
        (W4_arr m ρ c 3).trans (((dat1 (V3 m ρ) c).arrAt_in 3 rfl _).trans (A_eq1 (V3 m ρ) c 3))
    _ = W2 m ρ c (Proc.devRef .tc main_arg1) := second_stretch_keeps main_arg1 (by decide) _
    _ = W1 m ρ c (Proc.devRef .tc main_arg1) := W2_of_ne m ρ c main_arg1 (by decide)
    _ = W0 m ρ c (Proc.devRef .tc main_arg1) := first_stretch_keeps main_arg1 (by decide) _
    _ = m ((c : Thread nD τ).loc main_arg1) := rfl
/-- The shifts: the fifth input of the second kernel; the first kernel does not stage them. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) :=
        (W4_arr m ρ c 4).trans (((dat1 (V3 m ρ) c).arrAt_in 4 rfl _).trans (A_eq1 (V3 m ρ) c 4))
    _ = W2 m ρ c (Proc.devRef .tc main_arg2) := second_stretch_keeps main_arg2 (by decide) _
    _ = W1 m ρ c (Proc.devRef .tc main_arg2) := W2_of_ne m ρ c main_arg2 (by decide)
    _ = W0 m ρ c (Proc.devRef .tc main_arg2) := first_stretch_keeps main_arg2 (by decide) _
    _ = m ((c : Thread nD τ).loc main_arg2) := rfl
/-- The segment indices: only the first stretch reads them; neither kernel stages them. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := second_stretch_keeps main_arg3 (by decide) _
    _ = W1 m ρ c (Proc.devRef .tc main_arg3) := W2_of_ne m ρ c main_arg3 (by decide)
    _ = W0 m ρ c (Proc.devRef .tc main_arg3) := first_stretch_keeps main_arg3 (by decide) _
    _ = m ((c : Thread nD τ).loc main_arg3) := rfl

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-! ## What the result and the second region's operands are -/

/-- The result array at the end is what the second pipeline's write-backs leave. -/
theorem W4_main_v38 (c : Dev nD) : W4 m ρ c (Proc.devRef .tc main_v38) = (dat1 (V3 m ρ) c).arrAt 5 cfg1.N :=
  W4_arr m ρ c 5

/-- The two sums the host stretch between the regions reads are what the first pipeline's write-backs leave. -/
theorem V2_main_v2_0 (c : Dev nD) : V2 m ρ c main_v2_0 = (dat0 (V1 m ρ) c).arrAt 1 cfg0.N := W2_arr m ρ c 1
theorem V2_main_v2_1 (c : Dev nD) : V2 m ρ c main_v2_1 = (dat0 (V1 m ρ) c).arrAt 2 cfg0.N := W2_arr m ρ c 2

end Cert.KernelIdeal.Hand

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.Value.Chain.lean ====
/-
  THE SHARED PART OF THE TWO PROGRAMS, as functions of what goes into it.
  Both programs turn the per-sample, per-channel sums  s[b, c]  and  q[b, c]  (the sums of an image plane and of its
  squares) and the samples' segment numbers into a per-sample mean and variance:
    * the sums of the samples of each segment d, S[d, c] and Q[d, c], and the number n[d] of its samples, by three
      scatter-adds into zeros (a sample whose number is outside 0..7 lands nowhere);
    * cnt[d] = max (4096 n[d]) 1,  mean = S / cnt,  var = Q / cnt - mean * mean;
    * sample b takes row  r(b)  of these, its number with a negative one wrapped by 8, then clamped into 0..7.
  The operations are stated over ANY dimension records and broadcast evidence, so that each program's own records are
  an instance: nothing here names a program.
-/
import Idealize.ShloMosaic.PureOps
import Idealize.ShloMosaic.PureOps.Ideal
import Idealize.ShloMosaic.PureOps.Ideal.Laws
import Idealize.ShloMosaic.Lib.ValueIdx
import Idealize.ShloMosaic.Lib.IdealHost
import proofs.«172045_j5746666242191_1_alg».proof.Proof.LibScatterGather

noncomputable section

open scoped BigOperators

namespace Cert.Chain

open Idealize.ShloMosaic Idealize.ShloMosaic.ValueIdx

abbrev S_ : Shape := ⟨0, ![]⟩
abbrev S8 : Shape := ⟨1, ![8]⟩
abbrev S64 : Shape := ⟨1, ![64]⟩
abbrev S256 : Shape := ⟨1, ![256]⟩
abbrev S8x1 : Shape := ⟨2, ![8, 1]⟩
abbrev S64x1 : Shape := ⟨2, ![64, 1]⟩
abbrev S8x256 : Shape := ⟨2, ![8, 256]⟩
abbrev S64x256 : Shape := ⟨2, ![64, 256]⟩
abbrev S64x256x32x128 : Shape := ⟨4, ![64, 256, 32, 128]⟩

/-! ## The operations, over any records -/

section Ops

variable {F : FTy → Type} [FloatOps F]
variable (gd : GatherDims S8x256 S64x1 S64x256) (sd : ScatterDims S8x256 S64x1 S64x256) (sv : ScatterDims S8 S64x1 S64)
  (b1 : S_.BroadcastsInDim S8x256 (![] : Fin 0 → Fin S8x256.rank))
  (b2 : S64.BroadcastsInDim S64x1 (![0] : Fin 1 → Fin S64x1.rank))
  (b3 : S_.BroadcastsInDim S8 (![] : Fin 0 → Fin S8.rank))
  (b4 : S_.BroadcastsInDim S64 (![] : Fin 0 → Fin S64.rank))
  (b5 : S8.BroadcastsInDim S8x1 (![0] : Fin 1 → Fin S8x1.rank))
  (b6 : S8x1.BroadcastsInDim S8x256 (![0, 1] : Fin 2 → Fin S8x256.rank))

/-- The guarded element count of each segment, spread over the channels: max (4096 n[d]) 1. -/
def cnt (ids : IVec S64 32) : FVec F S8x256 .f32 :=
  broadcastInDim S8x256 ![0, 1] b6 (broadcastInDim S8x1 ![0] b5 (maximumf (mulf (Host.scatterAdd sv (broadcastInDim S8 ![] b3 (constant S_ .f32 0x00000000#32)) (broadcastInDim S64x1 ![0] b2 ids) (broadcastInDim S64 ![] b4 (constant S_ .f32 0x3F800000#32))) (broadcastInDim S8 ![] b3 (constant S_ .f32 0x45800000#32))) (broadcastInDim S8 ![] b3 (constant S_ .f32 0x3F800000#32))))

/-- The segments' quotient of a per-sample array: its segment sums over the guarded count. -/
def segQuot (s : FVec F S64x256 .f32) (ids : IVec S64 32) : FVec F S8x256 .f32 :=
  Host.divf (Host.scatterAdd sd (broadcastInDim S8x256 ![] b1 (constant S_ .f32 0x00000000#32)) (broadcastInDim S64x1 ![0] b2 ids) s) (cnt sv b2 b3 b4 b5 b6 ids)

/-- The row each sample reads: its segment number, a negative one wrapped by 8 (the gather clamps it afterwards). -/
def rowIdx (ids : IVec S64 32) : IVec S64x1 32 :=
  broadcastInDim S64x1 ![0] b2 (select (cmpi .slt ids (broadcastInDim S64 ![] b4 (constantI S_ 32 0#32))) (addi ids (broadcastInDim S64 ![] b4 (constantI S_ 32 8#32))) ids)

/-- The per-sample mean. -/
def chainM (s : FVec F S64x256 .f32) (ids : IVec S64 32) : FVec F S64x256 .f32 :=
  Host.gather gd (segQuot sd sv b1 b2 b3 b4 b5 b6 s ids) (rowIdx b2 b4 ids)

/-- The per-sample variance. -/
def chainV (s q : FVec F S64x256 .f32) (ids : IVec S64 32) : FVec F S64x256 .f32 :=
  Host.gather gd (subf (segQuot sd sv b1 b2 b3 b4 b5 b6 q ids) (mulf (segQuot sd sv b1 b2 b3 b4 b5 b6 s ids) (segQuot sd sv b1 b2 b3 b4 b5 b6 s ids))) (rowIdx b2 b4 ids)

end Ops

/-! ## The same, index by index, on the extended reals -/

/-- The samples' segment numbers counted from zero: the argument's numbers, which count from one, less one. -/
def idsOf (a : IVec S64 32) : IVec S64 32 := fun i => a i - 1#32

/-- The samples of segment `d`. -/
def seg (ids : IVec S64 32) (d : Fin 8) : Finset (Fin 64) :=
  Finset.univ.filter fun e : Fin 64 => (ids (ix1 e)).toInt = (d.val : Int)

/-- The row sample `b` reads: its segment number wrapped and clamped into 0..7. -/
def rowOf (ids : IVec S64 32) (b : Fin 64) : Fin 8 :=
  ⟨min (if (ids (ix1 b)).slt 0#32 then ids (ix1 b) + 8#32 else ids (ix1 b)).toInt.toNat 7, by omega⟩

/-- The guarded count of segment `d`. -/
def cntG (ids : IVec S64 32) (d : Fin 8) : EReal :=
  max ((0 + ∑ _e ∈ seg ids d, (1 : EReal)) * ((4096 : ℝ) : EReal)) 1

/-- A per-sample array's segment quotient at (d, c). -/
def quotG (s : FVec Ideal S64x256 .f32) (ids : IVec S64 32) (d : Fin 8) (c : Fin 256) : EReal :=
  Ideal.div (0 + ∑ e ∈ seg ids d, s (ix2 e c)) (cntG ids d)

/-- The mean sample `b` takes in channel `c`. -/
def meanG (s : FVec Ideal S64x256 .f32) (ids : IVec S64 32) (b : Fin 64) (c : Fin 256) : EReal :=
  quotG s ids (rowOf ids b) c

/-- The variance sample `b` takes in channel `c`. -/
def varG (s q : FVec Ideal S64x256 .f32) (ids : IVec S64 32) (b : Fin 64) (c : Fin 256) : EReal :=
  quotG q ids (rowOf ids b) c - quotG s ids (rowOf ids b) c * quotG s ids (rowOf ids b) c

/-- The sums of an image plane: what both programs feed the shared part. -/
def planeSums (x : FVec Ideal S64x256x32x128 .f32) : FVec Ideal S64x256 .f32 :=
  fun j => ∑ h : Fin 32, ∑ w : Fin 128, x (ix4 (j 0) (j 1) h w)

/-- The elementwise square. -/
def sq (x : FVec Ideal S64x256x32x128 .f32) : FVec Ideal S64x256x32x128 .f32 := fun i => x i * x i

/-- The common result: the input less its sample's mean, times the reciprocal root of its sample's variance plus
    the small constant, times the channel's weight, plus the channel's bias. -/
def G (x : FVec Ideal S64x256x32x128 .f32) (wt bs : FVec Ideal S256 .f32) (ids : IVec S64 32) :
    FVec Ideal S64x256x32x128 .f32 :=
  fun i => (x i - meanG (planeSums x) ids (i 0) (i 1))
      * Ideal.rsqrt (varG (planeSums x) (planeSums (sq x)) ids (i 0) (i 1) + Ideal.ofBits .f32 0x3727C5AC#32)
      * wt (ix1 (i 1)) + bs (ix1 (i 1))

/-- The small constant both programs add to the variance (the float word of 1e-5). -/
abbrev eps : EReal := Ideal.ofBits .f32 0x3727C5AC#32

/-- One entry of the kernel's result from its ingredients: the input less the mean, TIMES the reciprocal root of the
    variance plus the small constant, times the weight, plus the bias. -/
def outK (x mu var wt bs : EReal) : EReal := (x - mu) * Ideal.rsqrt (var + eps) * wt + bs

/-- One entry of the reference's result: the same with a QUOTIENT by the root. -/
def outR (x mu var wt bs : EReal) : EReal := Ideal.div (x - mu) (Ideal.sqrt (var + eps)) * wt + bs

end Cert.Chain

end
-- ==== Proof.Value.ChainRead.lean ====
/-
  The shared part of the two programs read index by index on the extended reals: the per-sample mean and variance the
  host operations compute are the plain sums and quotients of Chain.lean, whatever records state the dimension numbers.
-/
import proofs.«172045_j5746666242191_1_alg».proof.Proof.Value.Chain
import Idealize.ShloMosaic.Lib.Pipeline.Value
import Idealize.ShloMosaic.Lib.ValueLayout

set_option maxRecDepth 16384

noncomputable section

open scoped BigOperators

namespace Cert.Chain

open Idealize.ShloMosaic Idealize.ShloMosaic.ValueIdx

/-! ## Literals and words -/

/-- The float word 0x45800000 is 2^12 = 4096. -/
theorem ofBits_4096 : Ideal.ofBits .f32 0x45800000#32 = ((4096 : ℝ) : EReal) := by
  simp [Ideal.ofBits, Ideal.ieee, -EReal.coe_mul]; norm_num

/-- A word chosen by the one-bit result of a signed comparison with zero is the word chosen by the comparison
    itself. -/
theorem wrap_word (x : BitVec 32) :
    Scalar.select (IntOp.cmpi .slt x 0#32) (IntOp.addi x 8#32) x = if x.slt 0#32 then x + 8#32 else x := by
  have hc : IntOp.cmpi .slt x 0#32 = BitVec.ofBool (x.slt 0#32) := rfl
  unfold Scalar.select IntOp.addi
  rw [hc]
  cases x.slt 0#32 <;> rfl

/-- A float literal spread to any shape reads, at every index, the literal's value. -/
theorem lit_apply {T : Shape} (dims : Fin S_.rank → Fin T.rank) (h : S_.BroadcastsInDim T dims) (w : BitVec 32)
    (j : T.Idx) : broadcastInDim T dims h (constant (F := Ideal) S_ .f32 w) j = Ideal.ofBits .f32 w :=
  (broadcastInDim_apply dims h _ j ix0 (fun a => a.elim0)).trans (constant_apply _ _)

/-! ## The stages, each at an explicit index -/

section Stages

variable (b1 : S_.BroadcastsInDim S8x256 (![] : Fin 0 → Fin S8x256.rank))
  (b2 : S64.BroadcastsInDim S64x1 (![0] : Fin 1 → Fin S64x1.rank))
  (b3 : S_.BroadcastsInDim S8 (![] : Fin 0 → Fin S8.rank))
  (b4 : S_.BroadcastsInDim S64 (![] : Fin 0 → Fin S64.rank))
  (b5 : S8.BroadcastsInDim S8x1 (![0] : Fin 1 → Fin S8x1.rank))
  (b6 : S8x1.BroadcastsInDim S8x256 (![0, 1] : Fin 2 → Fin S8x256.rank))

/-- A vector of 64 words laid out as a column reads, at (e, 0), the vector's e-th word. -/
theorem column_apply {α : Type} (y : S64.Idx → α) (e : Fin 64) :
    broadcastInDim S64x1 ![0] b2 y (ix2 e (0 : Fin 1)) = y (ix1 e) :=
  broadcastInDim_apply _ b2 y (ix2 e (0 : Fin 1)) (ix1 e) (fun a => match a with
    | ⟨0, _⟩ => by show e.val = if (64 : Nat) = 1 then 0 else e.val; rw [if_neg (by decide)])

/-- The samples whose column entry, read signed, is d are the samples of segment d. -/
theorem filter_column (ids : IVec S64 32) (d : Fin 8) :
    Finset.univ.filter (fun e : Fin 64 => (broadcastInDim S64x1 ![0] b2 ids (ix2 e (0 : Fin 1))).toInt = (d.val : Int))
      = seg ids d := by
  unfold seg
  refine Finset.filter_congr fun e _ => ?_
  rw [column_apply]

/-- A vector of 8 numbers spread over the channels reads, at (d, c), the vector's d-th number. -/
theorem spread_apply {α : Type} (y : S8.Idx → α) (d : Fin 8) (c : Fin 256) :
    broadcastInDim S8x256 ![0, 1] b6 (broadcastInDim S8x1 ![0] b5 y) (ix2 d c) = y (ix1 d) := by
  have e1 := broadcastInDim_apply _ b6 (broadcastInDim S8x1 ![0] b5 y) (ix2 d c) (ix2 d (0 : Fin 1))
    (fun a => match a with
      | ⟨0, _⟩ => by show d.val = if (8 : Nat) = 1 then 0 else d.val; rw [if_neg (by decide)]
      | ⟨1, _⟩ => by show 0 = if (1 : Nat) = 1 then 0 else c.val; rw [if_pos rfl])
  have e2 := broadcastInDim_apply _ b5 y (ix2 d (0 : Fin 1)) (ix1 d) (fun a => match a with
    | ⟨0, _⟩ => by show d.val = if (8 : Nat) = 1 then 0 else d.val; rw [if_neg (by decide)])
  exact e1.trans e2

variable (sd : ScatterDims S8x256 S64x1 S64x256)
  (hsd1 : sd.updateWindowDims = [1]) (hsd2 : sd.insertedWindowDims = [0]) (hsd3 : sd.scatterDimsToOperandDims = [0])
  (hsd4 : sd.indexVectorDim = 1)
  (sv : ScatterDims S8 S64x1 S64)
  (hsv1 : sv.updateWindowDims = []) (hsv2 : sv.insertedWindowDims = [0]) (hsv3 : sv.scatterDimsToOperandDims = [0])
  (hsv4 : sv.indexVectorDim = 1)

include hsv1 hsv2 hsv3 hsv4 in
/-- The guarded count at (d, c): the ones of segment d's samples added into zero, times 4096, and at least one. -/
theorem cnt_apply (ids : IVec S64 32) (d : Fin 8) (c : Fin 256) :
    cnt (F := Ideal) sv b2 b3 b4 b5 b6 ids (ix2 d c) = cntG ids d := by
  unfold cnt cntG
  rw [spread_apply, maximumf_apply, mulf_apply,
    LibSG.scatterAdd_vec_apply sv hsv1 hsv2 hsv3 hsv4, filter_column]
  simp only [lit_apply, LibSG.ofBits_zero_f32, LibSG.ofBits_one_f32, ofBits_4096]

include hsd1 hsd2 hsd3 hsd4 hsv1 hsv2 hsv3 hsv4 in
/-- The segments' quotient at (d, c): segment d's sum in channel c over its guarded count. -/
theorem segQuot_apply (s : FVec Ideal S64x256 .f32) (ids : IVec S64 32) (d : Fin 8) (c : Fin 256) :
    segQuot (F := Ideal) sd sv b1 b2 b3 b4 b5 b6 s ids (ix2 d c) = quotG s ids d c := by
  unfold segQuot quotG
  rw [hostDivf_apply, cnt_apply b2 b3 b4 b5 b6 sv hsv1 hsv2 hsv3 hsv4,
    LibSG.scatterAdd_row_apply sd hsd1 hsd2 hsd3 hsd4, filter_column]
  simp only [lit_apply, LibSG.ofBits_zero_f32]

/-- The row each sample asks for, at (b, 0): its segment number, a negative one wrapped by 8. -/
theorem rowIdx_apply (ids : IVec S64 32) (b : Fin 64) :
    rowIdx b2 b4 ids (ix2 b (0 : Fin 1)) = if (ids (ix1 b)).slt 0#32 then ids (ix1 b) + 8#32 else ids (ix1 b) := by
  unfold rowIdx
  rw [column_apply, select_apply]
  show Scalar.select (IntOp.cmpi .slt (ids (ix1 b)) (broadcastInDim S64 ![] b4 (constantI S_ 32 0#32) (ix1 b)))
    (IntOp.addi (ids (ix1 b)) (broadcastInDim S64 ![] b4 (constantI S_ 32 8#32) (ix1 b))) (ids (ix1 b)) = _
  rw [broadcastInDim_scalar_apply, broadcastInDim_scalar_apply]
  exact wrap_word (ids (ix1 b))

variable (gd : GatherDims S8x256 S64x1 S64x256)
  (hgd1 : gd.offsetDims = [1]) (hgd2 : gd.collapsedSliceDims = [0]) (hgd3 : gd.operandBatchingDims = [])
  (hgd4 : gd.startIndicesBatchingDims = []) (hgd5 : gd.startIndexMap = [0]) (hgd6 : gd.indexVectorDim = 1)
  (hgd7 : gd.sliceSizes = ![1, 256])

include hgd1 hgd2 hgd3 hgd4 hgd5 hgd6 hgd7 in
/-- A gather of rows of an 8-row table at the wrapped segment numbers reads, at (b, c), the table's entry
    (rowOf ids b, c): the gather's clamp into 0..7 is the clamp in rowOf. -/
theorem gatherRow_apply (T : FVec Ideal S8x256 .f32) (ids : IVec S64 32) (b : Fin 64) (c : Fin 256) :
    Host.gather gd T (rowIdx b2 b4 ids) (ix2 b c) = T (ix2 (rowOf ids b) c) := by
  rw [LibSG.gather_row_apply (by decide) gd hgd1 hgd2 hgd3 hgd4 hgd5 hgd6 hgd7]
  refine congrArg (fun r : Fin 8 => T (ix2 r c)) (Fin.ext ?_)
  show min (rowIdx b2 b4 ids (ix2 b (0 : Fin 1))).toInt.toNat (8 - 1) = (rowOf ids b).val
  rw [rowIdx_apply]
  rfl

end Stages

section Read

variable (gd : GatherDims S8x256 S64x1 S64x256)
  (hgd1 : gd.offsetDims = [1]) (hgd2 : gd.collapsedSliceDims = [0]) (hgd3 : gd.operandBatchingDims = [])
  (hgd4 : gd.startIndicesBatchingDims = []) (hgd5 : gd.startIndexMap = [0]) (hgd6 : gd.indexVectorDim = 1)
  (hgd7 : gd.sliceSizes = ![1, 256])
  (sd : ScatterDims S8x256 S64x1 S64x256)
  (hsd1 : sd.updateWindowDims = [1]) (hsd2 : sd.insertedWindowDims = [0]) (hsd3 : sd.scatterDimsToOperandDims = [0])
  (hsd4 : sd.indexVectorDim = 1)
  (sv : ScatterDims S8 S64x1 S64)
  (hsv1 : sv.updateWindowDims = []) (hsv2 : sv.insertedWindowDims = [0]) (hsv3 : sv.scatterDimsToOperandDims = [0])
  (hsv4 : sv.indexVectorDim = 1)
  (b1 : S_.BroadcastsInDim S8x256 (![] : Fin 0 → Fin S8x256.rank))
  (b2 : S64.BroadcastsInDim S64x1 (![0] : Fin 1 → Fin S64x1.rank))
  (b3 : S_.BroadcastsInDim S8 (![] : Fin 0 → Fin S8.rank))
  (b4 : S_.BroadcastsInDim S64 (![] : Fin 0 → Fin S64.rank))
  (b5 : S8.BroadcastsInDim S8x1 (![0] : Fin 1 → Fin S8x1.rank))
  (b6 : S8x1.BroadcastsInDim S8x256 (![0, 1] : Fin 2 → Fin S8x256.rank))

include hgd1 hgd2 hgd3 hgd4 hgd5 hgd6 hgd7 hsd1 hsd2 hsd3 hsd4 hsv1 hsv2 hsv3 hsv4

/-- The per-sample mean at (b, c). -/
theorem chainM_apply (s : FVec Ideal S64x256 .f32) (ids : IVec S64 32) (b : Fin 64) (c : Fin 256) :
    chainM (F := Ideal) gd sd sv b1 b2 b3 b4 b5 b6 s ids (ix2 b c) = meanG s ids b c := by
  unfold chainM meanG
  rw [gatherRow_apply b2 b4 gd hgd1 hgd2 hgd3 hgd4 hgd5 hgd6 hgd7,
    segQuot_apply b1 b2 b3 b4 b5 b6 sd hsd1 hsd2 hsd3 hsd4 sv hsv1 hsv2 hsv3 hsv4]

/-- The per-sample variance at (b, c). -/
theorem chainV_apply (s q : FVec Ideal S64x256 .f32) (ids : IVec S64 32) (b : Fin 64) (c : Fin 256) :
    chainV (F := Ideal) gd sd sv b1 b2 b3 b4 b5 b6 s q ids (ix2 b c) = varG s q ids b c := by
  unfold chainV varG
  rw [gatherRow_apply b2 b4 gd hgd1 hgd2 hgd3 hgd4 hgd5 hgd6 hgd7,
    subf_apply, mulf_apply,
    segQuot_apply b1 b2 b3 b4 b5 b6 sd hsd1 hsd2 hsd3 hsd4 sv hsv1 hsv2 hsv3 hsv4,
    segQuot_apply b1 b2 b3 b4 b5 b6 sd hsd1 hsd2 hsd3 hsd4 sv hsv1 hsv2 hsv3 hsv4]

end Read

end Cert.Chain

end
-- ==== Proof.Value.Variance.lean ====
/-
  The one inequality the equivalence rests on, and the law that joins the two programs.
  The variance a sample takes is the mean of the squares less the square of the mean over the elements of ONE segment
  (or 0 - 0 over an empty one), so for finite inputs it is a real number that is not negative (Cauchy-Schwarz: the
  square of a sum of N terms is at most N times the sum of their squares).  Its sum with the small positive constant is
  then a positive real, where a quotient by the root IS the product with the reciprocal root.
-/
import proofs.«172045_j5746666242191_1_alg».proof.Proof.Value.Chain
import Mathlib.Algebra.Order.Chebyshev
import Mathlib.Analysis.SpecialFunctions.Pow.Real

set_option maxRecDepth 16384

noncomputable section

open scoped BigOperators

namespace Cert.Chain

open Idealize.ShloMosaic Idealize.ShloMosaic.ValueIdx

/-! ## The inequality on the reals -/

/-- Over a finite non-empty family the mean of the squares is at least the square of the mean: the square of a sum
    of N terms is at most N times the sum of their squares. -/
theorem var_nonneg {ι : Type*} (s : Finset ι) (f : ι → ℝ) (hs : 0 < s.card) :
    0 ≤ (∑ i ∈ s, f i ^ 2) / s.card - ((∑ i ∈ s, f i) / s.card) ^ 2 := by
  have hN : (0 : ℝ) < s.card := by exact_mod_cast hs
  have h := sq_sum_le_card_mul_sum_sq (s := s) (f := f)
  rw [sub_nonneg, div_pow, div_le_div_iff₀ (by positivity) hN]
  nlinarith [mul_le_mul_of_nonneg_right h hN.le]

/-- The same for one segment: its elements are the triples (sample of the segment, row, column), 4096 to a sample, and
    the divisor is the guarded count  max (4096 k) 1  of a segment of k samples.  With no sample both sums are empty
    and the value is 0 - 0 * 0; with k ≥ 1 the guard is idle and 4096 k is the number of terms. -/
theorem segVar_nonneg (B : Finset (Fin 64)) (g : Fin 64 → Fin 32 → Fin 128 → ℝ) :
    0 ≤ (∑ e ∈ B, ∑ h, ∑ w, g e h w * g e h w) / max ((B.card : ℝ) * 4096) 1
        - (∑ e ∈ B, ∑ h, ∑ w, g e h w) / max ((B.card : ℝ) * 4096) 1
          * ((∑ e ∈ B, ∑ h, ∑ w, g e h w) / max ((B.card : ℝ) * 4096) 1) := by
  rcases Nat.eq_zero_or_pos B.card with h0 | hpos
  · have hB : B = ∅ := Finset.card_eq_zero.mp h0
    subst hB
    simp
  · have hk : (1 : ℝ) ≤ (B.card : ℝ) := by exact_mod_cast hpos
    have hmax : max ((B.card : ℝ) * 4096) 1 = (B.card : ℝ) * 4096 := max_eq_left (by linarith)
    have hflat : ∀ F : Fin 64 → Fin 32 → Fin 128 → ℝ,
        ∑ e ∈ B, ∑ h, ∑ w, F e h w
          = ∑ p ∈ B ×ˢ (Finset.univ : Finset (Fin 32 × Fin 128)), F p.1 p.2.1 p.2.2 := by
      intro F
      rw [Finset.sum_product]
      refine Finset.sum_congr rfl fun e _ => ?_
      rw [Fintype.sum_prod_type]
    have hcard : ((B ×ˢ (Finset.univ : Finset (Fin 32 × Fin 128))).card : ℝ) = (B.card : ℝ) * 4096 := by
      rw [Finset.card_product, Finset.card_univ, Fintype.card_prod, Fintype.card_fin, Fintype.card_fin]
      push_cast; norm_num
    have hcs : 0 < (B ×ˢ (Finset.univ : Finset (Fin 32 × Fin 128))).card := by
      rw [Finset.card_product, Finset.card_univ, Fintype.card_prod, Fintype.card_fin, Fintype.card_fin]
      positivity
    have key := var_nonneg (B ×ˢ (Finset.univ : Finset (Fin 32 × Fin 128))) (fun p => g p.1 p.2.1 p.2.2) hcs
    rw [hcard] at key
    rw [hmax, hflat (fun e h w => g e h w * g e h w), hflat g]
    simpa only [pow_two] using key

/-! ## Real entries stay real through the sums and the quotient -/

/-- The inclusion of the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the larger of two. -/
theorem coe_max (a b : ℝ) : ((max a b : ℝ) : EReal) = max (a : EReal) (b : EReal) :=
  EReal.coe_strictMono.monotone.map_max

/-- The sum of a plane of real entries is the real sum. -/
theorem planeSums_coe (x : FVec Ideal S64x256x32x128 .f32) (xr : S64x256x32x128.Idx → ℝ)
    (hxr : ∀ i, x i = (xr i : EReal)) (e : Fin 64) (c : Fin 256) :
    planeSums x (ix2 e c) = ((∑ h : Fin 32, ∑ w : Fin 128, xr (ix4 e c h w) : ℝ) : EReal) := by
  show (∑ h : Fin 32, ∑ w : Fin 128, x (ix4 e c h w)) = _
  rw [coe_sum]
  refine Finset.sum_congr rfl fun h _ => ?_
  rw [coe_sum]
  exact Finset.sum_congr rfl fun w _ => hxr _

/-- The square of a real entry is the real square. -/
theorem sq_coe (x : FVec Ideal S64x256x32x128 .f32) (xr : S64x256x32x128.Idx → ℝ)
    (hxr : ∀ i, x i = (xr i : EReal)) (i : S64x256x32x128.Idx) :
    sq x i = ((xr i * xr i : ℝ) : EReal) := by
  show x i * x i = _
  rw [hxr, EReal.coe_mul]

/-- The guarded count of a segment of k samples is the real number  max (4096 k) 1. -/
theorem cntG_coe (ids : IVec S64 32) (d : Fin 8) :
    cntG ids d = ((max (((seg ids d).card : ℝ) * 4096) 1 : ℝ) : EReal) := by
  have h1 : (∑ _e ∈ seg ids d, (1 : EReal)) = (((seg ids d).card : ℝ) : EReal) := by
    have := coe_sum (seg ids d) (fun _ => (1 : ℝ))
    rw [Finset.sum_const, nsmul_eq_mul, mul_one] at this
    rw [this]; rfl
  rw [cntG, h1, zero_add, ← EReal.coe_mul, coe_max, EReal.coe_one]

/-- The segment quotient of real per-sample values is the real quotient by the guarded count (which is not zero). -/
theorem quotG_coe (s : FVec Ideal S64x256 .f32) (sr : Fin 64 → ℝ) (c : Fin 256)
    (hs : ∀ e, s (ix2 e c) = (sr e : EReal)) (ids : IVec S64 32) (d : Fin 8) :
    quotG s ids d c
      = (((∑ e ∈ seg ids d, sr e) / max (((seg ids d).card : ℝ) * 4096) 1 : ℝ) : EReal) := by
  have hc : max (((seg ids d).card : ℝ) * 4096) 1 ≠ 0 :=
    (lt_of_lt_of_le one_pos (le_max_right _ _)).ne'
  rw [quotG, cntG_coe, Ideal.div_coe hc, zero_add, Finset.sum_congr rfl (fun e _ => hs e), ← coe_sum,
    ← EReal.coe_mul, ← div_eq_mul_one_div]

/-- For an input all of whose entries are real numbers, the variance sample `b` takes in channel `c` is a real number
    that is not negative. -/
theorem varG_nonneg (x : FVec Ideal S64x256x32x128 .f32) (hx : ∀ i, ∃ r : ℝ, x i = (r : EReal))
    (ids : IVec S64 32) (b : Fin 64) (c : Fin 256) :
    ∃ r : ℝ, 0 ≤ r ∧ varG (planeSums x) (planeSums (sq x)) ids b c = (r : EReal) := by
  choose xr hxr using hx
  refine ⟨_, segVar_nonneg (seg ids (rowOf ids b)) (fun e h w => xr (ix4 e c h w)), ?_⟩
  have hS := quotG_coe (planeSums x) (fun e => ∑ h : Fin 32, ∑ w : Fin 128, xr (ix4 e c h w)) c
    (fun e => planeSums_coe x xr hxr e c) ids (rowOf ids b)
  have hQ := quotG_coe (planeSums (sq x))
    (fun e => ∑ h : Fin 32, ∑ w : Fin 128, xr (ix4 e c h w) * xr (ix4 e c h w)) c
    (fun e => planeSums_coe (sq x) (fun i => xr i * xr i) (sq_coe x xr hxr) e c) ids (rowOf ids b)
  rw [varG, hS, hQ, ← EReal.coe_mul, ← EReal.coe_sub]
/-! ## The quotient by the root is the product with the reciprocal root -/

/-- The small constant is a positive real: the dyadic number its float word denotes. -/
theorem eps_coe : eps = (((10995116 : ℝ) * (2 : ℝ) ^ (-40 : ℤ) : ℝ) : EReal) := by
  simp [eps, Ideal.ofBits, Ideal.ieee, -EReal.coe_mul]

/-- That dyadic number is positive. -/
theorem eps_pos : (0 : ℝ) < (10995116 : ℝ) * (2 : ℝ) ^ (-40 : ℤ) := by positivity

/-- Where the variance is a real number that is not negative, the reference's entry is the kernel's. -/
theorem outR_eq_outK (x mu wt bs : EReal) (r : ℝ) (hr : 0 ≤ r) :
    outR x mu (r : EReal) wt bs = outK x mu (r : EReal) wt bs := by
  have ht : 0 < r + (10995116 : ℝ) * (2 : ℝ) ^ (-40 : ℤ) := add_pos_of_nonneg_of_pos hr eps_pos
  have hroot : Real.sqrt (r + (10995116 : ℝ) * (2 : ℝ) ^ (-40 : ℤ)) ≠ 0 := (Real.sqrt_pos.mpr ht).ne'
  rw [outR, outK, eps_coe, ← EReal.coe_add, Ideal.sqrt_coe, Ideal.rsqrt_coe, if_neg (not_lt.mpr ht.le),
    if_neg (not_lt.mpr ht.le), if_neg ht.ne', Ideal.div_coe hroot, one_div]

end Cert.Chain

end
-- ==== Proof.Value.StatsVal.lean ====
/-
  What the first kernel's two result arrays hold after its region, on the extended reals: entry (b, ch) of the first is
  the sum of the input's image plane (b, ch) over its 32 x 128 positions, of the second the sum of the plane's squares.
  A block of the grid covers 8 samples x 128 channels x 8 rows; the four points of a block column add their row sums
  one after the other and the last writes the total back.
-/
import proofs.«172045_j5746666242191_1_alg».proof.Proof.KI.Defs
import proofs.«172045_j5746666242191_1_alg».proof.Proof.Value.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.StatsVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

-- the core's buffer contents when the region is entered
variable (V : (c : Dev nD) → (b : Ref sig .tc) → Buf (Elt Ideal) ((c : Thread nD τ).loc b))

/-! ## What one grid point adds: the payloads, entry by entry -/

/-- A block summed over its last axis, entry by entry. -/
theorem laneSum_at (x0 : Vec Ideal S8x128x8x128 .f32) (hφ : FKind.Formats .f32)
    (hacc : (0x00000000#32 : BitVec 32) = FKind.add.neutral .f32 hφ) (p : Fin 8) (q : Fin 128) (r : Fin 8) :
    multiReduction (F := Ideal) .add [3] S8x128x8 x0 0x00000000#32 reduces_S8x128x8x128_S8x128x8 hφ hacc (ix3 p q r)
      = ∑ w : Fin 128, x0 (ix4 p q r w) := by
  refine (Ideal.multiReduction_add_single x0 0x00000000#32 reduces_S8x128x8x128_S8x128x8 hφ hacc (ix3 p q r)).trans ?_
  refine Finset.sum_congr rfl fun w _ => congrArg x0 ?_
  funext a
  apply Fin.ext
  match a with
  | ⟨0, _⟩ => rfl
  | ⟨1, _⟩ => rfl
  | ⟨2, _⟩ => rfl
  | ⟨3, _⟩ => rfl

/-- The row sums summed over the rows, entry by entry. -/
theorem rowSum_at (y : FVec Ideal S8x128x8 .f32) (hφ : FKind.Formats .f32)
    (hacc : (0x00000000#32 : BitVec 32) = FKind.add.neutral .f32 hφ) (p : Fin 8) (q : Fin 128) :
    multiReduction (F := Ideal) .add [2] S8x128 y 0x00000000#32 reduces_S8x128x8_S8x128 hφ hacc (ix2 p q)
      = ∑ r : Fin 8, y (ix3 p q r) := by
  refine (Ideal.multiReduction_add_single y 0x00000000#32 reduces_S8x128x8_S8x128 hφ hacc (ix2 p q)).trans ?_
  refine Finset.sum_congr rfl fun r _ => congrArg y ?_
  funext a
  apply Fin.ext
  match a with
  | ⟨0, _⟩ => rfl
  | ⟨1, _⟩ => rfl
  | ⟨2, _⟩ => rfl

/-- The sum of a block's 8 x 128 positions under entry (p, q). -/
def slabSum (x0 : FVec Ideal S8x128x8x128 .f32) (p : Fin 8) (q : Fin 128) : EReal :=
  ∑ r : Fin 8, ∑ w : Fin 128, x0 (ix4 p q r w)

/-- The first running sum's step: what was there plus the block's slab sum. -/
theorem pay3_at (x0 : Vec Ideal S8x128x8x128 .f32) (a : Vec Ideal S8x128 .f32) (p : Fin 8) (q : Fin 128) :
    k0_pay3 x0 a (ix2 p q) = a (ix2 p q) + slabSum x0 p q := by
  unfold k0_pay3
  rw [shapeCast_self]
  refine (addf_apply _ _ _).trans ?_
  refine congrArg (a (ix2 p q) + ·) ?_
  refine (rowSum_at _ _ _ p q).trans ?_
  exact Finset.sum_congr rfl fun r _ => laneSum_at x0 _ _ p q r

/-- The second running sum's step: what was there plus the slab sum of the block's squares. -/
theorem pay4_at (x0 : Vec Ideal S8x128x8x128 .f32) (a : Vec Ideal S8x128 .f32) (p : Fin 8) (q : Fin 128) :
    k0_pay4 x0 a (ix2 p q) = a (ix2 p q) + slabSum (mulf x0 x0 : FVec Ideal S8x128x8x128 .f32) p q := by
  unfold k0_pay4
  rw [shapeCast_self]
  refine (addf_apply _ _ _).trans ?_
  refine congrArg (a (ix2 p q) + ·) ?_
  refine (rowSum_at _ _ _ p q).trans ?_
  exact Finset.sum_congr rfl fun r _ => laneSum_at (mulf x0 x0 : FVec Ideal S8x128x8x128 .f32) _ _ p q r

/-- Both running sums start from zero. -/
theorem pay1_at (p : Fin 8) (q : Fin 128) : (k0_pay1 (F := Ideal)) (ix2 p q) = 0 := by
  unfold k0_pay1
  rw [shapeCast_self]
  exact Ideal.ofBits_zero_f32

theorem pay2_at (p : Fin 8) (q : Fin 128) : (k0_pay2 (F := Ideal)) (ix2 p q) = 0 := by
  unfold k0_pay2
  rw [shapeCast_self]
  exact Ideal.ofBits_zero_f32

/-! ## The blocks of the input -/

/-- The input array as the region finds it. -/
abbrev xin (c : Dev nD) : FVec Ideal S64x256x32x128 .f32 := V c main_arg0

/-- The input's block at grid point `t`. -/
abbrev xblk (c : Dev nD) (t : Fin cfg0.N) : Vec Ideal S8x128x8x128 .f32 := iblk0 V c 0 t

/-- Where the grid's points put the input's blocks: point t reads sample block t / 8, channel block (t / 4) % 2,
    row slab t % 4. -/
theorem inIdx : ∀ t : Fin cfg0.N, win0_0.index t (0 : Fin 4) = t.val / 8 ∧ win0_0.index t (1 : Fin 4) = (t.val / 4) % 2
    ∧ win0_0.index t (2 : Fin 4) = t.val % 4 ∧ win0_0.index t (3 : Fin 4) = 0 :=
  (by decide +kernel : ∀ t : Fin grid0.N, win0_0.index t (0 : Fin 4) = t.val / 8 ∧ win0_0.index t (1 : Fin 4) = (t.val / 4) % 2
    ∧ win0_0.index t (2 : Fin 4) = t.val % 4 ∧ win0_0.index t (3 : Fin 4) = 0)

/-- An entry of the block at point `t` is the input's entry at block index times block size plus the coordinate inside. -/
theorem xblk_at (c : Dev nD) (t : Fin cfg0.N) (p : Fin 8) (q : Fin 128) (r : Fin 8) (w : Fin 128)
    (P : Fin 64) (Q : Fin 256) (H : Fin 32)
    (hP : P.val = 8 * (t.val / 8) + p.val) (hQ : Q.val = 128 * ((t.val / 4) % 2) + q.val)
    (hH : H.val = 8 * (t.val % 4) + r.val) :
    xblk V c t (ix4 p q r w) = xin V c (ix4 P Q H w) := by
  obtain ⟨e0, e1, e2, e3⟩ := inIdx t
  unfold xblk iblk0
  rw [View.read_apply]
  show V c main_arg0 _ = V c main_arg0 _
  congr 1
  funext a
  apply Fin.ext
  match a with
  | ⟨0, _⟩ => show win0_0.index t (0 : Fin 4) * 8 + 1 * p.val = P.val; rw [e0, hP]; omega
  | ⟨1, _⟩ => show win0_0.index t (1 : Fin 4) * 128 + 1 * q.val = Q.val; rw [e1, hQ]; omega
  | ⟨2, _⟩ => show win0_0.index t (2 : Fin 4) * 8 + 1 * r.val = H.val; rw [e2, hH]; omega
  | ⟨3, _⟩ => show win0_0.index t (3 : Fin 4) * 128 + 1 * w.val = w.val; rw [e3]; omega

/-! ## Thirty-two rows are four slabs of eight -/

/-- A sum over the 32 rows, slab by slab. -/
theorem sum_rows_split {M : Type*} [AddCommMonoid M] (f : Fin 32 → M) :
    ∑ h : Fin 32, f h = ∑ k : Fin 4, ∑ r : Fin 8, f ⟨8 * k.val + r.val, by omega⟩ := by
  rw [← Fintype.sum_prod_type' (f := fun (k : Fin 4) (r : Fin 8) => f ⟨8 * k.val + r.val, by omega⟩)]
  refine (Fintype.sum_equiv (finProdFinEquiv (m := 4) (n := 8)) _ f fun x => congrArg f (Fin.ext ?_)).symm
  show 8 * x.1.val + x.2.val = x.2.val + 8 * x.1.val
  omega

/-! ## The running sums at a point that writes back -/

/-- What point `n` adds to the first running sum at an entry: its block's slab sum (nothing past the grid). -/
def addend (c : Dev nD) (n : ℕ) (j : S8x128.Idx) : EReal :=
  if h : n < cfg0.N then slabSum (xblk V c ⟨n, h⟩) (j 0) (j 1) else 0

/-- At the last of a block column's four points the first running sum is the four points' slab sums added up. -/
theorem accS_fold (c : Dev nD) (t : ℕ) (ht : t < cfg0.N) (h3 : t % 4 = 3) (p : Fin 8) (q : Fin 128) :
    accS V c t ht (ix2 p q) = ∑ s ∈ Finset.range 4, addend V c (4 * (t / 4) + s) (ix2 p q) := by
  have h' : 4 * (t / 4) + t % 4 < cfg0.N := by rw [Nat.div_add_mod]; exact ht
  have e := Pipeline.eq_accAt_of_mod (N := cfg0.N) (accS V c) 4
    (fun n h => k0_pay3 (xblk V c ⟨n, h⟩) (k0_pay1 (F := Ideal)))
    (fun n h acc => k0_pay3 (xblk V c ⟨n, h⟩) acc)
    (fun n h hn => by
      cases n with
      | zero => exact accS_zero V c h
      | succ n => rw [accS_succ, if_pos hn])
    (fun n h hn => by rw [accS_succ, if_neg hn])
    (by decide) t ht h'
  rw [e]
  have e2 := Pipeline.accAt_add_apply (N := cfg0.N) (ι := S8x128.Idx) (β := EReal)
    (fun n h => k0_pay3 (xblk V c ⟨n, h⟩) (k0_pay1 (F := Ideal)))
    (fun n h acc => k0_pay3 (xblk V c ⟨n, h⟩) acc)
    (fun _ => 0) (addend V c) (4 * (t / 4)) 3
    (fun h i => by
      obtain ⟨p, q, rfl⟩ : ∃ (p : Fin 8) (q : Fin 128), i = ix2 p q := ⟨i 0, i 1, eq_ix2 i⟩
      refine (pay3_at _ _ p q).trans ?_
      rw [pay1_at]
      unfold addend
      rw [dif_pos h])
    (fun n h acc i _ _ => by
      obtain ⟨p, q, rfl⟩ : ∃ (p : Fin 8) (q : Fin 128), i = ix2 p q := ⟨i 0, i 1, eq_ix2 i⟩
      refine (pay3_at _ _ p q).trans ?_
      unfold addend
      rw [dif_pos h])
    (t % 4) (by omega) h' (ix2 p q)
  rw [e2, h3, zero_add]

/-- So at such a point entry (p, q) of the first running sum is the whole plane's sum: the four slabs are the
    plane's 32 rows. -/
theorem accS_flush (c : Dev nD) (t : Fin cfg0.N) (h3 : t.val % 4 = 3) (p : Fin 8) (q : Fin 128)
    (P : Fin 64) (Q : Fin 256) (hP : P.val = 8 * (t.val / 8) + p.val) (hQ : Q.val = 128 * ((t.val / 4) % 2) + q.val) :
    accS V c t.val t.isLt (ix2 p q) = Cert.Chain.planeSums (V c main_arg0) (ix2 P Q) := by
  have hN : cfg0.N = 64 := N_0
  have ht := t.isLt
  show _ = ∑ h : Fin 32, ∑ w : Fin 128, xin V c (ix4 P Q h w)
  rw [accS_fold V c t.val t.isLt h3 p q, Finset.sum_range, sum_rows_split]
  refine Finset.sum_congr rfl fun s _ => ?_
  have hs := s.isLt
  have hs' : 4 * (t.val / 4) + s.val < cfg0.N := by omega
  unfold addend
  rw [dif_pos hs']
  show slabSum (xblk V c ⟨4 * (t.val / 4) + s.val, hs'⟩) p q = _
  unfold slabSum
  refine Finset.sum_congr rfl fun r _ => Finset.sum_congr rfl fun w _ => ?_
  have hr := r.isLt
  exact xblk_at V c ⟨4 * (t.val / 4) + s.val, hs'⟩ p q r w P Q ⟨8 * s.val + r.val, by omega⟩
    (by show P.val = 8 * ((4 * (t.val / 4) + s.val) / 8) + p.val; omega)
    (by show Q.val = 128 * (((4 * (t.val / 4) + s.val) / 4) % 2) + q.val; omega)
    (by show 8 * s.val + r.val = 8 * ((4 * (t.val / 4) + s.val) % 4) + r.val; omega)

/-! ## From the blocks written back to the first result array -/

/-- Where the grid's points put the first result's blocks: point t writes sample block t / 8, channel block (t / 4) % 2. -/
theorem outIdx1 : ∀ t : Fin cfg0.N, win0_1.index t (0 : Fin 2) = t.val / 8 ∧ win0_1.index t (1 : Fin 2) = (t.val / 4) % 2 :=
  (by decide +kernel : ∀ t : Fin grid0.N, win0_1.index t (0 : Fin 2) = t.val / 8 ∧ win0_1.index t (1 : Fin 2) = (t.val / 4) % 2)

/-- What a point writes back into the first result array is its block of the plane sums. -/
theorem flushed_sums (c : Dev nD) (dat : Dat τ (Elt Ideal) Unit ℕ (UR sig nD τ) ℕ cfg0 c)
    (h1 : ∀ t : Fin cfg0.N, dat.after 1 t = accS V c t.val t.isLt)
    (t : Fin cfg0.N) (hf : (cfg0.win 1).flush t = true) :
    dat.flushed 1 t = ((cfg0.win 1).blk t).view.read (Elt Ideal) (Cert.Chain.planeSums (V c main_arg0)) := by
  have h3 : t.val % 4 = 3 := (flush0_1 t).mp hf
  obtain ⟨e0, e1⟩ := outIdx1 t
  have hN : cfg0.N = 64 := N_0
  have ht := t.isLt
  show (cfg0.win 1).cut (grid0.coords t) (dat.after 1 t) = _
  rw [h1]
  refine funext fun (j : S8x128.Idx) => ?_
  obtain ⟨p, q, rfl⟩ : ∃ (p : Fin 8) (q : Fin 128), j = ix2 p q := ⟨j 0, j 1, eq_ix2 j⟩
  have hp := p.isLt
  have hq := q.isLt
  rw [View.read_apply]
  show accS V c t.val t.isLt (ix2 p q)
    = Cert.Chain.planeSums (V c main_arg0) (((cfg0.win 1).blk t).view.emb (ix2 p q))
  have hemb : ((cfg0.win 1).blk t).view.emb (ix2 p q)
      = ix2 (⟨8 * (t.val / 8) + p.val, by omega⟩ : Fin 64) (⟨128 * ((t.val / 4) % 2) + q.val, by omega⟩ : Fin 256) := by
    funext a
    apply Fin.ext
    match a with
    | ⟨0, _⟩ => show win0_1.index t (0 : Fin 2) * 8 + 1 * p.val = 8 * (t.val / 8) + p.val; rw [e0]; omega
    | ⟨1, _⟩ => show win0_1.index t (1 : Fin 2) * 128 + 1 * q.val = 128 * ((t.val / 4) % 2) + q.val; rw [e1]; omega
  rw [hemb]
  exact accS_flush V c t h3 p q _ _ rfl rfl

/-- An entry of the result array lies in point t's block iff each coordinate lies in the block's range. -/
theorem mem_blk1 (t : Fin cfg0.N) (i : S64x256.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v2_0).slice (win0_1.rect t)).set ↔ _
  rw [View.set_slice_whole, Rect.mem_set_unit]
  exact Iff.rfl

/-- Every entry (b, ch) is written back by the last point of its block column, 8 (b / 8) + 4 (ch / 128) + 3. -/
theorem cover1 (i : S64x256.Idx) :
    ∃ t : Fin cfg0.N, (cfg0.win 1).flush t = true ∧ i ∈ ((cfg0.win 1).blk t).view.set := by
  have hN : cfg0.N = 64 := N_0
  have hi0 : (i 0).val < 64 := (i 0).isLt
  have hi1 : (i 1).val < 256 := (i 1).isLt
  refine ⟨⟨8 * ((i 0).val / 8) + 4 * ((i 1).val / 128) + 3, by omega⟩, (flush0_1 _).mpr (by show (8 * ((i 0).val / 8) + 4 * ((i 1).val / 128) + 3) % 4 = 3; omega), ?_⟩
  rw [mem_blk1]
  obtain ⟨e0, e1⟩ := outIdx1 ⟨8 * ((i 0).val / 8) + 4 * ((i 1).val / 128) + 3, by omega⟩
  intro a
  match a with
  | ⟨0, _⟩ =>
    show win0_1.index _ (0 : Fin 2) * 8 ≤ (i 0).val ∧ (i 0).val < win0_1.index _ (0 : Fin 2) * 8 + 8
    rw [e0]
    show (8 * ((i 0).val / 8) + 4 * ((i 1).val / 128) + 3) / 8 * 8 ≤ (i 0).val
      ∧ (i 0).val < (8 * ((i 0).val / 8) + 4 * ((i 1).val / 128) + 3) / 8 * 8 + 8
    omega
  | ⟨1, _⟩ =>
    show win0_1.index _ (1 : Fin 2) * 128 ≤ (i 1).val ∧ (i 1).val < win0_1.index _ (1 : Fin 2) * 128 + 128
    rw [e1]
    show (8 * ((i 0).val / 8) + 4 * ((i 1).val / 128) + 3) / 4 % 2 * 128 ≤ (i 1).val
      ∧ (i 1).val < (8 * ((i 0).val / 8) + 4 * ((i 1).val / 128) + 3) / 4 % 2 * 128 + 128
    omega

/-- The first result array after the region: the plane sums of the input. For ANY proof data of the first pipeline
    whose arrays are the region-entry contents and whose second window's block after point `t` is the running sum. -/
theorem sums_final (c : Dev nD) (dat : Dat τ (Elt Ideal) Unit ℕ (UR sig nD τ) ℕ cfg0 c)
    (hA : ∀ w, dat.A w = V c (Pipeline.arrRef spec0 w))
    (h1 : ∀ t : Fin cfg0.N, dat.after 1 t = accS V c t.val t.isLt)
    (b : Fin 64) (ch : Fin 256) :
    dat.arrAt 1 cfg0.N (ix2 b ch) = Cert.Chain.planeSums (V c main_arg0) (ix2 b ch) :=
  congrFun (dat.arrAt_eq_of_cover 1 (Cert.Chain.planeSums (V c main_arg0))
    (fun t hf => flushed_sums V c dat h1 t hf) cover1) (ix2 b ch)

/-! ## The second result array: the same with every entry squared -/

/-- What point `n` adds to the second running sum at an entry: the slab sum of its block's squares. -/
def addendQ (c : Dev nD) (n : ℕ) (j : S8x128.Idx) : EReal :=
  if h : n < cfg0.N then
    slabSum (mulf (xblk V c ⟨n, h⟩) (xblk V c ⟨n, h⟩) : FVec Ideal S8x128x8x128 .f32) (j 0) (j 1)
  else 0

/-- At the last of a block column's four points the second running sum is the four points' addends added up. -/
theorem accQ_fold (c : Dev nD) (t : ℕ) (ht : t < cfg0.N) (h3 : t % 4 = 3) (p : Fin 8) (q : Fin 128) :
    accQ V c t ht (ix2 p q) = ∑ s ∈ Finset.range 4, addendQ V c (4 * (t / 4) + s) (ix2 p q) := by
  have h' : 4 * (t / 4) + t % 4 < cfg0.N := by rw [Nat.div_add_mod]; exact ht
  have e := Pipeline.eq_accAt_of_mod (N := cfg0.N) (accQ V c) 4
    (fun n h => k0_pay4 (xblk V c ⟨n, h⟩) (k0_pay2 (F := Ideal)))
    (fun n h acc => k0_pay4 (xblk V c ⟨n, h⟩) acc)
    (fun n h hn => by
      cases n with
      | zero => exact accQ_zero V c h
      | succ n => rw [accQ_succ, if_pos hn])
    (fun n h hn => by rw [accQ_succ, if_neg hn])
    (by decide) t ht h'
  rw [e]
  have e2 := Pipeline.accAt_add_apply (N := cfg0.N) (ι := S8x128.Idx) (β := EReal)
    (fun n h => k0_pay4 (xblk V c ⟨n, h⟩) (k0_pay2 (F := Ideal)))
    (fun n h acc => k0_pay4 (xblk V c ⟨n, h⟩) acc)
    (fun _ => 0) (addendQ V c) (4 * (t / 4)) 3
    (fun h i => by
      obtain ⟨p, q, rfl⟩ : ∃ (p : Fin 8) (q : Fin 128), i = ix2 p q := ⟨i 0, i 1, eq_ix2 i⟩
      refine (pay4_at _ _ p q).trans ?_
      rw [pay2_at]
      unfold addendQ
      rw [dif_pos h])
    (fun n h acc i _ _ => by
      obtain ⟨p, q, rfl⟩ : ∃ (p : Fin 8) (q : Fin 128), i = ix2 p q := ⟨i 0, i 1, eq_ix2 i⟩
      refine (pay4_at _ _ p q).trans ?_
      unfold addendQ
      rw [dif_pos h])
    (t % 4) (by omega) h' (ix2 p q)
  rw [e2, h3, zero_add]

/-- So at such a point entry (p, q) of the second running sum is the sum of the whole plane's squares. -/
theorem accQ_flush (c : Dev nD) (t : Fin cfg0.N) (h3 : t.val % 4 = 3) (p : Fin 8) (q : Fin 128)
    (P : Fin 64) (Q : Fin 256) (hP : P.val = 8 * (t.val / 8) + p.val) (hQ : Q.val = 128 * ((t.val / 4) % 2) + q.val) :
    accQ V c t.val t.isLt (ix2 p q) = Cert.Chain.planeSums (Cert.Chain.sq (V c main_arg0)) (ix2 P Q) := by
  have hN : cfg0.N = 64 := N_0
  have ht := t.isLt
  show _ = ∑ h : Fin 32, ∑ w : Fin 128, Cert.Chain.sq (xin V c) (ix4 P Q h w)
  rw [accQ_fold V c t.val t.isLt h3 p q, Finset.sum_range, sum_rows_split]
  refine Finset.sum_congr rfl fun s _ => ?_
  have hs := s.isLt
  have hs' : 4 * (t.val / 4) + s.val < cfg0.N := by omega
  unfold addendQ
  rw [dif_pos hs']
  show slabSum (mulf (xblk V c ⟨4 * (t.val / 4) + s.val, hs'⟩) (xblk V c ⟨4 * (t.val / 4) + s.val, hs'⟩)
    : FVec Ideal S8x128x8x128 .f32) p q = _
  unfold slabSum
  refine Finset.sum_congr rfl fun r _ => Finset.sum_congr rfl fun w _ => ?_
  have hr := r.isLt
  have e := xblk_at V c ⟨4 * (t.val / 4) + s.val, hs'⟩ p q r w P Q ⟨8 * s.val + r.val, by omega⟩
    (by show P.val = 8 * ((4 * (t.val / 4) + s.val) / 8) + p.val; omega)
    (by show Q.val = 128 * (((4 * (t.val / 4) + s.val) / 4) % 2) + q.val; omega)
    (by show 8 * s.val + r.val = 8 * ((4 * (t.val / 4) + s.val) % 4) + r.val; omega)
  exact congrArg₂ (fun a b : EReal => a * b) e e

/-- Where the grid's points put the second result's blocks: as the first's. -/
theorem outIdx2 : ∀ t : Fin cfg0.N, win0_2.index t (0 : Fin 2) = t.val / 8 ∧ win0_2.index t (1 : Fin 2) = (t.val / 4) % 2 :=
  (by decide +kernel : ∀ t : Fin grid0.N, win0_2.index t (0 : Fin 2) = t.val / 8 ∧ win0_2.index t (1 : Fin 2) = (t.val / 4) % 2)

/-- What a point writes back into the second result array is its block of the plane sums of squares. -/
theorem flushed_sqsums (c : Dev nD) (dat : Dat τ (Elt Ideal) Unit ℕ (UR sig nD τ) ℕ cfg0 c)
    (h2 : ∀ t : Fin cfg0.N, dat.after 2 t = accQ V c t.val t.isLt)
    (t : Fin cfg0.N) (hf : (cfg0.win 2).flush t = true) :
    dat.flushed 2 t
      = ((cfg0.win 2).blk t).view.read (Elt Ideal) (Cert.Chain.planeSums (Cert.Chain.sq (V c main_arg0))) := by
  have h3 : t.val % 4 = 3 := (flush0_2 t).mp hf
  obtain ⟨e0, e1⟩ := outIdx2 t
  have hN : cfg0.N = 64 := N_0
  have ht := t.isLt
  show (cfg0.win 2).cut (grid0.coords t) (dat.after 2 t) = _
  rw [h2]
  refine funext fun (j : S8x128.Idx) => ?_
  obtain ⟨p, q, rfl⟩ : ∃ (p : Fin 8) (q : Fin 128), j = ix2 p q := ⟨j 0, j 1, eq_ix2 j⟩
  have hp := p.isLt
  have hq := q.isLt
  rw [View.read_apply]
  show accQ V c t.val t.isLt (ix2 p q)
    = Cert.Chain.planeSums (Cert.Chain.sq (V c main_arg0)) (((cfg0.win 2).blk t).view.emb (ix2 p q))
  have hemb : ((cfg0.win 2).blk t).view.emb (ix2 p q)
      = ix2 (⟨8 * (t.val / 8) + p.val, by omega⟩ : Fin 64) (⟨128 * ((t.val / 4) % 2) + q.val, by omega⟩ : Fin 256) := by
    funext a
    apply Fin.ext
    match a with
    | ⟨0, _⟩ => show win0_2.index t (0 : Fin 2) * 8 + 1 * p.val = 8 * (t.val / 8) + p.val; rw [e0]; omega
    | ⟨1, _⟩ => show win0_2.index t (1 : Fin 2) * 128 + 1 * q.val = 128 * ((t.val / 4) % 2) + q.val; rw [e1]; omega
  rw [hemb]
  exact accQ_flush V c t h3 p q _ _ rfl rfl

/-- An entry of the second result array lies in point t's block iff each coordinate lies in the block's range. -/
theorem mem_blk2 (t : Fin cfg0.N) (i : S64x256.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v2_1).slice (win0_2.rect t)).set ↔ _
  rw [View.set_slice_whole, Rect.mem_set_unit]
  exact Iff.rfl

/-- Every entry of the second result array is written back by the last point of its block column. -/
theorem cover2 (i : S64x256.Idx) :
    ∃ t : Fin cfg0.N, (cfg0.win 2).flush t = true ∧ i ∈ ((cfg0.win 2).blk t).view.set := by
  have hN : cfg0.N = 64 := N_0
  have hi0 : (i 0).val < 64 := (i 0).isLt
  have hi1 : (i 1).val < 256 := (i 1).isLt
  refine ⟨⟨8 * ((i 0).val / 8) + 4 * ((i 1).val / 128) + 3, by omega⟩, (flush0_2 _).mpr (by show (8 * ((i 0).val / 8) + 4 * ((i 1).val / 128) + 3) % 4 = 3; omega), ?_⟩
  rw [mem_blk2]
  obtain ⟨e0, e1⟩ := outIdx2 ⟨8 * ((i 0).val / 8) + 4 * ((i 1).val / 128) + 3, by omega⟩
  intro a
  match a with
  | ⟨0, _⟩ =>
    show win0_2.index _ (0 : Fin 2) * 8 ≤ (i 0).val ∧ (i 0).val < win0_2.index _ (0 : Fin 2) * 8 + 8
    rw [e0]
    show (8 * ((i 0).val / 8) + 4 * ((i 1).val / 128) + 3) / 8 * 8 ≤ (i 0).val
      ∧ (i 0).val < (8 * ((i 0).val / 8) + 4 * ((i 1).val / 128) + 3) / 8 * 8 + 8
    omega
  | ⟨1, _⟩ =>
    show win0_2.index _ (1 : Fin 2) * 128 ≤ (i 1).val ∧ (i 1).val < win0_2.index _ (1 : Fin 2) * 128 + 128
    rw [e1]
    show (8 * ((i 0).val / 8) + 4 * ((i 1).val / 128) + 3) / 4 % 2 * 128 ≤ (i 1).val
      ∧ (i 1).val < (8 * ((i 0).val / 8) + 4 * ((i 1).val / 128) + 3) / 4 % 2 * 128 + 128
    omega

/-- The second result array after the region: the plane sums of the input's squares. -/
theorem sqsums_final (c : Dev nD) (dat : Dat τ (Elt Ideal) Unit ℕ (UR sig nD τ) ℕ cfg0 c)
    (hA : ∀ w, dat.A w = V c (Pipeline.arrRef spec0 w))
    (h2 : ∀ t : Fin cfg0.N, dat.after 2 t = accQ V c t.val t.isLt)
    (b : Fin 64) (ch : Fin 256) :
    dat.arrAt 2 cfg0.N (ix2 b ch) = Cert.Chain.planeSums (Cert.Chain.sq (V c main_arg0)) (ix2 b ch) :=
  congrFun (dat.arrAt_eq_of_cover 2 (Cert.Chain.planeSums (Cert.Chain.sq (V c main_arg0)))
    (fun t hf => flushed_sqsums V c dat h2 t hf) cover2) (ix2 b ch)

end Cert.KernelIdeal.StatsVal

end
-- ==== Proof.Value.NormVal.lean ====
/-
  What the second kernel's result array holds after its region, on the extended reals: entry (b, ch, h, w) is the
  input's entry less the mean of (b, ch), times the reciprocal root of the variance of (b, ch) plus the small constant,
  times channel ch's weight, plus its bias — the five arrays read as the region finds them.
-/
import proofs.«172045_j5746666242191_1_alg».proof.Proof.KI.Defs
import proofs.«172045_j5746666242191_1_alg».proof.Proof.Value.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NormVal

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

-- the core's buffer contents when the region is entered
variable (V : (c : Dev nD) → (b : Ref sig .tc) → Buf (Elt Ideal) ((c : Thread nD τ).loc b))

/-! ## Layout: a per-(sample, channel) or per-channel value spread over a block -/

section Spread
variable {α : Type}

/-- A value per (row, channel), given two trailing unit axes and then spread over the block's 8 x 128 image positions,
    is at (p, q, r, w) the value of (p, q). -/
theorem spread_pair (v : S8x128.Idx → α) (h1 : S8x128.ShapeCasts S8x128x1x1) (h2 : S8x128x1x1.Broadcasts S8x128x8x128)
    (p : Fin 8) (q : Fin 128) (r : Fin 8) (w : Fin 128) :
    broadcastTo S8x128x8x128 (shapeCast S8x128x1x1 v h1) h2 (ix4 p q r w) = v (ix2 p q) := by
  refine (broadcastTo_apply (shapeCast S8x128x1x1 v h1) h2 (ix4 p q r w) (ix4 p q (0 : Fin 1) (0 : Fin 1)) fun a => ?_).trans ?_
  · match a with
    | ⟨0, _⟩ => rfl
    | ⟨1, _⟩ => rfl
    | ⟨2, _⟩ => rfl
    | ⟨3, _⟩ => rfl
  · refine shapeCast_apply v h1 (ix4 p q (0 : Fin 1) (0 : Fin 1)) (ix2 p q) ?_
    rw [Shape.rowMajor_val_four, Shape.rowMajor_val_two]
    show p.val * 128 + q.val = ((p.val * 128 + q.val) * 1 + 0) * 1 + 0
    omega

/-- A value per channel, given a leading and two trailing unit axes and then spread over the block, is at (p, q, r, w)
    the value of channel q. -/
theorem spread_chan (v : S128.Idx → α) (h1 : S128.ShapeCasts S1x128x1x1) (h2 : S1x128x1x1.Broadcasts S8x128x8x128)
    (p : Fin 8) (q : Fin 128) (r : Fin 8) (w : Fin 128) :
    broadcastTo S8x128x8x128 (shapeCast S1x128x1x1 v h1) h2 (ix4 p q r w) = v (ix1 q) := by
  refine (broadcastTo_apply (shapeCast S1x128x1x1 v h1) h2 (ix4 p q r w) (ix4 (0 : Fin 1) q (0 : Fin 1) (0 : Fin 1)) fun a => ?_).trans ?_
  · match a with
    | ⟨0, _⟩ => rfl
    | ⟨1, _⟩ => rfl
    | ⟨2, _⟩ => rfl
    | ⟨3, _⟩ => rfl
  · refine shapeCast_apply v h1 (ix4 (0 : Fin 1) q (0 : Fin 1) (0 : Fin 1)) (ix1 q) ?_
    rw [Shape.rowMajor_val_four, Shape.rowMajor_val_one]
    show q.val = ((0 * 128 + q.val) * 1 + 0) * 1 + 0
    omega

end Spread

/-! ## The stored block, entry by entry -/

/-- The second kernel's payload at (p, q, r, w): the input's entry less the mean of (p, q), times the reciprocal root of
    the variance of (p, q) plus the small constant, times the weight of q, plus the bias of q. -/
theorem pay_at (x0 : Vec Ideal S8x128x8x128 .f32) (x1 x2 : Vec Ideal S8x128 .f32) (x3 x4 : Vec Ideal S128 .f32)
    (p : Fin 8) (q : Fin 128) (r : Fin 8) (w : Fin 128) :
    k1_pay1 x0 x1 x2 x3 x4 (ix4 p q r w)
      = Cert.Chain.outK (x0 (ix4 p q r w)) (x1 (ix2 p q)) (x2 (ix2 p q)) (x3 (ix1 q)) (x4 (ix1 q)) := by
  unfold k1_pay1 Cert.Chain.outK
  simp only [addf_apply, mulf_apply, subf_apply]
  rw [spread_pair, spread_pair, spread_chan, spread_chan, shapeCast_self, shapeCast_self]
  rfl

/-! ## Where a grid point's blocks sit in the arrays

Point t of the 8 x 2 x 4 grid is (t / 8, (t / 4) % 2, t % 4): eight samples, one half of the channels, one slab of
eight image rows. -/

/-- The grid has 64 points. -/
theorem pt_lt (t : Fin cfg1.N) : t.val < 64 :=
  Nat.lt_of_lt_of_eq t.isLt (show cfg1.N = 64 from N_1)

/-- The sample of entry p of point t's block. -/
def smp (t : Fin cfg1.N) (p : Fin 8) : Fin 64 := ⟨8 * (t.val / 8) + p.val, by have := pt_lt t; omega⟩
/-- The channel of entry q of point t's block. -/
def chn (t : Fin cfg1.N) (q : Fin 128) : Fin 256 := ⟨128 * ((t.val / 4) % 2) + q.val, by omega⟩
/-- The image row of entry r of point t's block. -/
def row (t : Fin cfg1.N) (r : Fin 8) : Fin 32 := ⟨8 * (t.val % 4) + r.val, by omega⟩

/-- The six windows' block indices at every point, decided over the grid. -/
theorem blk_idx : ∀ t : Fin cfg1.N,
    (win1_0.index t (0 : Fin 4) = t.val / 8 ∧ win1_0.index t (1 : Fin 4) = (t.val / 4) % 2
      ∧ win1_0.index t (2 : Fin 4) = t.val % 4 ∧ win1_0.index t (3 : Fin 4) = 0)
    ∧ (win1_1.index t (0 : Fin 2) = t.val / 8 ∧ win1_1.index t (1 : Fin 2) = (t.val / 4) % 2)
    ∧ (win1_2.index t (0 : Fin 2) = t.val / 8 ∧ win1_2.index t (1 : Fin 2) = (t.val / 4) % 2)
    ∧ win1_3.index t (0 : Fin 1) = (t.val / 4) % 2
    ∧ win1_4.index t (0 : Fin 1) = (t.val / 4) % 2
    ∧ (win1_5.index t (0 : Fin 4) = t.val / 8 ∧ win1_5.index t (1 : Fin 4) = (t.val / 4) % 2
      ∧ win1_5.index t (2 : Fin 4) = t.val % 4 ∧ win1_5.index t (3 : Fin 4) = 0) :=
  (by decide +kernel : ∀ t : Fin grid1.N, _)

/-- The input's block at point t, entry by entry. -/
theorem in_at (c : Dev nD) (t : Fin cfg1.N) (p : Fin 8) (q : Fin 128) (r : Fin 8) (w : Fin 128) :
    iblk1 V c 0 t (ix4 p q r w) = V c main_arg0 (ix4 (smp t p) (chn t q) (row t r) w) := by
  obtain ⟨⟨e0, e1, e2, e3⟩, -⟩ := blk_idx t
  unfold iblk1
  rw [View.read_apply]
  show V c main_arg0 (((cfg1.win 0).blk t).view.emb (ix4 p q r w)) = V c main_arg0 _
  refine congrArg (V c main_arg0) (funext fun a => Fin.ext ?_)
  match a with
  | ⟨0, _⟩ => show win1_0.index t (0 : Fin 4) * 8 + 1 * p.val = 8 * (t.val / 8) + p.val; omega
  | ⟨1, _⟩ => show win1_0.index t (1 : Fin 4) * 128 + 1 * q.val = 128 * ((t.val / 4) % 2) + q.val; omega
  | ⟨2, _⟩ => show win1_0.index t (2 : Fin 4) * 8 + 1 * r.val = 8 * (t.val % 4) + r.val; omega
  | ⟨3, _⟩ => show win1_0.index t (3 : Fin 4) * 128 + 1 * w.val = w.val; omega

/-- The means' block at point t, entry by entry. -/
theorem mean_at (c : Dev nD) (t : Fin cfg1.N) (p : Fin 8) (q : Fin 128) :
    iblk1 V c 1 t (ix2 p q) = V c main_v30 (ix2 (smp t p) (chn t q)) := by
  obtain ⟨-, ⟨e0, e1⟩, -⟩ := blk_idx t
  unfold iblk1
  rw [View.read_apply]
  show V c main_v30 (((cfg1.win 1).blk t).view.emb (ix2 p q)) = V c main_v30 _
  refine congrArg (V c main_v30) (funext fun a => Fin.ext ?_)
  match a with
  | ⟨0, _⟩ => show win1_1.index t (0 : Fin 2) * 8 + 1 * p.val = 8 * (t.val / 8) + p.val; omega
  | ⟨1, _⟩ => show win1_1.index t (1 : Fin 2) * 128 + 1 * q.val = 128 * ((t.val / 4) % 2) + q.val; omega

/-- The variances' block at point t, entry by entry. -/
theorem var_at (c : Dev nD) (t : Fin cfg1.N) (p : Fin 8) (q : Fin 128) :
    iblk1 V c 2 t (ix2 p q) = V c main_v37 (ix2 (smp t p) (chn t q)) := by
  obtain ⟨-, -, ⟨e0, e1⟩, -⟩ := blk_idx t
  unfold iblk1
  rw [View.read_apply]
  show V c main_v37 (((cfg1.win 2).blk t).view.emb (ix2 p q)) = V c main_v37 _
  refine congrArg (V c main_v37) (funext fun a => Fin.ext ?_)
  match a with
  | ⟨0, _⟩ => show win1_2.index t (0 : Fin 2) * 8 + 1 * p.val = 8 * (t.val / 8) + p.val; omega
  | ⟨1, _⟩ => show win1_2.index t (1 : Fin 2) * 128 + 1 * q.val = 128 * ((t.val / 4) % 2) + q.val; omega

/-- The weights' block at point t, entry by entry. -/
theorem wt_at (c : Dev nD) (t : Fin cfg1.N) (q : Fin 128) :
    iblk1 V c 3 t (ix1 q) = V c main_arg1 (ix1 (chn t q)) := by
  obtain ⟨-, -, -, e0, -⟩ := blk_idx t
  unfold iblk1
  rw [View.read_apply]
  show V c main_arg1 (((cfg1.win 3).blk t).view.emb (ix1 q)) = V c main_arg1 _
  refine congrArg (V c main_arg1) (funext fun a => Fin.ext ?_)
  match a with
  | ⟨0, _⟩ => show win1_3.index t (0 : Fin 1) * 128 + 1 * q.val = 128 * ((t.val / 4) % 2) + q.val; omega

/-- The biases' block at point t, entry by entry. -/
theorem bs_at (c : Dev nD) (t : Fin cfg1.N) (q : Fin 128) :
    iblk1 V c 4 t (ix1 q) = V c main_arg2 (ix1 (chn t q)) := by
  obtain ⟨-, -, -, -, e0, -⟩ := blk_idx t
  unfold iblk1
  rw [View.read_apply]
  show V c main_arg2 (((cfg1.win 4).blk t).view.emb (ix1 q)) = V c main_arg2 _
  refine congrArg (V c main_arg2) (funext fun a => Fin.ext ?_)
  match a with
  | ⟨0, _⟩ => show win1_4.index t (0 : Fin 1) * 128 + 1 * q.val = 128 * ((t.val / 4) % 2) + q.val; omega

/-! ## The whole result array as one function, and the blocks as its restrictions -/

/-- The normalised array: entry (b, ch, h, w) from the input's entry, the mean and variance of (b, ch), and the weight
    and bias of ch. -/
def normG (c : Dev nD) : S64x256x32x128.Idx → Elt Ideal .f32 := fun i =>
  Cert.Chain.outK (V c main_arg0 i) (V c main_v30 (ix2 (n0 := 64) (n1 := 256) (i 0) (i 1)))
    (V c main_v37 (ix2 (n0 := 64) (n1 := 256) (i 0) (i 1)))
    (V c main_arg1 (ix1 (n := 256) (i 1))) (V c main_arg2 (ix1 (n := 256) (i 1)))

/-- The normalised array at coordinates. -/
theorem normG_at (c : Dev nD) (b : Fin 64) (ch : Fin 256) (h : Fin 32) (w : Fin 128) :
    normG V c (ix4 b ch h w)
      = Cert.Chain.outK (V c main_arg0 (ix4 b ch h w)) (V c main_v30 (ix2 b ch)) (V c main_v37 (ix2 b ch))
          (V c main_arg1 (ix1 ch)) (V c main_arg2 (ix1 ch)) := rfl

/-- Entry (p, q, r, w) of point t's result block sits in the array at (sample, channel, row, w). -/
theorem out_emb (t : Fin cfg1.N) (p : Fin 8) (q : Fin 128) (r : Fin 8) (w : Fin 128) :
    ((cfg1.win 5).blk t).view.emb (ix4 p q r w) = ix4 (smp t p) (chn t q) (row t r) w := by
  obtain ⟨-, -, -, -, -, e0, e1, e2, e3⟩ := blk_idx t
  refine funext fun a => Fin.ext ?_
  match a with
  | ⟨0, _⟩ => show win1_5.index t (0 : Fin 4) * 8 + 1 * p.val = 8 * (t.val / 8) + p.val; omega
  | ⟨1, _⟩ => show win1_5.index t (1 : Fin 4) * 128 + 1 * q.val = 128 * ((t.val / 4) % 2) + q.val; omega
  | ⟨2, _⟩ => show win1_5.index t (2 : Fin 4) * 8 + 1 * r.val = 8 * (t.val % 4) + r.val; omega
  | ⟨3, _⟩ => show win1_5.index t (3 : Fin 4) * 128 + 1 * w.val = w.val; omega

/-- What point t writes back is its block of the normalised array. -/
theorem stored_eq (c : Dev nD) (dat : Dat τ (Elt Ideal) Unit ℕ (UR sig nD τ) ℕ cfg1 c)
    (h5 : ∀ t : Fin cfg1.N, dat.after 5 t = nblk1 V c t) (t : Fin cfg1.N) :
    dat.flushed 5 t = ((cfg1.win 5).blk t).view.read (Elt Ideal) (normG V c) := by
  show (cfg1.win 5).cut (grid1.coords t) (dat.after 5 t) = _
  rw [h5 t]
  funext j
  obtain ⟨p, q, r, w, rfl⟩ : ∃ (p : Fin 8) (q : Fin 128) (r : Fin 8) (w : Fin 128), j = ix4 p q r w :=
    ⟨j 0, j 1, j 2, j 3, eq_ix4 j⟩
  rw [View.read_apply]
  show nblk1 V c t (ix4 p q r w) = normG V c (((cfg1.win 5).blk t).view.emb (ix4 p q r w))
  rw [out_emb, normG_at]
  unfold nblk1
  rw [pay_at, in_at, mean_at, var_at, wt_at, bs_at]

/-- An index of the array is in point t's block iff each coordinate is in the block's range on its axis. -/
theorem mem_out_blk (t : Fin cfg1.N) (i : S64x256x32x128.Idx) :
    i ∈ ((cfg1.win 5).blk t).view.set
      ↔ ∀ a : Fin 4, win1_5.index t a * S8x128x8x128.size a ≤ (i a).val
          ∧ (i a).val < win1_5.index t a * S8x128x8x128.size a + S8x128x8x128.size a := by
  show i ∈ ((View.whole main_v38).slice (win1_5.rect t)).set ↔ _
  rw [View.set_slice_whole, Rect.mem_set_unit]
  exact Iff.rfl

/-- Every entry of the array is in some point's block: (b, ch, h, w) in that of point 8 (b / 8) + 4 (ch / 128) + h / 8. -/
theorem out_cover (i : S64x256x32x128.Idx) :
    ∃ t : Fin cfg1.N, (cfg1.win 5).flush t = true ∧ i ∈ ((cfg1.win 5).blk t).view.set := by
  have hb : (i 0).val < 64 := (i 0).isLt
  have hc : (i 1).val < 256 := (i 1).isLt
  have hh : (i 2).val < 32 := (i 2).isLt
  have hw : (i 3).val < 128 := (i 3).isLt
  have hN : cfg1.N = 64 := N_1
  let t : Fin cfg1.N := ⟨8 * ((i 0).val / 8) + 4 * ((i 1).val / 128) + (i 2).val / 8, by rw [hN]; omega⟩
  have ht : t.val = 8 * ((i 0).val / 8) + 4 * ((i 1).val / 128) + (i 2).val / 8 := rfl
  obtain ⟨-, -, -, -, -, e0, e1, e2, e3⟩ := blk_idx t
  refine ⟨t, flush1_5 t, ?_⟩
  rw [mem_out_blk]
  intro a
  match a with
  | ⟨0, _⟩ => show win1_5.index t (0 : Fin 4) * 8 ≤ (i 0).val ∧ (i 0).val < win1_5.index t (0 : Fin 4) * 8 + 8; omega
  | ⟨1, _⟩ => show win1_5.index t (1 : Fin 4) * 128 ≤ (i 1).val ∧ (i 1).val < win1_5.index t (1 : Fin 4) * 128 + 128; omega
  | ⟨2, _⟩ => show win1_5.index t (2 : Fin 4) * 8 ≤ (i 2).val ∧ (i 2).val < win1_5.index t (2 : Fin 4) * 8 + 8; omega
  | ⟨3, _⟩ => show win1_5.index t (3 : Fin 4) * 128 ≤ (i 3).val ∧ (i 3).val < win1_5.index t (3 : Fin 4) * 128 + 128; omega

/-! ## The result -/

/-- The result array after the region, entry by entry. For ANY proof data of the second pipeline whose arrays are the
    region-entry contents and whose last window's block after point `t` is the kernel's payload of the five input blocks. -/
theorem norm_final (c : Dev nD) (dat : Dat τ (Elt Ideal) Unit ℕ (UR sig nD τ) ℕ cfg1 c)
    (hA : ∀ w, dat.A w = V c (Pipeline.arrRef spec1 w))
    (h5 : ∀ t : Fin cfg1.N, dat.after 5 t = nblk1 V c t)
    (b : Fin 64) (ch : Fin 256) (h : Fin 32) (w : Fin 128) :
    dat.arrAt 5 cfg1.N (ix4 b ch h w)
      = Cert.Chain.outK (V c main_arg0 (ix4 b ch h w)) (V c main_v30 (ix2 b ch)) (V c main_v37 (ix2 b ch))
          (V c main_arg1 (ix1 ch)) (V c main_arg2 (ix1 ch)) := by
  have hfin : dat.arrAt 5 cfg1.N = normG V c :=
    dat.arrAt_eq_of_cover 5 (normG V c) (fun t _ => stored_eq V c dat h5 t) out_cover
  rw [hfin]
  exact normG_at V c b ch h w

end Cert.KernelIdeal.NormVal

end
-- ==== Proof.Value.KHost.lean ====
/-
  What the second kernel's region finds in its five operands: the input and the two channel vectors as launched, and the
  per-sample mean and variance as the shared host operations (Chain.lean) of the two arrays the first region left and of
  the samples' segment numbers.
-/
import proofs.«172045_j5746666242191_1_alg».proof.Proof.KI.Run
import proofs.«172045_j5746666242191_1_alg».proof.Proof.Value.Chain
import Idealize.ShloMosaic.Lib.StableHlo.Run

set_option maxRecDepth 16384

noncomputable section

namespace Cert.KernelIdeal.KHost

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two host stretches over any contents

Each stretch is a straight line of operations, every one writing its own result reference.  A reference none of them
writes is read after the line as before it; a result reference is read as the composition of the operations that
lead to it, applied to what the line found at the references it only reads. -/

section Line

variable (W : Valuation τ sig (Elt F))

/-- The first stretch writes the constant one, its spread over the samples and the difference: nothing else. -/
theorem line0_keeps (r : Ref sig .tc) (h0 : r ≠ main_c) (h1 : r ≠ main_v0) (h2 : r ≠ main_v1) :
    StableHlo.after hostOps0 W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      Finset.mem_singleton]
    exact ⟨StableHlo.devRef_ne_of_ne h0, StableHlo.devRef_ne_of_ne h1, StableHlo.devRef_ne_of_ne h2⟩))

/-- The segment numbers the first stretch leaves: the fourth argument less the constant one. -/
theorem line0_v1 :
    StableHlo.after hostOps0 W (Proc.devRef .tc main_v1)
      = subi (W (Proc.devRef .tc main_arg3)) (broadcastInDim S64 ![] Facts₀.bcast_S_S64 (constantI S_ 32 1#32)) := by
  after_results

/-- The second stretch writes none of the program's first three arguments. -/
theorem line1_keeps_arg (r : Ref sig .tc) (h : r = main_arg0 ∨ r = main_arg1 ∨ r = main_arg2) :
    StableHlo.after hostOps1 W (Proc.devRef .tc r) = W (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes,
    StableHlo.ternary_writes, Finset.mem_singleton]
  rcases h with rfl | rfl | rfl
  all_goals (repeat' apply And.intro)
  all_goals exact StableHlo.devRef_ne_of_ne (by decide)

/-- The mean the second stretch leaves: the segments' quotient of the first sums, read at each sample's row.  The
    operations that lead to it are the shared ones, term for term. -/
theorem line1_v30 :
    StableHlo.after hostOps1 W (Proc.devRef .tc main_v30)
      = Cert.Chain.chainM (F := F) gather_S8x256_S64x1_S64x256_1_0_n_n_0_1_1256
          scatter_S8x256_S64x1_S64x256_1_0_0_1 scatter_S8_S64x1_S64_n_0_0_1
          Facts₀.bcast_S_S8x256 Facts₀.bcast_S64_S64x1_0 Facts₀.bcast_S_S8 Facts₀.bcast_S_S64 Facts₀.bcast_S8_S8x1_0 Facts₀.bcast_S8x1_S8x256_0_1
          (W (Proc.devRef .tc main_v2_0)) (W (Proc.devRef .tc main_v1)) := by
  after_results_simp
  rfl

/-- The variance the second stretch leaves: the quotient of the sums of squares less the squared quotient of the sums,
    read at each sample's row.  Again the shared operations, term for term. -/
theorem line1_v37 :
    StableHlo.after hostOps1 W (Proc.devRef .tc main_v37)
      = Cert.Chain.chainV (F := F) gather_S8x256_S64x1_S64x256_1_0_n_n_0_1_1256
          scatter_S8x256_S64x1_S64x256_1_0_0_1 scatter_S8_S64x1_S64_n_0_0_1
          Facts₀.bcast_S_S8x256 Facts₀.bcast_S64_S64x1_0 Facts₀.bcast_S_S8 Facts₀.bcast_S_S64 Facts₀.bcast_S8_S8x1_0 Facts₀.bcast_S8x1_S8x256_0_1
          (W (Proc.devRef .tc main_v2_0)) (W (Proc.devRef .tc main_v2_1)) (W (Proc.devRef .tc main_v1)) := by
  after_results_simp
  rfl

end Line

/-! ## The program's contents at the two regions' entries -/

variable (m : (ℓ : Loc nD τ sig) → Buf (Elt F) ℓ) (ρ : Dev nD → PrngReg)

/-- The segment numbers the host operations read: the argument's less one. -/
theorem V1_main_v1 (c : Dev nD) :
    V1 m ρ c main_v1 = subi (m ((c : Thread nD τ).loc main_arg3)) (broadcastInDim S64 ![] Facts₀.bcast_S_S64 (constantI S_ 32 1#32)) :=
  line0_v1 (W0 m ρ c)

/-- The first region finds the input as launched. -/
theorem V1_main_arg0 (c : Dev nD) : V1 m ρ c main_arg0 = m ((c : Thread nD τ).loc main_arg0) :=
  line0_keeps (W0 m ρ c) main_arg0 (by decide) (by decide) (by decide)

/-- The first region hands its input window's array back as it found it: the window is only read. -/
theorem W2_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-- The second region finds the input and the two channel vectors as launched. -/
theorem V3_main_arg0 (c : Dev nD) : V3 m ρ c main_arg0 = m ((c : Thread nD τ).loc main_arg0) :=
  (line1_keeps_arg (W2 m ρ c) main_arg0 (Or.inl rfl)).trans <| (W2_main_arg0 m ρ c).trans <| V1_main_arg0 m ρ c
theorem V3_main_arg1 (c : Dev nD) : V3 m ρ c main_arg1 = m ((c : Thread nD τ).loc main_arg1) :=
  (line1_keeps_arg (W2 m ρ c) main_arg1 (Or.inr (Or.inl rfl))).trans <|
    (W2_of_ne m ρ c main_arg1 (by decide)).trans <| line0_keeps (W0 m ρ c) main_arg1 (by decide) (by decide) (by decide)
theorem V3_main_arg2 (c : Dev nD) : V3 m ρ c main_arg2 = m ((c : Thread nD τ).loc main_arg2) :=
  (line1_keeps_arg (W2 m ρ c) main_arg2 (Or.inr (Or.inr rfl))).trans <|
    (W2_of_ne m ρ c main_arg2 (by decide)).trans <| line0_keeps (W0 m ρ c) main_arg2 (by decide) (by decide) (by decide)

/-- The first region leaves the segment numbers alone: they are no array of its windows. -/
theorem W2_main_v1 (c : Dev nD) : W2 m ρ c (Proc.devRef .tc main_v1) = V1 m ρ c main_v1 :=
  W2_of_ne m ρ c main_v1 (by decide)

/-- The per-sample mean the second region finds. -/
theorem V3_main_v30 (c : Dev nD) :
    V3 m ρ c main_v30 = Cert.Chain.chainM (F := F) gather_S8x256_S64x1_S64x256_1_0_n_n_0_1_1256
      scatter_S8x256_S64x1_S64x256_1_0_0_1 scatter_S8_S64x1_S64_n_0_0_1
      Facts₀.bcast_S_S8x256 Facts₀.bcast_S64_S64x1_0 Facts₀.bcast_S_S8 Facts₀.bcast_S_S64 Facts₀.bcast_S8_S8x1_0 Facts₀.bcast_S8x1_S8x256_0_1
      (V2 m ρ c main_v2_0) (V1 m ρ c main_v1) :=
  (line1_v30 (W2 m ρ c)).trans (by rw [W2_main_v1 m ρ c])

/-- The per-sample variance the second region finds. -/
theorem V3_main_v37 (c : Dev nD) :
    V3 m ρ c main_v37 = Cert.Chain.chainV (F := F) gather_S8x256_S64x1_S64x256_1_0_n_n_0_1_1256
      scatter_S8x256_S64x1_S64x256_1_0_0_1 scatter_S8_S64x1_S64_n_0_0_1
      Facts₀.bcast_S_S8x256 Facts₀.bcast_S64_S64x1_0 Facts₀.bcast_S_S8 Facts₀.bcast_S_S64 Facts₀.bcast_S8_S8x1_0 Facts₀.bcast_S8x1_S8x256_0_1
      (V2 m ρ c main_v2_0) (V2 m ρ c main_v2_1) (V1 m ρ c main_v1) :=
  (line1_v37 (W2 m ρ c)).trans (by rw [W2_main_v1 m ρ c])

end Cert.KernelIdeal.KHost

end
-- ==== Proof.Value.Ref.lean ====
/-
  The reference's result, read index by index on the extended reals: entry (b, ch, h, w) is the input's entry less the
  mean sample b takes in channel ch, OVER the root of the variance it takes plus the small constant, times the channel's
  weight, plus its bias — the mean and the variance those of Chain.lean, of the plane sums of the input and of its squares.
-/
import proofs.«172045_j5746666242191_1_alg».proof.Defs
import proofs.«172045_j5746666242191_1_alg».proof.Proof.Gen.ReferenceIdeal.Run
import proofs.«172045_j5746666242191_1_alg».proof.Proof.Gen.ReferenceIdeal.Read
import proofs.«172045_j5746666242191_1_alg».proof.Proof.Value.Chain
import proofs.«172045_j5746666242191_1_alg».proof.Proof.Value.ChainRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Idealize.ShloMosaic.ValueIdx

/-! ## The sums over an image plane -/

/-- A sum over the two image axes, read at (b, ch): the input indices that drop to (b, ch) are exactly the
    (b, ch, h, w), so the sum over them is the initial value plus the double sum over the plane. -/
theorem planeFiber_sum (hred : S64x256x32x128.ReducesTo [2, 3] S64x256) (x : S64x256x32x128.Idx → EReal) (init : EReal)
    (b : Fin 64) (ch : Fin 256) :
    Ideal.hostReduceAdd hred x init (ix2 b ch) = init + ∑ h : Fin 32, ∑ w : Fin 128, x (ix4 b ch h w) := by
  unfold Ideal.hostReduceAdd
  refine congrArg (init + ·) ?_
  rw [← Finset.sum_product']
  have key : ∀ i : S64x256x32x128.Idx, hred.drop i = ix2 b ch → ix4 b ch (i 2) (i 3) = i := by
    intro i hi
    have h0 : ((hred.drop i 0 : Fin 64) : Nat) = (i 0 : Fin 64) := Shape.ReducesTo.drop_apply_val_of_eq hred i 0 0
    have h1 : ((hred.drop i 1 : Fin 256) : Nat) = (i 1 : Fin 256) := Shape.ReducesTo.drop_apply_val_of_eq hred i 1 1
    rw [hi] at h0 h1
    funext a
    match a with
    | ⟨0, _⟩ => exact Fin.ext h0
    | ⟨1, _⟩ => exact Fin.ext h1
    | ⟨2, _⟩ => rfl
    | ⟨3, _⟩ => rfl
  refine Finset.sum_bij' (fun i _ => ((i 2 : Fin 32), (i 3 : Fin 128))) (fun p _ => ix4 b ch p.1 p.2) ?_ ?_ ?_ ?_ ?_
  · intro i _
    exact Finset.mem_product.2 ⟨Finset.mem_univ _, Finset.mem_univ _⟩
  · intro p _
    refine Finset.mem_filter.2 ⟨Finset.mem_univ _, ?_⟩
    funext a
    match a with
    | ⟨0, _⟩ => exact Fin.ext (Shape.ReducesTo.drop_apply_val_of_eq hred (ix4 b ch p.1 p.2) 0 0)
    | ⟨1, _⟩ => exact Fin.ext (Shape.ReducesTo.drop_apply_val_of_eq hred (ix4 b ch p.1 p.2) 1 1)
  · intro i hi
    exact key i (Finset.mem_filter.1 hi).2
  · intro p _
    rfl
  · intro i hi
    exact congrArg x (key i (Finset.mem_filter.1 hi).2).symm

/-- The host's sum of an array over its two image axes from a zero initial value is the array's plane sums. -/
theorem reduce_planes (hred : S64x256x32x128.ReducesTo [2, 3] S64x256) (hu : 0 < S_.numel)
    (x : FVec Ideal S64x256x32x128 .f32) :
    Host.reduceAdd (F := Ideal) x (constant (F := Ideal) S_ .f32 0x00000000#32) hred hu = Cert.Chain.planeSums x := by
  funext j
  obtain ⟨b, ch, rfl⟩ : ∃ (b : Fin 64) (ch : Fin 256), j = ix2 b ch := ⟨j 0, j 1, eq_ix2 j⟩
  refine (hostReduceAdd_apply x _ hred hu (ix2 b ch)).trans ?_
  rw [planeFiber_sum, constant_apply, Ideal.ofBits_zero_f32, zero_add]
  rfl

/-- The second stage: the plane sums of the input. -/
theorem stage2_eq (x0 : FVec Ideal S64x256x32x128 .f32) : val_main_v2 (F := Ideal) x0 = Cert.Chain.planeSums x0 :=
  reduce_planes _ _ x0

/-- The fourth stage: the plane sums of the input's squares. -/
theorem stage4_eq (x0 : FVec Ideal S64x256x32x128 .f32) :
    val_main_v4 (F := Ideal) x0 = Cert.Chain.planeSums (Cert.Chain.sq x0) :=
  reduce_planes _ _ (Cert.Chain.sq x0)

/-! ## The segment numbers -/

/-- The first stage: the argument's segment numbers less one. -/
theorem stage1_eq (x3 : IVec S64 32) : val_main_v1 (F := Ideal) x3 = Cert.Chain.idsOf x3 := by
  funext i
  rw [val_main_v1_apply, val_main_v0_apply, val_main_c_apply]
  rfl

/-! ## The two gathered stages are the shared part's operations -/

section Stages

variable {F : FTy → Type} [FloatOps F]

/-- Stage 32, the gathered mean, is the shared part's mean operation at the reference's records, applied to the
    plane sums and the segment numbers. -/
theorem stage32_eq (x0 : (⟨S64x256x32x128, .f32⟩ : BufTy).Contents (Elt F)) (x3 : (⟨S64, .i32⟩ : BufTy).Contents (Elt F)) :
    val_main_v32 (F := F) x0 x3
      = Cert.Chain.chainM (F := F) gather_S8x256_S64x1_S64x256_1_0_n_n_0_1_1256 scatter_S8x256_S64x1_S64x256_1_0_0_1
          scatter_S8_S64x1_S64_n_0_0_1 Facts₀.bcast_S_S8x256 Facts₀.bcast_S64_S64x1_0 Facts₀.bcast_S_S8 Facts₀.bcast_S_S64
          Facts₀.bcast_S8_S8x1_0 Facts₀.bcast_S8x1_S8x256_0_1 (val_main_v2 (F := F) x0) (val_main_v1 (F := F) x3) := rfl

/-- Stage 40, the gathered variance, is the shared part's variance operation, applied to the plane sums of the input
    and of its squares and the segment numbers. -/
theorem stage40_eq (x0 : (⟨S64x256x32x128, .f32⟩ : BufTy).Contents (Elt F)) (x3 : (⟨S64, .i32⟩ : BufTy).Contents (Elt F)) :
    val_main_v40 (F := F) x0 x3
      = Cert.Chain.chainV (F := F) gather_S8x256_S64x1_S64x256_1_0_n_n_0_1_1256 scatter_S8x256_S64x1_S64x256_1_0_0_1
          scatter_S8_S64x1_S64_n_0_0_1 Facts₀.bcast_S_S8x256 Facts₀.bcast_S64_S64x1_0 Facts₀.bcast_S_S8 Facts₀.bcast_S_S64
          Facts₀.bcast_S8_S8x1_0 Facts₀.bcast_S8x1_S8x256_0_1 (val_main_v2 (F := F) x0) (val_main_v4 (F := F) x0)
          (val_main_v1 (F := F) x3) := rfl

end Stages

/-- The gathered mean at (b, ch): the mean sample b takes in channel ch, of the input's plane sums. -/
theorem stage32_apply (x0 : FVec Ideal S64x256x32x128 .f32) (x3 : IVec S64 32) (b : Fin 64) (ch : Fin 256) :
    val_main_v32 (F := Ideal) x0 x3 (ix2 b ch)
      = Cert.Chain.meanG (Cert.Chain.planeSums x0) (Cert.Chain.idsOf x3) b ch := by
  rw [stage32_eq, stage2_eq, stage1_eq]
  exact Cert.Chain.chainM_apply _ rfl rfl rfl rfl rfl rfl rfl _ rfl rfl rfl rfl _ rfl rfl rfl rfl _ _ _ _ _ _ _ _ b ch

/-- The gathered variance at (b, ch). -/
theorem stage40_apply (x0 : FVec Ideal S64x256x32x128 .f32) (x3 : IVec S64 32) (b : Fin 64) (ch : Fin 256) :
    val_main_v40 (F := Ideal) x0 x3 (ix2 b ch)
      = Cert.Chain.varG (Cert.Chain.planeSums x0) (Cert.Chain.planeSums (Cert.Chain.sq x0)) (Cert.Chain.idsOf x3) b ch := by
  rw [stage40_eq, stage2_eq, stage4_eq, stage1_eq]
  exact Cert.Chain.chainV_apply _ rfl rfl rfl rfl rfl rfl rfl _ rfl rfl rfl rfl _ rfl rfl rfl rfl _ _ _ _ _ _ _ _ _ b ch

/-! ## The last stages, at an index -/

/-- The last stage at (b, ch, h, w): the broadcasts of the gathered mean and variance read them at (b, ch), those of
    the weight and the bias read them at ch, and the pointwise operations in between are the quotient form's. -/
theorem stage54_apply (x0 : FVec Ideal S64x256x32x128 .f32) (x1 x2 : FVec Ideal S256 .f32) (x3 : IVec S64 32)
    (b : Fin 64) (ch : Fin 256) (h : Fin 32) (w : Fin 128) :
    val_main_v54 (F := Ideal) x0 x1 x2 x3 (ix4 b ch h w)
      = Cert.Chain.outR (x0 (ix4 b ch h w))
          (Cert.Chain.meanG (Cert.Chain.planeSums x0) (Cert.Chain.idsOf x3) b ch)
          (Cert.Chain.varG (Cert.Chain.planeSums x0) (Cert.Chain.planeSums (Cert.Chain.sq x0)) (Cert.Chain.idsOf x3) b ch)
          (x1 (ix1 ch)) (x2 (ix1 ch)) := by
  have eMean : idx_main_v33 (idx_main_v42 (ix4 b ch h w)) = ix2 b ch :=
    funext fun a => match a with | ⟨0, _⟩ => rfl | ⟨1, _⟩ => rfl
  have eVar : idx_main_v41 (idx_main_v47 (ix4 b ch h w)) = ix2 b ch :=
    funext fun a => match a with | ⟨0, _⟩ => rfl | ⟨1, _⟩ => rfl
  have eWt : idx_main_v49 (idx_main_v50 (ix4 b ch h w)) = ix1 ch :=
    funext fun a => match a with | ⟨0, _⟩ => rfl
  have eBs : idx_main_v52 (idx_main_v53 (ix4 b ch h w)) = ix1 ch :=
    funext fun a => match a with | ⟨0, _⟩ => rfl
  rw [val_main_v54_apply, val_main_v51_apply, val_main_v53_apply, val_main_v52_apply, val_main_v48_apply,
    val_main_v50_apply, val_main_v49_apply, val_main_v43_apply, val_main_v42_apply, val_main_v33_apply,
    val_main_v47_apply, val_main_v46_apply, val_main_v45_apply, val_main_v41_apply, val_main_v44_apply,
    val_main_cst_11_apply, eMean, eVar, eWt, eBs, stage32_apply, stage40_apply]
  rfl

/-- The reference's result at (b, ch, h, w). -/
theorem ref_apply (m : (ℓ : Loc nD τ sig) → Buf (Elt Ideal) ℓ) (c : Dev nD)
    (b : Fin 64) (ch : Fin 256) (h : Fin 32) (w : Fin 128) :
    res_main_v54 (F := Ideal) m c (ix4 b ch h w)
      = Cert.Chain.outR (m ((c.tc : Thread nD τ).loc main_arg0) (ix4 b ch h w))
          (Cert.Chain.meanG (Cert.Chain.planeSums (m ((c.tc : Thread nD τ).loc main_arg0)))
            (Cert.Chain.idsOf (m ((c.tc : Thread nD τ).loc main_arg3))) b ch)
          (Cert.Chain.varG (Cert.Chain.planeSums (m ((c.tc : Thread nD τ).loc main_arg0)))
            (Cert.Chain.planeSums (Cert.Chain.sq (m ((c.tc : Thread nD τ).loc main_arg0))))
            (Cert.Chain.idsOf (m ((c.tc : Thread nD τ).loc main_arg3))) b ch)
          (m ((c.tc : Thread nD τ).loc main_arg1) (ix1 ch)) (m ((c.tc : Thread nD τ).loc main_arg2) (ix1 ch)) := by
  rw [val_main_v54_eq]
  exact stage54_apply _ _ _ _ b ch h w

end Cert.ReferenceIdeal.RefValue

end
-- ==== Proof.Value.Finite.lean ====
/-
  The precondition, read back: every entry of the first argument is a real number.
  The printed predicate compares the absolute value of each entry with plus infinity and folds the answers by "and";
  it holds of an array exactly when every comparison does, and on the extended reals |x| < +inf leaves only the reals.
-/
import proofs.«172045_j5746666242191_1_alg».proof.Pre_finite_inputs
import proofs.«172045_j5746666242191_1_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Finite

open Idealize.ShloMosaic Cert.Pre_finite_inputs

instance : Subsingleton S_.Idx := ⟨fun a b => funext fun d => d.elim0⟩

/-- An extended real whose absolute value is below plus infinity is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Where the predicate holds, every entry of the first argument is a real number. -/
theorem real_of_pre (a0 : FVec Ideal S64x256x32x128 .f32) (a1 a2 : FVec Ideal S256 .f32) (a3 : IVec S64 32)
    (h : Cert.Pre_finite_inputs.fn (F := Ideal) a0 a1 a2 a3 = fun _ => 1#1) (i : S64x256x32x128.Idx) :
    ∃ r : ℝ, a0 i = (r : EReal) := by
  have h0 := congrFun h ValueIdx.ix0
  dsimp only [Cert.Pre_finite_inputs.fn] at h0
  obtain ⟨h01, -⟩ := IntOp.andi_eq_one.1 h0
  obtain ⟨hx, -⟩ := IntOp.andi_eq_one.1 h01
  have hi := Host.reduce_andi_all _ _ _ _ _ hx i
  have htop : Ideal.ofBits .f32 0x7F800000#32 = (⊤ : EReal) := by simp [Ideal.ofBits, Ideal.ieee]
  have hc : Ideal.cmp .olt (max (a0 i) (-(a0 i))) (Ideal.ofBits .f32 0x7F800000#32) = 1#1 := hi
  rw [htop] at hc
  refine real_of_abs_lt_top _ ?_
  by_contra hn
  simp [Ideal.cmp, hn] at hc

end Cert.Finite

end
-- ==== Proof.Value.Assemble.lean ====
/-
  The two idealized programs end with the same array.
  The kernel's result is read off its run: the second region's write-backs, entry by entry, over the per-sample mean and
  variance the host operations make of the first region's two sums; the reference's off its own run.  Both are the one
  function G of Chain.lean: the sums agree (a sum over 32 x 128 positions, taken slab by slab or at once), the host
  operations are the same, and where the variance is a real number that is not negative — it is, for finite inputs —
  a quotient by the root is the product with the reciprocal root.
-/
import proofs.«172045_j5746666242191_1_alg».proof.Defs
import proofs.«172045_j5746666242191_1_alg».proof.Proof.KI.Run
import proofs.«172045_j5746666242191_1_alg».proof.Proof.Value.Chain
import proofs.«172045_j5746666242191_1_alg».proof.Proof.Value.ChainRead
import proofs.«172045_j5746666242191_1_alg».proof.Proof.Value.Variance
import proofs.«172045_j5746666242191_1_alg».proof.Proof.Value.StatsVal
import proofs.«172045_j5746666242191_1_alg».proof.Proof.Value.NormVal
import proofs.«172045_j5746666242191_1_alg».proof.Proof.Value.KHost
import proofs.«172045_j5746666242191_1_alg».proof.Proof.Value.Ref
import proofs.«172045_j5746666242191_1_alg».proof.Proof.Value.Finite
import proofs.«172045_j5746666242191_1_alg».proof.Proof.Gen.Pre_finite_inputs

set_option maxRecDepth 16384

noncomputable section

namespace Cert.Proof.Value

open Idealize.ShloMosaic Idealize.ShloMosaic.TcCoe Idealize.SL.Sem Idealize.ShloMosaic.ValueIdx
open Cert.Chain

/-! ## The kernel's result -/

section Kernel

open Cert.KernelIdeal Cert.KernelIdeal.Gen Cert.KernelIdeal.Hand

variable (m : (ℓ : Loc nD τ sig) → Buf (Elt Ideal) ℓ) (ρ : Dev nD → PrngReg)

/-- The segment numbers the kernel's host operations read are the argument's less one. -/
theorem ids_kernel (c : Dev nD) : V1 m ρ c main_v1 = idsOf (m ((c : Thread nD τ).loc main_arg3)) := by
  rw [Cert.KernelIdeal.KHost.V1_main_v1]
  funext i
  rfl

/-- The first of the two arrays the first region leaves is the plane sums of the input. -/
theorem sums_kernel (c : Dev nD) : V2 m ρ c main_v2_0 = planeSums (m ((c : Thread nD τ).loc main_arg0)) := by
  rw [V2_main_v2_0]
  funext j
  obtain ⟨b, ch, rfl⟩ : ∃ (b : Fin 64) (ch : Fin 256), j = ix2 b ch := ⟨j 0, j 1, eq_ix2 j⟩
  rw [Cert.KernelIdeal.StatsVal.sums_final (V1 m ρ) c (dat0 (V1 m ρ) c) (A_eq0 (V1 m ρ) c) (after0_1 (V1 m ρ) c) b ch,
    Cert.KernelIdeal.KHost.V1_main_arg0]

/-- The second is the plane sums of its squares. -/
theorem sqsums_kernel (c : Dev nD) : V2 m ρ c main_v2_1 = planeSums (sq (m ((c : Thread nD τ).loc main_arg0))) := by
  rw [V2_main_v2_1]
  funext j
  obtain ⟨b, ch, rfl⟩ : ∃ (b : Fin 64) (ch : Fin 256), j = ix2 b ch := ⟨j 0, j 1, eq_ix2 j⟩
  rw [Cert.KernelIdeal.StatsVal.sqsums_final (V1 m ρ) c (dat0 (V1 m ρ) c) (A_eq0 (V1 m ρ) c) (after0_2 (V1 m ρ) c) b ch,
    Cert.KernelIdeal.KHost.V1_main_arg0]

/-- THE KERNEL'S RESULT is G of its arguments. -/
theorem kernel_result (c : Dev nD) :
    W4 m ρ c (Proc.devRef .tc main_v38)
      = G (m ((c : Thread nD τ).loc main_arg0)) (m ((c : Thread nD τ).loc main_arg1)) (m ((c : Thread nD τ).loc main_arg2))
          (idsOf (m ((c : Thread nD τ).loc main_arg3))) := by
  rw [W4_main_v38]
  funext i
  obtain ⟨b, ch, h, w, rfl⟩ : ∃ (b : Fin 64) (ch : Fin 256) (h : Fin 32) (w : Fin 128), i = ix4 b ch h w :=
    ⟨i 0, i 1, i 2, i 3, eq_ix4 i⟩
  rw [Cert.KernelIdeal.NormVal.norm_final (V3 m ρ) c (dat1 (V3 m ρ) c) (A_eq1 (V3 m ρ) c) (after1_5 (V3 m ρ) c) b ch h w,
    Cert.KernelIdeal.KHost.V3_main_arg0, Cert.KernelIdeal.KHost.V3_main_arg1, Cert.KernelIdeal.KHost.V3_main_arg2,
    Cert.KernelIdeal.KHost.V3_main_v30, Cert.KernelIdeal.KHost.V3_main_v37,
    chainM_apply Cert.KernelIdeal.gather_S8x256_S64x1_S64x256_1_0_n_n_0_1_1256 rfl rfl rfl rfl rfl rfl rfl
      Cert.KernelIdeal.scatter_S8x256_S64x1_S64x256_1_0_0_1 rfl rfl rfl rfl Cert.KernelIdeal.scatter_S8_S64x1_S64_n_0_0_1 rfl rfl rfl rfl
      Cert.KernelIdeal.Facts₀.bcast_S_S8x256 Cert.KernelIdeal.Facts₀.bcast_S64_S64x1_0 Cert.KernelIdeal.Facts₀.bcast_S_S8 Cert.KernelIdeal.Facts₀.bcast_S_S64 Cert.KernelIdeal.Facts₀.bcast_S8_S8x1_0 Cert.KernelIdeal.Facts₀.bcast_S8x1_S8x256_0_1,
    chainV_apply Cert.KernelIdeal.gather_S8x256_S64x1_S64x256_1_0_n_n_0_1_1256 rfl rfl rfl rfl rfl rfl rfl
      Cert.KernelIdeal.scatter_S8x256_S64x1_S64x256_1_0_0_1 rfl rfl rfl rfl Cert.KernelIdeal.scatter_S8_S64x1_S64_n_0_0_1 rfl rfl rfl rfl
      Cert.KernelIdeal.Facts₀.bcast_S_S8x256 Cert.KernelIdeal.Facts₀.bcast_S64_S64x1_0 Cert.KernelIdeal.Facts₀.bcast_S_S8 Cert.KernelIdeal.Facts₀.bcast_S_S64 Cert.KernelIdeal.Facts₀.bcast_S8_S8x1_0 Cert.KernelIdeal.Facts₀.bcast_S8x1_S8x256_0_1,
    sums_kernel, sqsums_kernel, ids_kernel]
  rfl

end Kernel

/-! ## The reference's result -/

section Reference

open Cert.ReferenceIdeal Cert.ReferenceIdeal.Gen

/-- THE REFERENCE'S RESULT is G of its arguments, where the first argument's entries are real numbers. -/
theorem reference_result (m : (ℓ : Loc nD τ sig) → Buf (Elt Ideal) ℓ) (c : Dev nD)
    (hx : ∀ i, ∃ r : ℝ, m ((c.tc : Thread nD τ).loc main_arg0) i = (r : EReal)) :
    Cert.ReferenceIdeal.Value.res_main_v54 (F := Ideal) m c
      = G (m ((c.tc : Thread nD τ).loc main_arg0)) (m ((c.tc : Thread nD τ).loc main_arg1)) (m ((c.tc : Thread nD τ).loc main_arg2))
          (idsOf (m ((c.tc : Thread nD τ).loc main_arg3))) := by
  funext i
  obtain ⟨b, ch, h, w, rfl⟩ : ∃ (b : Fin 64) (ch : Fin 256) (h : Fin 32) (w : Fin 128), i = ix4 b ch h w :=
    ⟨i 0, i 1, i 2, i 3, eq_ix4 i⟩
  rw [Cert.ReferenceIdeal.RefValue.ref_apply m c b ch h w]
  obtain ⟨r, hr, hv⟩ := varG_nonneg (m ((c.tc : Thread nD τ).loc main_arg0)) hx (idsOf (m ((c.tc : Thread nD τ).loc main_arg3))) b ch
  rw [hv, outR_eq_outK _ _ _ _ r hr, ← hv]
  rfl

end Reference

/-! ## The claims -/

open Cert

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories that agree on the arguments, end with G of the arguments. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (idsOf (m ((c.tc : Thread Cert.KernelIdeal.nD Cert.KernelIdeal.τ).loc Cert.KernelIdeal.main_arg3))), ?_, ?_⟩
  · refine (θ_run Cert.KernelIdeal.defs _ _).mono (fun r h c => ?_) (Cert.KernelIdeal.Hand.run_all m ρ)
    exact ⟨(h c _ (Cert.KernelIdeal.Hand.mem_uc Cert.KernelIdeal.main_v38 (by decide))).trans (kernel_result m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩
  · refine (θ_run Cert.ReferenceIdeal.defs _ _).mono (fun r h c => ⟨(h c).1.trans ?_, (h c).2⟩)
      (Cert.ReferenceIdeal.Value.run (F := Ideal) m' ρ')
    have hx : ∀ i, ∃ r : ℝ, m' ((c.tc : Thread Cert.ReferenceIdeal.nD Cert.ReferenceIdeal.τ).loc Cert.ReferenceIdeal.main_arg0) i = (r : EReal) := by
      rw [(hagree c).1]
      exact Cert.Finite.real_of_pre _ _ _ _ (hpre c)
    rw [reference_result m' c hx, (hagree c).1, (hagree c).2.1, (hagree c).2.2.1, (hagree c).2.2.2]

end Cert.Proof.Value

end
-- ==== Proof.lean ====
/-
  A batch normalisation with per-segment statistics, as two Pallas kernels with host operations between them, against
  its plain reference.  Each sample belongs to one of eight segments; per segment and channel the mean and the (biased)
  variance are taken over the segment's samples and all 32 x 128 positions, and every entry is normalised with the
  statistics of its sample's segment, scaled by the channel's weight and shifted by its bias.

  The first kernel sums each image plane and its squares, eight rows at a time, keeping two running sums between grid
  points; host operations turn the sums into per-sample means and variances (three scatter-adds, a guarded division,
  two gathers); the second kernel normalises pointwise with the RECIPROCAL root.  The reference sums the planes at once
  and DIVIDES by the root.  On the extended reals the sums agree whatever their grouping, the host operations are the
  same, and the variance of finitely many real numbers is a real number that is not negative, so that its sum with the
  small positive constant is a positive real — where a quotient by the root is the product with the reciprocal root.

  The three programs run to the end and leave their arguments unchanged: the two kernels' programs as four segments
  (host operations, a region, host operations, a region), the reference as one stretch of host operations.  The
  idealized kernel is the kernel's own text read on the extended reals: nothing was rewritten.
-/
import proofs.«172045_j5746666242191_1_alg».proof.Defs
import proofs.«172045_j5746666242191_1_alg».proof.Proof.Gen.Kernel
import proofs.«172045_j5746666242191_1_alg».proof.Proof.Gen.KernelIdeal
import proofs.«172045_j5746666242191_1_alg».proof.Proof.Gen.ReferenceIdeal
import proofs.«172045_j5746666242191_1_alg».proof.Proof.Gen.Pre_finite_inputs
import proofs.«172045_j5746666242191_1_alg».proof.Proof.K.Run
import proofs.«172045_j5746666242191_1_alg».proof.Proof.Value.Assemble
import Idealize.ShloMosaic.Adequacy
import Idealize.ShloMosaic.Init

noncomputable section

namespace Cert.Proof

open Idealize.ShloMosaic Idealize.SL.Sem

/-- The word-level program runs to the end and leaves its four arguments as launched. -/
theorem frame_k : Cert.frame_Kernel := fun m ρ _ => Cert.Kernel.Hand.frame m ρ

theorem claim : Cert.Claim :=
  ⟨Cert.Kernel.Gen.facts, Cert.KernelIdeal.Gen.facts, Cert.ReferenceIdeal.Gen.facts, Cert.Pre_finite_inputs.Gen.facts,
    frame_k, Cert.Proof.Value.frame_ki, Cert.Proof.Value.frame_ri, Cert.Proof.Value.preserves, Cert.Proof.Value.algebraic⟩

end Cert.Proof

end
